-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4x10 : Shape := ⟨3, ![1048576, 4, 10]⟩
abbrev S1048576x4x8 : Shape := ⟨3, ![1048576, 4, 8]⟩
abbrev S1048576x1 : Shape := ⟨2, ![1048576, 1]⟩
abbrev S10x10 : Shape := ⟨2, ![10, 10]⟩
abbrev S10 : Shape := ⟨1, ![10]⟩
abbrev S1x10 : Shape := ⟨2, ![1, 10]⟩
abbrev S1 : Shape := ⟨1, ![1]⟩
abbrev S8x8 : Shape := ⟨2, ![8, 8]⟩
abbrev S8 : Shape := ⟨1, ![8]⟩
abbrev S1x8 : Shape := ⟨2, ![1, 8]⟩
abbrev S1x1 : Shape := ⟨2, ![1, 1]⟩
abbrev S_ : Shape := ⟨0, ![]⟩

class Facts : Prop where
  bcast_S_S1048576x4x10 : S_.BroadcastsInDim S1048576x4x10 (![] : Fin 0 → Fin S1048576x4x10.rank)
  reducesTo_S1048576x4x10_S_d0_1_2 : S1048576x4x10.ReducesTo [0, 1, 2] S_
  h_S_ : 0 < S_.numel
  bcast_S_S1048576x4x8 : S_.BroadcastsInDim S1048576x4x8 (![] : Fin 0 → Fin S1048576x4x8.rank)
  reducesTo_S1048576x4x8_S_d0_1_2 : S1048576x4x8.ReducesTo [0, 1, 2] S_
  bcast_S_S1048576x1 : S_.BroadcastsInDim S1048576x1 (![] : Fin 0 → Fin S1048576x1.rank)
  reducesTo_S1048576x1_S_d0_1 : S1048576x1.ReducesTo [0, 1] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S1x10 : S_.BroadcastsInDim S1x10 (![] : Fin 0 → Fin S1x10.rank)
  reducesTo_S1x10_S_d0_1 : S1x10.ReducesTo [0, 1] S_
  bcast_S_S1 : S_.BroadcastsInDim S1 (![] : Fin 0 → Fin S1.rank)
  reducesTo_S1_S_d0 : S1.ReducesTo [0] S_
  bcast_S_S8x8 : S_.BroadcastsInDim S8x8 (![] : Fin 0 → Fin S8x8.rank)
  reducesTo_S8x8_S_d0_1 : S8x8.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1x1 : S_.BroadcastsInDim S1x1 (![] : Fin 0 → Fin S1x1.rank)
  reducesTo_S1x1_S_d0_1 : S1x1.ReducesTo [0, 1] S_

variable [Facts]

def fn_part6 {F : FTy → Type} [FloatOps F] (main_arg21 : FVec F S1 .f32) (main_arg22 : FVec F S1x1 .f32) (main_arg23 : FVec F S1 .f32) (main_v98 : IVec S_ 1) (main_v101 : IVec S1x10 1) (main_c_39 : IVec S_ 1) : IVec S_ 1 :=
  let main_v102 : IVec S_ 1 := (fun x v => Host.reduce IntOp.andi x v reducesTo_S1x10_S_d0_1 h_S_) main_v101 main_c_39
  let main_v103 : IVec S_ 1 := andi main_v98 main_v102
  let main_v104 : FVec F S1 .f32 := Host.absf main_arg21
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S1x1 .f32 := Host.absf main_arg22
  let main_cst_42 : FVec F S_ .f32 := constant S_ .f32 0x7F800000#32
  let main_v110 : FVec F S1x1 .f32 := broadcastInDim S1x1 ![] bcast_S_S1x1 main_cst_42
  let main_v111 : IVec S1x1 1 := cmpf .olt main_v109 main_v110
  let main_c_43 : IVec S_ 1 := constantI S_ 1 1#1
  let main_v112 : IVec S_ 1 := (fun x v => Host.reduce IntOp.andi x v reducesTo_S1x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S10x10 .f32) (main_arg19 : FVec F S10 .f32) (main_arg20 : FVec F S1x10 .f32) (main_arg21 : FVec F S1 .f32) (main_arg22 : FVec F S1x1 .f32) (main_arg23 : FVec F S1 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10x10 .f32 := Host.absf main_arg18
  let main_cst_34 : FVec F S_ .f32 := constant S_ .f32 0x7F800000#32
  let main_v90 : FVec F S10x10 .f32 := broadcastInDim S10x10 ![] bcast_S_S10x10 main_cst_34
  let main_v91 : IVec S10x10 1 := cmpf .olt main_v89 main_v90
  let main_c_35 : IVec S_ 1 := constantI S_ 1 1#1
  let main_v92 : IVec S_ 1 := (fun x v => Host.reduce IntOp.andi x v reducesTo_S10x10_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S1x10 .f32 := Host.absf main_arg20
  let main_cst_38 : FVec F S_ .f32 := constant S_ .f32 0x7F800000#32
  let main_v100 : FVec F S1x10 .f32 := broadcastInDim S1x10 ![] bcast_S_S1x10 main_cst_38
  let main_v101 : IVec S1x10 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S1x8 .f32) (main_arg15 : FVec F S1 .f32) (main_arg16 : FVec F S10x10 .f32) (main_arg17 : FVec F S10 .f32) (main_arg18 : FVec F S10x10 .f32) (main_arg19 : FVec F S10 .f32) (main_arg20 : FVec F S1x10 .f32) (main_arg21 : FVec F S1 .f32) (main_arg22 : FVec F S1x1 .f32) (main_arg23 : FVec F S1 .f32) (main_v63 : IVec S_ 1) (main_v67 : IVec S_ 1) : IVec S_ 1 :=
  let main_v68 : IVec S_ 1 := andi main_v63 main_v67
  let main_v69 : FVec F S1x8 .f32 := Host.absf main_arg14
  let main_cst_26 : FVec F S_ .f32 := constant S_ .f32 0x7F800000#32
  let main_v70 : FVec F S1x8 .f32 := broadcastInDim S1x8 ![] bcast_S_S1x8 main_cst_26
  let main_v71 : IVec S1x8 1 := cmpf .olt main_v69 main_v70
  let main_c_27 : IVec S_ 1 := constantI S_ 1 1#1
  let main_v72 : IVec S_ 1 := (fun x v => Host.reduce IntOp.andi x v reducesTo_S1x8_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S10x10 .f32 := Host.absf main_arg16
  let main_cst_30 : FVec F S_ .f32 := constant S_ .f32 0x7F800000#32
  let main_v80 : FVec F S10x10 .f32 := broadcastInDim S10x10 ![] bcast_S_S10x10 main_cst_30
  let main_v81 : IVec S10x10 1 := cmpf .olt main_v79 main_v80
  let main_c_31 : IVec S_ 1 := constantI S_ 1 1#1
  let main_v82 : IVec S_ 1 := (fun x v => Host.reduce IntOp.andi x v reducesTo_S10x10_S_d0_1 h_S_) main_v81 main_c_31
  let main_v83 : IVec S_ 1 := andi main_v78 main_v82
  let main_v84 : FVec F S10 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S8 .f32) (main_arg12 : FVec F S8x8 .f32) (main_arg13 : FVec F S8 .f32) (main_arg14 : FVec F S1x8 .f32) (main_arg15 : FVec F S1 .f32) (main_arg16 : FVec F S10x10 .f32) (main_arg17 : FVec F S10 .f32) (main_arg18 : FVec F S10x10 .f32) (main_arg19 : FVec F S10 .f32) (main_arg20 : FVec F S1x10 .f32) (main_arg21 : FVec F S1 .f32) (main_arg22 : FVec F S1x1 .f32) (main_arg23 : FVec F S1 .f32) (main_v48 : IVec S_ 1) (main_v49 : FVec F S8x8 .f32) (main_v50 : FVec F S8x8 .f32) : IVec S_ 1 :=
  let main_v51 : IVec S8x8 1 := cmpf .olt main_v49 main_v50
  let main_c_19 : IVec S_ 1 := constantI S_ 1 1#1
  let main_v52 : IVec S_ 1 := (fun x v => Host.reduce IntOp.andi x v reducesTo_S8x8_S_d0_1 h_S_) main_v51 main_c_19
  let main_v53 : IVec S_ 1 := andi main_v48 main_v52
  let main_v54 : FVec F S8 .f32 := Host.absf main_arg11
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8x8 .f32 := Host.absf main_arg12
  let main_cst_22 : FVec F S_ .f32 := constant S_ .f32 0x7F800000#32
  let main_v60 : FVec F S8x8 .f32 := broadcastInDim S8x8 ![] bcast_S_S8x8 main_cst_22
  let main_v61 : IVec S8x8 1 := cmpf .olt main_v59 main_v60
  let main_c_23 : IVec S_ 1 := constantI S_ 1 1#1
  let main_v62 : IVec S_ 1 := (fun x v => Host.reduce IntOp.andi x v reducesTo_S8x8_S_d0_1 h_S_) main_v61 main_c_23
  let main_v63 : IVec S_ 1 := andi main_v58 main_v62
  let main_v64 : FVec F S8 .f32 := Host.absf main_arg13
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S10 .f32) (main_arg8 : FVec F S1x10 .f32) (main_arg9 : FVec F S1 .f32) (main_arg10 : FVec F S8x8 .f32) (main_arg11 : FVec F S8 .f32) (main_arg12 : FVec F S8x8 .f32) (main_arg13 : FVec F S8 .f32) (main_arg14 : FVec F S1x8 .f32) (main_arg15 : FVec F S1 .f32) (main_arg16 : FVec F S10x10 .f32) (main_arg17 : FVec F S10 .f32) (main_arg18 : FVec F S10x10 .f32) (main_arg19 : FVec F S10 .f32) (main_arg20 : FVec F S1x10 .f32) (main_arg21 : FVec F S1 .f32) (main_arg22 : FVec F S1x1 .f32) (main_arg23 : FVec F S1 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S1x10 .f32 := Host.absf main_arg8
  let main_cst_14 : FVec F S_ .f32 := constant S_ .f32 0x7F800000#32
  let main_v40 : FVec F S1x10 .f32 := broadcastInDim S1x10 ![] bcast_S_S1x10 main_cst_14
  let main_v41 : IVec S1x10 1 := cmpf .olt main_v39 main_v40
  let main_c_15 : IVec S_ 1 := constantI S_ 1 1#1
  let main_v42 : IVec S_ 1 := (fun x v => Host.reduce IntOp.andi x v reducesTo_S1x10_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S8x8 .f32 := Host.absf main_arg10
  let main_cst_18 : FVec F S_ .f32 := constant S_ .f32 0x7F800000#32
  let main_v50 : FVec F S8x8 .f32 := broadcastInDim S8x8 ![] bcast_S_S8x8 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S10x10 .f32) (main_arg5 : FVec F S10 .f32) (main_arg6 : FVec F S10x10 .f32) (main_arg7 : FVec F S10 .f32) (main_arg8 : FVec F S1x10 .f32) (main_arg9 : FVec F S1 .f32) (main_arg10 : FVec F S8x8 .f32) (main_arg11 : FVec F S8 .f32) (main_arg12 : FVec F S8x8 .f32) (main_arg13 : FVec F S8 .f32) (main_arg14 : FVec F S1x8 .f32) (main_arg15 : FVec F S1 .f32) (main_arg16 : FVec F S10x10 .f32) (main_arg17 : FVec F S10 .f32) (main_arg18 : FVec F S10x10 .f32) (main_arg19 : FVec F S10 .f32) (main_arg20 : FVec F S1x10 .f32) (main_arg21 : FVec F S1 .f32) (main_arg22 : FVec F S1x1 .f32) (main_arg23 : FVec F S1 .f32) (main_v13 : IVec S_ 1) (main_v16 : IVec S1048576x1 1) : IVec S_ 1 :=
  let main_c_5 : IVec S_ 1 := constantI S_ 1 1#1
  let main_v17 : IVec S_ 1 := (fun x v => Host.reduce IntOp.andi x v reducesTo_S1048576x1_S_d0_1 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg6
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S1048576x4x10 .f32) (main_arg1 : FVec F S1048576x4x8 .f32) (main_arg2 : FVec F S1048576x4x10 .f32) (main_arg3 : FVec F S1048576x1 .f32) (main_arg4 : FVec F S10x10 .f32) (main_arg5 : FVec F S10 .f32) (main_arg6 : FVec F S10x10 .f32) (main_arg7 : FVec F S10 .f32) (main_arg8 : FVec F S1x10 .f32) (main_arg9 : FVec F S1 .f32) (main_arg10 : FVec F S8x8 .f32) (main_arg11 : FVec F S8 .f32) (main_arg12 : FVec F S8x8 .f32) (main_arg13 : FVec F S8 .f32) (main_arg14 : FVec F S1x8 .f32) (main_arg15 : FVec F S1 .f32) (main_arg16 : FVec F S10x10 .f32) (main_arg17 : FVec F S10 .f32) (main_arg18 : FVec F S10x10 .f32) (main_arg19 : FVec F S10 .f32) (main_arg20 : FVec F S1x10 .f32) (main_arg21 : FVec F S1 .f32) (main_arg22 : FVec F S1x1 .f32) (main_arg23 : FVec F S1 .f32) : IVec S_ 1 :=
  let main_v0 : FVec F S1048576x4x10 .f32 := Host.absf main_arg0
  let main_cst : FVec F S_ .f32 := constant S_ .f32 0x7F800000#32
  let main_v1 : FVec F S1048576x4x10 .f32 := broadcastInDim S1048576x4x10 ![] bcast_S_S1048576x4x10 main_cst
  let main_v2 : IVec S1048576x4x10 1 := cmpf .olt main_v0 main_v1
  let main_c : IVec S_ 1 := constantI S_ 1 1#1
  let main_v3 : IVec S_ 1 := (fun x v => Host.reduce IntOp.andi x v reducesTo_S1048576x4x10_S_d0_1_2 h_S_) main_v2 main_c
  let main_v4 : FVec F S1048576x4x8 .f32 := Host.absf main_arg1
  let main_cst_0 : FVec F S_ .f32 := constant S_ .f32 0x7F800000#32
  let main_v5 : FVec F S1048576x4x8 .f32 := broadcastInDim S1048576x4x8 ![] bcast_S_S1048576x4x8 main_cst_0
  let main_v6 : IVec S1048576x4x8 1 := cmpf .olt main_v4 main_v5
  let main_c_1 : IVec S_ 1 := constantI S_ 1 1#1
  let main_v7 : IVec S_ 1 := (fun x v => Host.reduce IntOp.andi x v reducesTo_S1048576x4x8_S_d0_1_2 h_S_) main_v6 main_c_1
  let main_v8 : IVec S_ 1 := andi main_v3 main_v7
  let main_v9 : FVec F S1048576x4x10 .f32 := Host.absf main_arg2
  let main_cst_2 : FVec F S_ .f32 := constant S_ .f32 0x7F800000#32
  let main_v10 : FVec F S1048576x4x10 .f32 := broadcastInDim S1048576x4x10 ![] bcast_S_S1048576x4x10 main_cst_2
  let main_v11 : IVec S1048576x4x10 1 := cmpf .olt main_v9 main_v10
  let main_c_3 : IVec S_ 1 := constantI S_ 1 1#1
  let main_v12 : IVec S_ 1 := (fun x v => Host.reduce IntOp.andi x v reducesTo_S1048576x4x10_S_d0_1_2 h_S_) main_v11 main_c_3
  let main_v13 : IVec S_ 1 := andi main_v8 main_v12
  let main_v14 : FVec F S1048576x1 .f32 := Host.absf main_arg3
  let main_cst_4 : FVec F S_ .f32 := constant S_ .f32 0x7F800000#32
  let main_v15 : FVec F S1048576x1 .f32 := broadcastInDim S1048576x1 ![] bcast_S_S1048576x1 main_cst_4
  let main_v16 : IVec S1048576x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S1048576x4x10 : Shape := ⟨3, ![1048576, 4, 10]⟩
abbrev S1048576x4x8 : Shape := ⟨3, ![1048576, 4, 8]⟩
abbrev S1048576x1 : Shape := ⟨2, ![1048576, 1]⟩
abbrev S10x10 : Shape := ⟨2, ![10, 10]⟩
abbrev S10 : Shape := ⟨1, ![10]⟩
abbrev S1x10 : Shape := ⟨2, ![1, 10]⟩
abbrev S1 : Shape := ⟨1, ![1]⟩
abbrev S8x8 : Shape := ⟨2, ![8, 8]⟩
abbrev S8 : Shape := ⟨1, ![8]⟩
abbrev S1x8 : Shape := ⟨2, ![1, 8]⟩
abbrev S1x1 : Shape := ⟨2, ![1, 1]⟩
abbrev S1048576x40 : Shape := ⟨2, ![1048576, 40]⟩
abbrev S1048576x32 : Shape := ⟨2, ![1048576, 32]⟩
abbrev S4x4 : Shape := ⟨2, ![4, 4]⟩
abbrev S_ : Shape := ⟨0, ![]⟩
abbrev S4x1x4x1 : Shape := ⟨4, ![4, 1, 4, 1]⟩
abbrev S1x10x1x10 : Shape := ⟨4, ![1, 10, 1, 10]⟩
abbrev S4x10x4x10 : Shape := ⟨4, ![4, 10, 4, 10]⟩
abbrev S40x40 : Shape := ⟨2, ![40, 40]⟩
abbrev S10x1 : Shape := ⟨2, ![10, 1]⟩
abbrev S1x10x1x1 : Shape := ⟨4, ![1, 10, 1, 1]⟩
abbrev S4x10x1x1 : Shape := ⟨4, ![4, 10, 1, 1]⟩
abbrev S40x1 : Shape := ⟨2, ![40, 1]⟩
abbrev S4x10 : Shape := ⟨2, ![4, 10]⟩
abbrev S40 : Shape := ⟨1, ![40]⟩
abbrev S1x8x1x8 : Shape := ⟨4, ![1, 8, 1, 8]⟩
abbrev S4x8x4x8 : Shape := ⟨4, ![4, 8, 4, 8]⟩
abbrev S32x32 : Shape := ⟨2, ![32, 32]⟩
abbrev S8x1 : Shape := ⟨2, ![8, 1]⟩
abbrev S1x8x1x1 : Shape := ⟨4, ![1, 8, 1, 1]⟩
abbrev S4x8x1x1 : Shape := ⟨4, ![4, 8, 1, 1]⟩
abbrev S32x1 : Shape := ⟨2, ![32, 1]⟩
abbrev S4x8 : Shape := ⟨2, ![4, 8]⟩
abbrev S32 : Shape := ⟨1, ![32]⟩
abbrev S4096x40 : Shape := ⟨2, ![4096, 40]⟩
abbrev S4096x32 : Shape := ⟨2, ![4096, 32]⟩
abbrev S4096x1 : Shape := ⟨2, ![4096, 1]⟩
abbrev S1x40 : Shape := ⟨2, ![1, 40]⟩
abbrev S1x32 : Shape := ⟨2, ![1, 32]⟩

abbrev nBuf : Space → Nat
  | .hbm => 160
  | .vmem => 30
  | .smem => 0
  | _ => 0

abbrev hbmTy0_0 (i : Nat) : BufTy := match i % 128 with
  | 0 => ⟨S1048576x4x10, .f32⟩
  | 1 => ⟨S1048576x4x8, .f32⟩
  | 2 => ⟨S1048576x4x10, .f32⟩
  | 3 => ⟨S1048576x1, .f32⟩
  | 4 => ⟨S10x10, .f32⟩
  | 5 => ⟨S10, .f32⟩
  | 6 => ⟨S10x10, .f32⟩
  | 7 => ⟨S10, .f32⟩
  | 8 => ⟨S1x10, .f32⟩
  | 9 => ⟨S1, .f32⟩
  | 10 => ⟨S8x8, .f32⟩
  | 11 => ⟨S8, .f32⟩
  | 12 => ⟨S8x8, .f32⟩
  | 13 => ⟨S8, .f32⟩
  | 14 => ⟨S1x8, .f32⟩
  | 15 => ⟨S1, .f32⟩
  | 16 => ⟨S10x10, .f32⟩
  | 17 => ⟨S10, .f32⟩
  | 18 => ⟨S10x10, .f32⟩
  | 19 => ⟨S10, .f32⟩
  | 20 => ⟨S1x10, .f32⟩
  | 21 => ⟨S1, .f32⟩
  | 22 => ⟨S1x1, .f32⟩
  | 23 => ⟨S1, .f32⟩
  | 24 => ⟨S1048576x40, .f32⟩
  | 25 => ⟨S1048576x32, .f32⟩
  | 26 => ⟨S1048576x40, .f32⟩
  | 27 => ⟨S10x10, .f32⟩
  | 28 => ⟨S4x4, .i32⟩
  | 29 => ⟨S4x4, .i32⟩
  | 30 => ⟨S_, .i32⟩
  | 31 => ⟨S4x4, .i32⟩
  | 32 => ⟨S4x4, .i32⟩
  | 33 => ⟨S4x4, .i1⟩
  | 34 => ⟨S4x4, .f32⟩
  | 35 => ⟨S4x1x4x1, .f32⟩
  | 36 => ⟨S1x10x1x10, .f32⟩
  | 37 => ⟨S4x10x4x10, .f32⟩
  | 38 => ⟨S4x10x4x10, .f32⟩
  | 39 => ⟨S4x10x4x10, .f32⟩
  | 40 => ⟨S40x40, .f32⟩
  | 41 => ⟨S40x40, .bf16⟩
  | 42 => ⟨S10x10, .f32⟩
  | 43 => ⟨S4x4, .i32⟩
  | 44 => ⟨S4x4, .i32⟩
  | 45 => ⟨S_, .i32⟩
  | 46 => ⟨S4x4, .i32⟩
  | 47 => ⟨S4x4, .i32⟩
  | 48 => ⟨S4x4, .i1⟩
  | 49 => ⟨S4x4, .f32⟩
  | 50 => ⟨S4x1x4x1, .f32⟩
  | 51 => ⟨S1x10x1x10, .f32⟩
  | 52 => ⟨S4x10x4x10, .f32⟩
  | 53 => ⟨S4x10x4x10, .f32⟩
  | 54 => ⟨S4x10x4x10, .f32⟩
  | 55 => ⟨S40x40, .f32⟩
  | 56 => ⟨S40x40, .bf16⟩
  | 57 => ⟨S10x1, .f32⟩
  | 58 => ⟨S1x10x1x1, .f32⟩
  | 59 => ⟨S4x10x1x1, .f32⟩
  | 60 => ⟨S40x1, .f32⟩
  | 61 => ⟨S40x1, .bf16⟩
  | 62 => ⟨S1x10, .f32⟩
  | 63 => ⟨S4x10, .f32⟩
  | 64 => ⟨S40, .f32⟩
  | 65 => ⟨S1x10, .f32⟩
  | 66 => ⟨S4x10, .f32⟩
  | 67 => ⟨S40, .f32⟩
  | 68 => ⟨S_, .f32⟩
  | 69 => ⟨S1, .f32⟩
  | 70 => ⟨S1, .f32⟩
  | 71 => ⟨S8x8, .f32⟩
  | 72 => ⟨S4x4, .i32⟩
  | 73 => ⟨S4x4, .i32⟩
  | 74 => ⟨S_, .i32⟩
  | 75 => ⟨S4x4, .i32⟩
  | 76 => ⟨S4x4, .i32⟩
  | 77 => ⟨S4x4, .i1⟩
  | 78 => ⟨S4x4, .f32⟩
  | 79 => ⟨S4x1x4x1, .f32⟩
  | 80 => ⟨S1x8x1x8, .f32⟩
  | 81 => ⟨S4x8x4x8, .f32⟩
  | 82 => ⟨S4x8x4x8, .f32⟩
  | 83 => ⟨S4x8x4x8, .f32⟩
  | 84 => ⟨S32x32, .f32⟩
  | 85 => ⟨S32x32, .bf16⟩
  | 86 => ⟨S8x8, .f32⟩
  | 87 => ⟨S4x4, .i32⟩
  | 88 => ⟨S4x4, .i32⟩
  | 89 => ⟨S_, .i32⟩
  | 90 => ⟨S4x4, .i32⟩
  | 91 => ⟨S4x4, .i32⟩
  | 92 => ⟨S4x4, .i1⟩
  | 93 => ⟨S4x4, .f32⟩
  | 94 => ⟨S4x1x4x1, .f32⟩
  | 95 => ⟨S1x8x1x8, .f32⟩
  | 96 => ⟨S4x8x4x8, .f32⟩
  | 97 => ⟨S4x8x4x8, .f32⟩
  | 98 => ⟨S4x8x4x8, .f32⟩
  | 99 => ⟨S32x32, .f32⟩
  | 100 => ⟨S32x32, .bf16⟩
  | 101 => ⟨S8x1, .f32⟩
  | 102 => ⟨S1x8x1x1, .f32⟩
  | 103 => ⟨S4x8x1x1, .f32⟩
  | 104 => ⟨S32x1, .f32⟩
  | 105 => ⟨S32x1, .bf16⟩
  | 106 => ⟨S1x8, .f32⟩
  | 107 => ⟨S4x8, .f32⟩
  | 108 => ⟨S32, .f32⟩
  | 109 => ⟨S1x8, .f32⟩
  | 110 => ⟨S4x8, .f32⟩
  | 111 => ⟨S32, .f32⟩
  | 112 => ⟨S_, .f32⟩
  | 113 => ⟨S1, .f32⟩
  | 114 => ⟨S1, .f32⟩
  | 115 => ⟨S10x10, .f32⟩
  | 116 => ⟨S4x4, .i32⟩
  | 117 => ⟨S4x4, .i32⟩
  | 118 => ⟨S_, .i32⟩
  | 119 => ⟨S4x4, .i32⟩
  | 120 => ⟨S4x4, .i32⟩
  | 121 => ⟨S4x4, .i1⟩
  | 122 => ⟨S4x4, .f32⟩
  | 123 => ⟨S4x1x4x1, .f32⟩
  | 124 => ⟨S1x10x1x10, .f32⟩
  | 125 => ⟨S4x10x4x10, .f32⟩
  | 126 => ⟨S4x10x4x10, .f32⟩
  | 127 => ⟨S4x10x4x10, .f32⟩
  | _ => ⟨S1048576x4x10, .f32⟩

abbrev hbmTy0_1 (i : Nat) : BufTy := match i % 128 with
  | 0 => ⟨S40x40, .f32⟩
  | 1 => ⟨S40x40, .bf16⟩
  | 2 => ⟨S10x10, .f32⟩
  | 3 => ⟨S4x4, .i32⟩
  | 4 => ⟨S4x4, .i32⟩
  | 5 => ⟨S_, .i32⟩
  | 6 => ⟨S4x4, .i32⟩
  | 7 => ⟨S4x4, .i32⟩
  | 8 => ⟨S4x4, .i1⟩
  | 9 => ⟨S4x4, .f32⟩
  | 10 => ⟨S4x1x4x1, .f32⟩
  | 11 => ⟨S1x10x1x10, .f32⟩
  | 12 => ⟨S4x10x4x10, .f32⟩
  | 13 => ⟨S4x10x4x10, .f32⟩
  | 14 => ⟨S4x10x4x10, .f32⟩
  | 15 => ⟨S40x40, .f32⟩
  | 16 => ⟨S40x40, .bf16⟩
  | 17 => ⟨S10x1, .f32⟩
  | 18 => ⟨S1x10x1x1, .f32⟩
  | 19 => ⟨S4x10x1x1, .f32⟩
  | 20 => ⟨S40x1, .f32⟩
  | 21 => ⟨S40x1, .bf16⟩
  | 22 => ⟨S1x10, .f32⟩
  | 23 => ⟨S4x10, .f32⟩
  | 24 => ⟨S40, .f32⟩
  | 25 => ⟨S1x10, .f32⟩
  | 26 => ⟨S4x10, .f32⟩
  | 27 => ⟨S40, .f32⟩
  | 28 => ⟨S_, .f32⟩
  | 29 => ⟨S1, .f32⟩
  | 30 => ⟨S1, .f32⟩
  | 31 => ⟨S1048576x1, .f32⟩
  | _ => ⟨S1048576x4x10, .f32⟩

abbrev hbmTy (i : Nat) : BufTy := match i / 128 with
  | 0 => hbmTy0_0 i
  | 1 => hbmTy0_1 i
  | _ => ⟨S1048576x4x10, .f32⟩

abbrev bufTy : (tb : Table) → Fin (tcTables nBuf tb) → BufTy
  | .hbm, ⟨i, _⟩ => hbmTy i
  | .local _ .vmem, ⟨0, _⟩ => ⟨S4096x40, .f32⟩
  | .local _ .vmem, ⟨1, _⟩ => ⟨S4096x40, .f32⟩
  | .local _ .vmem, ⟨2, _⟩ => ⟨S4096x32, .f32⟩
  | .local _ .vmem, ⟨3, _⟩ => ⟨S4096x32, .f32⟩
  | .local _ .vmem, ⟨4, _⟩ => ⟨S4096x40, .f32⟩
  | .local _ .vmem, ⟨5, _⟩ => ⟨S4096x40, .f32⟩
  | .local _ .vmem, ⟨6, _⟩ => ⟨S4096x1, .f32⟩
  | .local _ .vmem, ⟨7, _⟩ => ⟨S4096x1, .f32⟩
  | .local _ .vmem, ⟨8, _⟩ => ⟨S40x40, .bf16⟩
  | .local _ .vmem, ⟨9, _⟩ => ⟨S40, .f32⟩
  | .local _ .vmem, ⟨10, _⟩ => ⟨S40x40, .bf16⟩
  | .local _ .vmem, ⟨11, _⟩ => ⟨S40, .f32⟩
  | .local _ .vmem, ⟨12, _⟩ => ⟨S40x1, .bf16⟩
  | .local _ .vmem, ⟨13, _⟩ => ⟨S1, .f32⟩
  | .local _ .vmem, ⟨14, _⟩ => ⟨S32x32, .bf16⟩
  | .local _ .vmem, ⟨15, _⟩ => ⟨S32, .f32⟩
  | .local _ .vmem, ⟨16, _⟩ => ⟨S32x32, .bf16⟩
  | .local _ .vmem, ⟨17, _⟩ => ⟨S32, .f32⟩
  | .local _ .vmem, ⟨18, _⟩ => ⟨S32x1, .bf16⟩
  | .local _ .vmem, ⟨19, _⟩ => ⟨S1, .f32⟩
  | .local _ .vmem, ⟨20, _⟩ => ⟨S40x40, .bf16⟩
  | .local _ .vmem, ⟨21, _⟩ => ⟨S40, .f32⟩
  | .local _ .vmem, ⟨22, _⟩ => ⟨S40x40, .bf16⟩
  | .local _ .vmem, ⟨23, _⟩ => ⟨S40, .f32⟩
  | .local _ .vmem, ⟨24, _⟩ => ⟨S40x1, .bf16⟩
  | .local _ .vmem, ⟨25, _⟩ => ⟨S1, .f32⟩
  | .local _ .vmem, ⟨26, _⟩ => ⟨S1x1, .f32⟩
  | .local _ .vmem, ⟨27, _⟩ => ⟨S1, .f32⟩
  | .local _ .vmem, ⟨28, _⟩ => ⟨S4096x1, .f32⟩
  | .local _ .vmem, ⟨29, _⟩ => ⟨S4096x1, .f32⟩
  | _, _ => ⟨S1048576x4x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_1 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_c_2 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_3 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_c_4 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call4_v0 : Ref sig .tc := ⟨.hbm, 123, rfl⟩
abbrev main_call4_v1 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_c_5 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_cst_6 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg24_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem24_1 : DmaSem sig := 29

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S40x40 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S40x40 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S40x40 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S40 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S40x40 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S40 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S40x1 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S4096x1 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

class Facts₀ : Prop where
  shapeCasts_S1048576x4x10_S1048576x40 : S1048576x4x10.ShapeCasts S1048576x40
  shapeCasts_S1048576x4x8_S1048576x32 : S1048576x4x8.ShapeCasts S1048576x32
  transposes_S10x10_S10x10_1_0 : S10x10.Transposes [1, 0] S10x10
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S10x10_S1x10x1x10_1_3 : S10x10.BroadcastsInDim S1x10x1x10 (![1, 3] : Fin 2 → Fin S1x10x1x10.rank)
  bcast_S4x1x4x1_S4x10x4x10_0_1_2_3 : S4x1x4x1.BroadcastsInDim S4x10x4x10 (![0, 1, 2, 3] : Fin 4 → Fin S4x10x4x10.rank)
  bcast_S1x10x1x10_S4x10x4x10_0_1_2_3 : S1x10x1x10.BroadcastsInDim S4x10x4x10 (![0, 1, 2, 3] : Fin 4 → Fin S4x10x4x10.rank)
  shapeCasts_S4x10x4x10_S40x40 : S4x10x4x10.ShapeCasts S40x40
  bitsLt_bf16_f32 : FTy.bits .bf16 < FTy.bits .f32
  transposes_S1x10_S10x1_1_0 : S1x10.Transposes [1, 0] S10x1
  shapeCasts_S10x1_S1x10x1x1 : S10x1.ShapeCasts S1x10x1x1
  bcast_S1x10x1x1_S4x10x1x1_0_1_2_3 : S1x10x1x1.BroadcastsInDim S4x10x1x1 (![0, 1, 2, 3] : Fin 4 → Fin S4x10x1x1.rank)
  shapeCasts_S4x10x1x1_S40x1 : S4x10x1x1.ShapeCasts S40x1
  shapeCasts_S10_S1x10 : S10.ShapeCasts S1x10
  bcast_S1x10_S4x10_0_1 : S1x10.BroadcastsInDim S4x10 (![0, 1] : Fin 2 → Fin S4x10.rank)
  shapeCasts_S4x10_S40 : S4x10.ShapeCasts S40
  bcast_S_S1 : S_.BroadcastsInDim S1 (![] : Fin 0 → Fin S1.rank)
  transposes_S8x8_S8x8_1_0 : S8x8.Transposes [1, 0] S8x8
  bcast_S8x8_S1x8x1x8_1_3 : S8x8.BroadcastsInDim S1x8x1x8 (![1, 3] : Fin 2 → Fin S1x8x1x8.rank)
  bcast_S4x1x4x1_S4x8x4x8_0_1_2_3 : S4x1x4x1.BroadcastsInDim S4x8x4x8 (![0, 1, 2, 3] : Fin 4 → Fin S4x8x4x8.rank)
  bcast_S1x8x1x8_S4x8x4x8_0_1_2_3 : S1x8x1x8.BroadcastsInDim S4x8x4x8 (![0, 1, 2, 3] : Fin 4 → Fin S4x8x4x8.rank)
  shapeCasts_S4x8x4x8_S32x32 : S4x8x4x8.ShapeCasts S32x32
  transposes_S1x8_S8x1_1_0 : S1x8.Transposes [1, 0] S8x1
  shapeCasts_S8x1_S1x8x1x1 : S8x1.ShapeCasts S1x8x1x1
  bcast_S1x8x1x1_S4x8x1x1_0_1_2_3 : S1x8x1x1.BroadcastsInDim S4x8x1x1 (![0, 1, 2, 3] : Fin 4 → Fin S4x8x1x1.rank)
  shapeCasts_S4x8x1x1_S32x1 : S4x8x1x1.ShapeCasts S32x1
  shapeCasts_S8_S1x8 : S8.ShapeCasts S1x8
  bcast_S1x8_S4x8_0_1 : S1x8.BroadcastsInDim S4x8 (![0, 1] : Fin 2 → Fin S4x8.rank)
  shapeCasts_S4x8_S32 : S4x8.ShapeCasts S32
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S40_S40_0 : ∀ a, (![0] : Fin 1 → Nat) a + S40.size a ≤ S40.size a
  h_S40 : 0 < S40.numel
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S1_S1_0 : ∀ a, (![0] : Fin 1 → Nat) a + S1.size a ≤ S1.size a
  h_S1 : 0 < S1.numel
  shapeCasts_S1_S1 : S1.ShapeCasts S1
  shapeCasts_S40_S1x40 : S40.ShapeCasts S1x40
  broadcasts_S1x40_S4096x40 : S1x40.Broadcasts S4096x40
  shapeCasts_S1_S1x1 : S1.ShapeCasts S1x1
  broadcasts_S1x1_S4096x1 : S1x1.Broadcasts S4096x1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32_S1x32 : S32.ShapeCasts S1x32
  broadcasts_S1x32_S4096x32 : S1x32.Broadcasts S4096x32
  inb_S4096x1_S4096x1_0_0 : ∀ a, (![0, 0] : Fin 2 → Nat) a + S4096x1.size a ≤ S4096x1.size a
  h_S4096x1 : 0 < S4096x1.numel
  inb_S1x1_S1x1_0_0 : ∀ a, (![0, 0] : Fin 2 → Nat) a + S1x1.size a ≤ S1x1.size a
  h_S1x1 : 0 < S1x1.numel
  dot_S4096x40_S40x40_S4096x40_1_0_0_1_n_n_wf : DotDims.WF S4096x40 S40x40 S4096x40 [1] [0] [0] [1] [] []
  dot_S4096x40_S40x1_S4096x1_1_0_0_1_n_n_wf : DotDims.WF S4096x40 S40x1 S4096x1 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x40.size a ≤ S1048576x40.size a
  hwx0_0 : ∀ i : grid0.Coords, EltTy.bits .f32 = 32 ∨ (Rect.block (s := S1048576x40) S4096x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S1048576x32.size a
  hwx0_1 : ∀ i : grid0.Coords, EltTy.bits .f32 = 32 ∨ (Rect.block (s := S1048576x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x40.size a ≤ S1048576x40.size a
  hwx0_2 : ∀ i : grid0.Coords, EltTy.bits .f32 = 32 ∨ (Rect.block (s := S1048576x40) S4096x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1048576x1.size a
  hwx0_3 : ∀ i : grid0.Coords, EltTy.bits .f32 = 32 ∨ (Rect.block (s := S1048576x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x40.size a ≤ S40x40.size a
  hwx0_4 : ∀ i : grid0.Coords, EltTy.bits .bf16 = 32 ∨ (Rect.block (s := S40x40) S40x40.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40.size a ≤ S40.size a
  hwx0_5 : ∀ i : grid0.Coords, EltTy.bits .f32 = 32 ∨ (Rect.block (s := S40) S40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S40x40.size a ≤ S40x40.size a
  hwx0_6 : ∀ i : grid0.Coords, EltTy.bits .bf16 = 32 ∨ (Rect.block (s := S40x40) S40x40.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40.size a ≤ S40.size a
  hwx0_7 : ∀ i : grid0.Coords, EltTy.bits .f32 = 32 ∨ (Rect.block (s := S40) S40.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S40x1.size a ≤ S40x1.size a
  hwx0_8 : ∀ i : grid0.Coords, EltTy.bits .bf16 = 32 ∨ (Rect.block (s := S40x1) S40x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .bf16 = 32 ∨ (Rect.block (s := S32x32) S32x32.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x32.size a ≤ S32x32.size a
  hwx0_12 : ∀ i : grid0.Coords, EltTy.bits .bf16 = 32 ∨ (Rect.block (s := S32x32) S32x32.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32.size a ≤ S32.size a
  hwx0_13 : ∀ i : grid0.Coords, EltTy.bits .f32 = 32 ∨ (Rect.block (s := S32) S32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x1.size a ≤ S32x1.size a
  hwx0_14 : ∀ i : grid0.Coords, EltTy.bits .bf16 = 32 ∨ (Rect.block (s := S32x1) S32x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S40x40.size a ≤ S40x40.size a
  hwx0_16 : ∀ i : grid0.Coords, EltTy.bits .bf16 = 32 ∨ (Rect.block (s := S40x40) S40x40.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S40.size a ≤ S40.size a
  hwx0_17 : ∀ i : grid0.Coords, EltTy.bits .f32 = 32 ∨ (Rect.block (s := S40) S40.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S40x40.size a ≤ S40x40.size a
  hwx0_18 : ∀ i : grid0.Coords, EltTy.bits .bf16 = 32 ∨ (Rect.block (s := S40x40) S40x40.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S40.size a ≤ S40.size a
  hwx0_19 : ∀ i : grid0.Coords, EltTy.bits .f32 = 32 ∨ (Rect.block (s := S40) S40.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S40x1.size a ≤ S40x1.size a
  hwx0_20 : ∀ i : grid0.Coords, EltTy.bits .bf16 = 32 ∨ (Rect.block (s := S40x1) S40x1.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1.size a ≤ S1.size a
  hwx0_21 : ∀ i : grid0.Coords, EltTy.bits .f32 = 32 ∨ (Rect.block (s := S1) S1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1.size a ≤ S1.size a
  hwx0_23 : ∀ i : grid0.Coords, EltTy.bits .f32 = 32 ∨ (Rect.block (s := S1) S1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S4096x1.size a ≤ S1048576x1.size a
  hwx0_24 : ∀ i : grid0.Coords, EltTy.bits .f32 = 32 ∨ (Rect.block (s := S1048576x1) S4096x1.size (cc0_transform_24 i) (hinb0_24 i)).WholeWords (EltTy.packing .f32)

variable [Facts₀]

def dot_S4096x40_S40x40_S4096x40_1_0_0_1_n_n : DotDims S4096x40 S40x40 S4096x40 where
  lhsContracting := [1]
  rhsContracting := [0]
  lhsNonContracting := [0]
  rhsNonContracting := [1]
  lhsBatch := []
  rhsBatch := []
  wf := dot_S4096x40_S40x40_S4096x40_1_0_0_1_n_n_wf
def dot_S4096x40_S40x1_S4096x1_1_0_0_1_n_n : DotDims S4096x40 S40x1 S4096x1 where
  lhsContracting := [1]
  rhsContracting := [0]
  lhsNonContracting := [0]
  rhsNonContracting := [1]
  lhsBatch := []
  rhsBatch := []
  wf := dot_S4096x40_S40x1_S4096x1_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpec (Memref.whole main_v0) S4096x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x40.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S40x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S40x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S40x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v59) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v51) S32x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62) S32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v56) S32x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v64) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v73) S40x40.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v90) S40.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v82) S40x40.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v93) S40.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v87) S40x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v95) S1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v96) S4096x1.size cc0_transform_24 reads0_24 true false 2 stage0_24 sem0_24
    hrank0 hreads0_24 hinb0_24 nbuf0_24 (Memref.isWhole_whole _) hwx0_24 hstage0_24

abbrev win0 : Fin 25 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | ⟨_ + 25, h⟩ => absurd h (Nat.not_lt.2 (Nat.le_add_left _ _))
abbrev spec0 : Fin 25 → Pipeline.WinSpec sig grid0.rank := fun w => (win0 w).toWinSpec

class Facts : Prop extends Facts₀ where

variable [Facts]
-- ==== ReferenceIdeal.lean ====
abbrev S1048576x4x10 : Shape := ⟨3, ![1048576, 4, 10]⟩
abbrev S1048576x4x8 : Shape := ⟨3, ![1048576, 4, 8]⟩
abbrev S1048576x1 : Shape := ⟨2, ![1048576, 1]⟩
abbrev S10x10 : Shape := ⟨2, ![10, 10]⟩
abbrev S10 : Shape := ⟨1, ![10]⟩
abbrev S1x10 : Shape := ⟨2, ![1, 10]⟩
abbrev S1 : Shape := ⟨1, ![1]⟩
abbrev S8x8 : Shape := ⟨2, ![8, 8]⟩
abbrev S8 : Shape := ⟨1, ![8]⟩
abbrev S1x8 : Shape := ⟨2, ![1, 8]⟩
abbrev S1x1 : Shape := ⟨2, ![1, 1]⟩
abbrev S1x1x10 : Shape := ⟨3, ![1, 1, 10]⟩
abbrev S_ : Shape := ⟨0, ![]⟩
abbrev S1048576x4x1 : Shape := ⟨3, ![1048576, 4, 1]⟩
abbrev S1x1x1 : Shape := ⟨3, ![1, 1, 1]⟩
abbrev S1x1x8 : Shape := ⟨3, ![1, 1, 8]⟩

abbrev nBuf : Space → Nat
  | .hbm => 91
  | .vmem => 0
  | .smem => 0
  | _ => 0

abbrev bufTy : (tb : Table) → Fin (tcTables nBuf tb) → BufTy
  | .hbm, ⟨0, _⟩ => ⟨S1048576x4x10, .f32⟩
  | .hbm, ⟨1, _⟩ => ⟨S1048576x4x8, .f32⟩
  | .hbm, ⟨2, _⟩ => ⟨S1048576x4x10, .f32⟩
  | .hbm, ⟨3, _⟩ => ⟨S1048576x1, .f32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S1x10, .f32⟩
  | .hbm, ⟨9, _⟩ => ⟨S1, .f32⟩
  | .hbm, ⟨10, _⟩ => ⟨S8x8, .f32⟩
  | .hbm, ⟨11, _⟩ => ⟨S8, .f32⟩
  | .hbm, ⟨12, _⟩ => ⟨S8x8, .f32⟩
  | .hbm, ⟨13, _⟩ => ⟨S8, .f32⟩
  | .hbm, ⟨14, _⟩ => ⟨S1x8, .f32⟩
  | .hbm, ⟨15, _⟩ => ⟨S1, .f32⟩
  | .hbm, ⟨16, _⟩ => ⟨S10x10, .f32⟩
  | .hbm, ⟨17, _⟩ => ⟨S10, .f32⟩
  | .hbm, ⟨18, _⟩ => ⟨S10x10, .f32⟩
  | .hbm, ⟨19, _⟩ => ⟨S10, .f32⟩
  | .hbm, ⟨20, _⟩ => ⟨S1x10, .f32⟩
  | .hbm, ⟨21, _⟩ => ⟨S1, .f32⟩
  | .hbm, ⟨22, _⟩ => ⟨S1x1, .f32⟩
  | .hbm, ⟨23, _⟩ => ⟨S1, .f32⟩
  | .hbm, ⟨24, _⟩ => ⟨S1048576x4x10, .f32⟩
  | .hbm, ⟨25, _⟩ => ⟨S1x1x10, .f32⟩
  | .hbm, ⟨26, _⟩ => ⟨S1048576x4x10, .f32⟩
  | .hbm, ⟨27, _⟩ => ⟨S1048576x4x10, .f32⟩
  | .hbm, ⟨28, _⟩ => ⟨S_, .f32⟩
  | .hbm, ⟨29, _⟩ => ⟨S1048576x4x10, .f32⟩
  | .hbm, ⟨30, _⟩ => ⟨S1048576x4x10, .f32⟩
  | .hbm, ⟨31, _⟩ => ⟨S1048576x4x10, .f32⟩
  | .hbm, ⟨32, _⟩ => ⟨S1x1x10, .f32⟩
  | .hbm, ⟨33, _⟩ => ⟨S1048576x4x10, .f32⟩
  | .hbm, ⟨34, _⟩ => ⟨S1048576x4x10, .f32⟩
  | .hbm, ⟨35, _⟩ => ⟨S_, .f32⟩
  | .hbm, ⟨36, _⟩ => ⟨S1048576x4x10, .f32⟩
  | .hbm, ⟨37, _⟩ => ⟨S1048576x4x10, .f32⟩
  | .hbm, ⟨38, _⟩ => ⟨S1048576x4x1, .f32⟩
  | .hbm, ⟨39, _⟩ => ⟨S1x1x1, .f32⟩
  | .hbm, ⟨40, _⟩ => ⟨S1048576x4x1, .f32⟩
  | .hbm, ⟨41, _⟩ => ⟨S1048576x4x1, .f32⟩
  | .hbm, ⟨42, _⟩ => ⟨S_, .f32⟩
  | .hbm, ⟨43, _⟩ => ⟨S1048576x1, .f32⟩
  | .hbm, ⟨44, _⟩ => ⟨S1048576x4x8, .f32⟩
  | .hbm, ⟨45, _⟩ => ⟨S1x1x8, .f32⟩
  | .hbm, ⟨46, _⟩ => ⟨S1048576x4x8, .f32⟩
  | .hbm, ⟨47, _⟩ => ⟨S1048576x4x8, .f32⟩
  | .hbm, ⟨48, _⟩ => ⟨S_, .f32⟩
  | .hbm, ⟨49, _⟩ => ⟨S1048576x4x8, .f32⟩
  | .hbm, ⟨50, _⟩ => ⟨S1048576x4x8, .f32⟩
  | .hbm, ⟨51, _⟩ => ⟨S1048576x4x8, .f32⟩
  | .hbm, ⟨52, _⟩ => ⟨S1x1x8, .f32⟩
  | .hbm, ⟨53, _⟩ => ⟨S1048576x4x8, .f32⟩
  | .hbm, ⟨54, _⟩ => ⟨S1048576x4x8, .f32⟩
  | .hbm, ⟨55, _⟩ => ⟨S_, .f32⟩
  | .hbm, ⟨56, _⟩ => ⟨S1048576x4x8, .f32⟩
  | .hbm, ⟨57, _⟩ => ⟨S1048576x4x8, .f32⟩
  | .hbm, ⟨58, _⟩ => ⟨S1048576x4x1, .f32⟩
  | .hbm, ⟨59, _⟩ => ⟨S1x1x1, .f32⟩
  | .hbm, ⟨60, _⟩ => ⟨S1048576x4x1, .f32⟩
  | .hbm, ⟨61, _⟩ => ⟨S1048576x4x1, .f32⟩
  | .hbm, ⟨62, _⟩ => ⟨S_, .f32⟩
  | .hbm, ⟨63, _⟩ => ⟨S1048576x1, .f32⟩
  | .hbm, ⟨64, _⟩ => ⟨S1048576x4x10, .f32⟩
  | .hbm, ⟨65, _⟩ => ⟨S1x1x10, .f32⟩
  | .hbm, ⟨66, _⟩ => ⟨S1048576x4x10, .f32⟩
  | .hbm, ⟨67, _⟩ => ⟨S1048576x4x10, .f32⟩
  | .hbm, ⟨68, _⟩ => ⟨S_, .f32⟩
  | .hbm, ⟨69, _⟩ => ⟨S1048576x4x10, .f32⟩
  | .hbm, ⟨70, _⟩ => ⟨S1048576x4x10, .f32⟩
  | .hbm, ⟨71, _⟩ => ⟨S1048576x4x10, .f32⟩
  | .hbm, ⟨72, _⟩ => ⟨S1x1x10, .f32⟩
  | .hbm, ⟨73, _⟩ => ⟨S1048576x4x10, .f32⟩
  | .hbm, ⟨74, _⟩ => ⟨S1048576x4x10, .f32⟩
  | .hbm, ⟨75, _⟩ => ⟨S_, .f32⟩
  | .hbm, ⟨76, _⟩ => ⟨S1048576x4x10, .f32⟩
  | .hbm, ⟨77, _⟩ => ⟨S1048576x4x10, .f32⟩
  | .hbm, ⟨78, _⟩ => ⟨S1048576x4x1, .f32⟩
  | .hbm, ⟨79, _⟩ => ⟨S1x1x1, .f32⟩
  | .hbm, ⟨80, _⟩ => ⟨S1048576x4x1, .f32⟩
  | .hbm, ⟨81, _⟩ => ⟨S1048576x4x1, .f32⟩
  | .hbm, ⟨82, _⟩ => ⟨S_, .f32⟩
  | .hbm, ⟨83, _⟩ => ⟨S1048576x1, .f32⟩
  | .hbm, ⟨84, _⟩ => ⟨S1048576x1, .f32⟩
  | .hbm, ⟨85, _⟩ => ⟨S1x1, .f32⟩
  | .hbm, ⟨86, _⟩ => ⟨S1048576x1, .f32⟩
  | .hbm, ⟨87, _⟩ => ⟨S1048576x1, .f32⟩
  | .hbm, ⟨88, _⟩ => ⟨S1048576x1, .f32⟩
  | .hbm, ⟨89, _⟩ => ⟨S1048576x1, .f32⟩
  | .hbm, ⟨90, _⟩ => ⟨S1048576x1, .f32⟩
  | _, _ => ⟨S1048576x4x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_cst : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_cst : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call2_cst : Ref sig .tc := ⟨.hbm, 48, rfl⟩
abbrev main_call2_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call3_cst : Ref sig .tc := ⟨.hbm, 55, rfl⟩
abbrev main_call3_v0 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call4_cst : Ref sig .tc := ⟨.hbm, 68, rfl⟩
abbrev main_call4_v0 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call5_cst : Ref sig .tc := ⟨.hbm, 75, rfl⟩
abbrev main_call5_v0 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_1 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩

abbrev nD : Nat := 1
abbrev τ : Topo := Topo.v7x

variable {F : FTy → Type} [FloatOps F]

class Facts₀ : Prop where
  bcast_S10_S1x1x10_2 : S10.BroadcastsInDim S1x1x10 (![2] : Fin 1 → Fin S1x1x10.rank)
  bcast_S1x1x10_S1048576x4x10_0_1_2 : S1x1x10.BroadcastsInDim S1048576x4x10 (![0, 1, 2] : Fin 3 → Fin S1048576x4x10.rank)
  bcast_S_S1048576x4x10 : S_.BroadcastsInDim S1048576x4x10 (![] : Fin 0 → Fin S1048576x4x10.rank)
  bcast_S1_S1x1x1_2 : S1.BroadcastsInDim S1x1x1 (![2] : Fin 1 → Fin S1x1x1.rank)
  bcast_S1x1x1_S1048576x4x1_0_1_2 : S1x1x1.BroadcastsInDim S1048576x4x1 (![0, 1, 2] : Fin 3 → Fin S1048576x4x1.rank)
  reducesTo_S1048576x4x1_S1048576x1_d1 : S1048576x4x1.ReducesTo [1] S1048576x1
  h_S_ : 0 < S_.numel
  bcast_S8_S1x1x8_2 : S8.BroadcastsInDim S1x1x8 (![2] : Fin 1 → Fin S1x1x8.rank)
  bcast_S1x1x8_S1048576x4x8_0_1_2 : S1x1x8.BroadcastsInDim S1048576x4x8 (![0, 1, 2] : Fin 3 → Fin S1048576x4x8.rank)
  bcast_S_S1048576x4x8 : S_.BroadcastsInDim S1048576x4x8 (![] : Fin 0 → Fin S1048576x4x8.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x4x10_S10x10_S1048576x4x10_2_1_01_0_n_n_wf : DotDims.WF S1048576x4x10 S10x10 S1048576x4x10 [2] [1] [0, 1] [0] [] []
  dot_S1048576x4x10_S1x10_S1048576x4x1_2_1_01_0_n_n_wf : DotDims.WF S1048576x4x10 S1x10 S1048576x4x1 [2] [1] [0, 1] [0] [] []
  dot_S1048576x4x8_S8x8_S1048576x4x8_2_1_01_0_n_n_wf : DotDims.WF S1048576x4x8 S8x8 S1048576x4x8 [2] [1] [0, 1] [0] [] []
  dot_S1048576x4x8_S1x8_S1048576x4x1_2_1_01_0_n_n_wf : DotDims.WF S1048576x4x8 S1x8 S1048576x4x1 [2] [1] [0, 1] [0] [] []
  dot_S1048576x1_S1x1_S1048576x1_1_1_0_0_n_n_wf : DotDims.WF S1048576x1 S1x1 S1048576x1 [1] [1] [0] [0] [] []

variable [Facts₀]

def dot_S1048576x4x10_S10x10_S1048576x4x10_2_1_01_0_n_n : DotDims S1048576x4x10 S10x10 S1048576x4x10 where
  lhsContracting := [2]
  rhsContracting := [1]
  lhsNonContracting := [0, 1]
  rhsNonContracting := [0]
  lhsBatch := []
  rhsBatch := []
  wf := dot_S1048576x4x10_S10x10_S1048576x4x10_2_1_01_0_n_n_wf
def dot_S1048576x4x10_S1x10_S1048576x4x1_2_1_01_0_n_n : DotDims S1048576x4x10 S1x10 S1048576x4x1 where
  lhsContracting := [2]
  rhsContracting := [1]
  lhsNonContracting := [0, 1]
  rhsNonContracting := [0]
  lhsBatch := []
  rhsBatch := []
  wf := dot_S1048576x4x10_S1x10_S1048576x4x1_2_1_01_0_n_n_wf
def dot_S1048576x4x8_S8x8_S1048576x4x8_2_1_01_0_n_n : DotDims S1048576x4x8 S8x8 S1048576x4x8 where
  lhsContracting := [2]
  rhsContracting := [1]
  lhsNonContracting := [0, 1]
  rhsNonContracting := [0]
  lhsBatch := []
  rhsBatch := []
  wf := dot_S1048576x4x8_S8x8_S1048576x4x8_2_1_01_0_n_n_wf
def dot_S1048576x4x8_S1x8_S1048576x4x1_2_1_01_0_n_n : DotDims S1048576x4x8 S1x8 S1048576x4x1 where
  lhsContracting := [2]
  rhsContracting := [1]
  lhsNonContracting := [0, 1]
  rhsNonContracting := [0]
  lhsBatch := []
  rhsBatch := []
  wf := dot_S1048576x4x8_S1x8_S1048576x4x1_2_1_01_0_n_n_wf
def dot_S1048576x1_S1x1_S1048576x1_1_1_0_0_n_n : DotDims S1048576x1 S1x1 S1048576x1 where
  lhsContracting := [1]
  rhsContracting := [1]
  lhsNonContracting := [0]
  rhsNonContracting := [0]
  lhsBatch := []
  rhsBatch := []
  wf := dot_S1048576x1_S1x1_S1048576x1_1_1_0_0_n_n_wf

class Facts : Prop extends Facts₀ where

variable [Facts]
-- ==== Proof.Spec.lean ====
/-
  The mathematics of the dense three-layer perceptron this certificate is about, with no program in sight.

  A perceptron on `n` features is `mlp3`: two hidden layers `max (x·W + b) 0` and a linear read-out with a bias.
  The reference applies ONE perceptron on `d` features to each of four slices of a row and adds the four results.
  The kernel applies ONE perceptron on `4·d` features to the four slices laid side by side, with block-diagonal
  hidden weights (the `d × d` matrix repeated on the diagonal, an exact `0` or `1` times the entry elsewhere),
  the biases repeated four times, the read-out vector repeated four times, and four times the read-out bias.
  `mlp3_blockdiag` says the two are the same extended real: a product with an exact zero is zero on the extended
  reals whatever the other factor, so every off-diagonal term drops out of the sums; sums of extended reals are
  commutative and associative; and `4 · b = b + b + b + b` for every extended real `b`. No finiteness is needed.
-/
import Idealize.ShloMosaic.PureOps.Ideal
import Mathlib.Logic.Equiv.Fin.Basic
import Mathlib.Algebra.BigOperators.Fin
import Mathlib.Data.Fintype.BigOperators
import Mathlib.Data.EReal.Operations

noncomputable section

namespace Cert.DenseMlp

open Finset

/-- One hidden layer: unit `i` holds `max (∑ l, x l · W l i + b i) 0` (`W l i` is the weight from feature `l` to unit `i`). -/
def layer {n : ℕ} (x : Fin n → EReal) (W : Fin n → Fin n → EReal) (b : Fin n → EReal) (i : Fin n) : EReal :=
  max ((∑ l, x l * W l i) + b i) 0

/-- Two hidden layers and a linear read-out `w3` with bias `b3`. -/
def mlp3 {n : ℕ} (x : Fin n → EReal) (W1 : Fin n → Fin n → EReal) (b1 : Fin n → EReal)
    (W2 : Fin n → Fin n → EReal) (b2 : Fin n → EReal) (w3 : Fin n → EReal) (b3 : EReal) : EReal :=
  (∑ j, layer (layer x W1 b1) W2 b2 j * w3 j) + b3

/-- Feature `k` of slice `s` among `4·d` features laid slice after slice: position `k + d·s`. -/
abbrev cat {d : ℕ} (s : Fin 4) (k : Fin d) : Fin (4 * d) := finProdFinEquiv (s, k)

theorem cat_val {d : ℕ} (s : Fin 4) (k : Fin d) : (cat s k).val = k.val + d * s.val := rfl

/-- A sum over the `4·d` laid-out features is the sum over slices of the sums over a slice's features. -/
theorem sum_cat {d : ℕ} (f : Fin (4 * d) → EReal) : ∑ j, f j = ∑ s : Fin 4, ∑ k : Fin d, f (cat s k) := by
  rw [← Fintype.sum_prod_type' (fun s k => f (cat s k))]
  exact (Fintype.sum_equiv finProdFinEquiv _ _ (fun _ => rfl)).symm

/-- Four times an extended real is the extended real added four times (also at the two infinities). -/
theorem four_mul_ereal (b : EReal) : (4 : EReal) * b = b + b + b + b := by
  have h4 : (0 : EReal) < 4 := by norm_num
  induction b using EReal.rec with
  | bot => rw [EReal.mul_bot_of_pos h4]; rfl
  | coe r =>
    have : (4 : EReal) = ((4 : ℝ) : EReal) := by norm_cast
    rw [this, ← EReal.coe_mul, ← EReal.coe_add, ← EReal.coe_add, ← EReal.coe_add]
    congr 1; ring
  | top => rw [EReal.mul_top_of_pos h4]; rfl

/-- A block-diagonal hidden layer acts slice by slice: unit `o` of slice `s` sees only slice `s`'s features. -/
theorem layer_blockdiag {d : ℕ} (X : Fin (4 * d) → EReal) (B : Fin (4 * d) → Fin (4 * d) → EReal) (c : Fin (4 * d) → EReal)
    (x : Fin 4 → Fin d → EReal) (W : Fin d → Fin d → EReal) (b : Fin d → EReal)
    (hX : ∀ s k, X (cat s k) = x s k)
    (hB : ∀ s k s' o, B (cat s k) (cat s' o) = (if s = s' then 1 else 0) * W k o)
    (hc : ∀ s o, c (cat s o) = b o) (s : Fin 4) (o : Fin d) :
    layer X B c (cat s o) = layer (x s) W b o := by
  unfold layer
  rw [sum_cat, hc]
  congr 2
  rw [Finset.sum_eq_single s]
  · refine Finset.sum_congr rfl fun k _ => ?_
    rw [hX, hB, if_pos rfl, one_mul]
  · intro s' _ hne
    refine Finset.sum_eq_zero fun k _ => ?_
    rw [hB, if_neg hne, zero_mul, mul_zero]
  · intro h; exact absurd (Finset.mem_univ s) h

/-- THE LAW: the perceptron on `4·d` features with block-diagonal hidden weights, repeated biases, a repeated
    read-out vector and four times the read-out bias is the sum over the four slices of the perceptron on `d`
    features (written as the reference's sum from zero). -/
theorem mlp3_blockdiag {d : ℕ} (X : Fin (4 * d) → EReal) (B1 B2 : Fin (4 * d) → Fin (4 * d) → EReal)
    (c1 c2 w : Fin (4 * d) → EReal) (c3 : EReal)
    (x : Fin 4 → Fin d → EReal) (W1 W2 : Fin d → Fin d → EReal) (b1 b2 w3 : Fin d → EReal) (b3 : EReal)
    (hX : ∀ s k, X (cat s k) = x s k)
    (hB1 : ∀ s k s' o, B1 (cat s k) (cat s' o) = (if s = s' then 1 else 0) * W1 k o)
    (hc1 : ∀ s o, c1 (cat s o) = b1 o)
    (hB2 : ∀ s k s' o, B2 (cat s k) (cat s' o) = (if s = s' then 1 else 0) * W2 k o)
    (hc2 : ∀ s o, c2 (cat s o) = b2 o)
    (hw : ∀ s k, w (cat s k) = w3 k) (hc3 : c3 = 4 * b3) :
    mlp3 X B1 c1 B2 c2 w c3 = 0 + ∑ s : Fin 4, mlp3 (x s) W1 b1 W2 b2 w3 b3 := by
  unfold mlp3
  have h1 : ∀ s o, layer X B1 c1 (cat s o) = layer (x s) W1 b1 o := layer_blockdiag X B1 c1 x W1 b1 hX hB1 hc1
  have h2 : ∀ s o, layer (layer X B1 c1) B2 c2 (cat s o) = layer (layer (x s) W1 b1) W2 b2 o :=
    layer_blockdiag (layer X B1 c1) B2 c2 (fun s => layer (x s) W1 b1) W2 b2 h1 hB2 hc2
  rw [sum_cat, zero_add, Finset.sum_add_distrib, hc3, four_mul_ereal]
  congr 1
  · refine Finset.sum_congr rfl fun s _ => Finset.sum_congr rfl fun k _ => ?_
    rw [h2, hw]
  · rw [Fin.sum_univ_four]

end Cert.DenseMlp

end
-- ==== Proof.KernelPayload.lean ====
/-
  The kernel body's arithmetic, read one output entry at a time.

  The body is three perceptrons in a row, one per input family. Each is: a matrix product of the row block with
  the first hidden weights into a zero accumulator, plus the bias row, `max · 0`; the same with the second hidden
  weights; a matrix product with the read-out column, plus the read-out bias. Changes of float format are the
  identity on the extended reals, so entry `(r, 0)` of a perceptron's result is `Cert.DenseMlp.mlp3` of row `r` of
  its block and of the loaded weights. The body's result is the three perceptrons added, plus `cn · nW + nb`.
-/
import proofs.«428701_j17154099380717_3_alg».proof.Proof.Gen.KernelIdeal.Skeleton
import proofs.«428701_j17154099380717_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.DenseMlp

/-! ## A plain matrix product read at an entry -/

/-- For a product `[R, K] × [K, N]` that contracts the left operand's columns with the right operand's rows, entry
    `(r, j)` of the product into a zero accumulator is `∑ l, a (r, l) · w (l, j)`. The four hypotheses say which
    coordinate of each operand the output index and the contraction index supply. -/
theorem mm_of {R K N : ℕ} (D : DotDims ⟨2, ![R, K]⟩ ⟨2, ![K, N]⟩ ⟨2, ![R, N]⟩)
    (hr : D.contr.rank = 1) (hs : D.contr.size ⟨0, by omega⟩ = K)
    (h1 : ∀ (i : (⟨2, ![R, N]⟩ : Shape).Idx) (q : D.contr.Idx), (D.lhsIdx i q 0).val = (i 0).val)
    (h2 : ∀ (i : (⟨2, ![R, N]⟩ : Shape).Idx) (q : D.contr.Idx), (D.lhsIdx i q 1).val = (q ⟨0, by omega⟩).val)
    (h3 : ∀ (i : (⟨2, ![R, N]⟩ : Shape).Idx) (q : D.contr.Idx), (D.rhsIdx i q 0).val = (q ⟨0, by omega⟩).val)
    (h4 : ∀ (i : (⟨2, ![R, N]⟩ : Shape).Idx) (q : D.contr.Idx), (D.rhsIdx i q 1).val = (i 1).val)
    (a : FVec Ideal ⟨2, ![R, K]⟩ .bf16) (w : FVec Ideal ⟨2, ![K, N]⟩ .bf16) (r : Fin R) (j : Fin N) :
    matmul D none a w (constant ⟨2, ![R, N]⟩ .f32 0x00000000#32) (ix2 r j) = ∑ l : Fin K, a (ix2 r l) * w (ix2 l j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun a => Fin.ext (by
    match a with
    | ⟨0, _⟩ => exact h1 _ _
    | ⟨1, _⟩ => exact (h2 _ _).trans hk)
  have er : D.rhsIdx (ix2 r j) ((contrEquiv1 D K hr hs).symm k) = ix2 k j := funext fun a => Fin.ext (by
    match a with
    | ⟨0, _⟩ => exact (h3 _ _).trans hk
    | ⟨1, _⟩ => exact h4 _ _)
  rw [el, er]

/-! ## The four products of this kernel -/

theorem mm40 (a : FVec Ideal S4096x40 .bf16) (w : FVec Ideal S40x40 .bf16) (r : Fin 4096) (j : Fin 40) :
    matmul dot_S4096x40_S40x40_S4096x40_1_0_0_1_n_n none a w (constant S4096x40 .f32 0x00000000#32) (ix2 r j)
      = ∑ l : Fin 40, a (ix2 r l) * w (ix2 l j) :=
  mm_of dot_S4096x40_S40x40_S4096x40_1_0_0_1_n_n rfl rfl
    (fun i q => by
      unfold DotDims.lhsIdx
      rw [dif_neg (show ¬(0 : Fin S4096x40.rank) ∈ dot_S4096x40_S40x40_S4096x40_1_0_0_1_n_n.lhsBatch by decide),
        dif_pos (show (0 : Fin S4096x40.rank) ∈ dot_S4096x40_S40x40_S4096x40_1_0_0_1_n_n.lhsNonContracting by decide)]
      rfl)
    (fun i q => dot_S4096x40_S40x40_S4096x40_1_0_0_1_n_n.lhsIdx_val_of_single rfl i q)
    (fun i q => dot_S4096x40_S40x40_S4096x40_1_0_0_1_n_n.rhsIdx_val_of_single rfl i q)
    (fun i q => by
      unfold DotDims.rhsIdx
      rw [dif_neg (show ¬(1 : Fin S40x40.rank) ∈ dot_S4096x40_S40x40_S4096x40_1_0_0_1_n_n.rhsBatch by decide),
        dif_pos (show (1 : Fin S40x40.rank) ∈ dot_S4096x40_S40x40_S4096x40_1_0_0_1_n_n.rhsNonContracting by decide)]
      rfl)
    a w r j

theorem mm40c (a : FVec Ideal S4096x40 .bf16) (w : FVec Ideal S40x1 .bf16) (r : Fin 4096) (j : Fin 1) :
    matmul dot_S4096x40_S40x1_S4096x1_1_0_0_1_n_n none a w (constant S4096x1 .f32 0x00000000#32) (ix2 r j)
      = ∑ l : Fin 40, a (ix2 r l) * w (ix2 l j) :=
  mm_of dot_S4096x40_S40x1_S4096x1_1_0_0_1_n_n rfl rfl
    (fun i q => by
      unfold DotDims.lhsIdx
      rw [dif_neg (show ¬(0 : Fin S4096x40.rank) ∈ dot_S4096x40_S40x1_S4096x1_1_0_0_1_n_n.lhsBatch by decide),
        dif_pos (show (0 : Fin S4096x40.rank) ∈ dot_S4096x40_S40x1_S4096x1_1_0_0_1_n_n.lhsNonContracting by decide)]
      rfl)
    (fun i q => dot_S4096x40_S40x1_S4096x1_1_0_0_1_n_n.lhsIdx_val_of_single rfl i q)
    (fun i q => dot_S4096x40_S40x1_S4096x1_1_0_0_1_n_n.rhsIdx_val_of_single rfl i q)
    (fun i q => by
      unfold DotDims.rhsIdx
      rw [dif_neg (show ¬(1 : Fin S40x1.rank) ∈ dot_S4096x40_S40x1_S4096x1_1_0_0_1_n_n.rhsBatch by decide),
        dif_pos (show (1 : Fin S40x1.rank) ∈ dot_S4096x40_S40x1_S4096x1_1_0_0_1_n_n.rhsNonContracting by decide)]
      rfl)
    a w r j

theorem mm32 (a : FVec Ideal S4096x32 .bf16) (w : FVec Ideal S32x32 .bf16) (r : Fin 4096) (j : Fin 32) :
    matmul dot_S4096x32_S32x32_S4096x32_1_0_0_1_n_n none a w (constant S4096x32 .f32 0x00000000#32) (ix2 r j)
      = ∑ l : Fin 32, a (ix2 r l) * w (ix2 l j) :=
  mm_of dot_S4096x32_S32x32_S4096x32_1_0_0_1_n_n rfl rfl
    (fun i q => by
      unfold DotDims.lhsIdx
      rw [dif_neg (show ¬(0 : Fin S4096x32.rank) ∈ dot_S4096x32_S32x32_S4096x32_1_0_0_1_n_n.lhsBatch by decide),
        dif_pos (show (0 : Fin S4096x32.rank) ∈ dot_S4096x32_S32x32_S4096x32_1_0_0_1_n_n.lhsNonContracting by decide)]
      rfl)
    (fun i q => dot_S4096x32_S32x32_S4096x32_1_0_0_1_n_n.lhsIdx_val_of_single rfl i q)
    (fun i q => dot_S4096x32_S32x32_S4096x32_1_0_0_1_n_n.rhsIdx_val_of_single rfl i q)
    (fun i q => by
      unfold DotDims.rhsIdx
      rw [dif_neg (show ¬(1 : Fin S32x32.rank) ∈ dot_S4096x32_S32x32_S4096x32_1_0_0_1_n_n.rhsBatch by decide),
        dif_pos (show (1 : Fin S32x32.rank) ∈ dot_S4096x32_S32x32_S4096x32_1_0_0_1_n_n.rhsNonContracting by decide)]
      rfl)
    a w r j

theorem mm32c (a : FVec Ideal S4096x32 .bf16) (w : FVec Ideal S32x1 .bf16) (r : Fin 4096) (j : Fin 1) :
    matmul dot_S4096x32_S32x1_S4096x1_1_0_0_1_n_n none a w (constant S4096x1 .f32 0x00000000#32) (ix2 r j)
      = ∑ l : Fin 32, a (ix2 r l) * w (ix2 l j) :=
  mm_of dot_S4096x32_S32x1_S4096x1_1_0_0_1_n_n rfl rfl
    (fun i q => by
      unfold DotDims.lhsIdx
      rw [dif_neg (show ¬(0 : Fin S4096x32.rank) ∈ dot_S4096x32_S32x1_S4096x1_1_0_0_1_n_n.lhsBatch by decide),
        dif_pos (show (0 : Fin S4096x32.rank) ∈ dot_S4096x32_S32x1_S4096x1_1_0_0_1_n_n.lhsNonContracting by decide)]
      rfl)
    (fun i q => dot_S4096x32_S32x1_S4096x1_1_0_0_1_n_n.lhsIdx_val_of_single rfl i q)
    (fun i q => dot_S4096x32_S32x1_S4096x1_1_0_0_1_n_n.rhsIdx_val_of_single rfl i q)
    (fun i q => by
      unfold DotDims.rhsIdx
      rw [dif_neg (show ¬(1 : Fin S32x1.rank) ∈ dot_S4096x32_S32x1_S4096x1_1_0_0_1_n_n.rhsBatch by decide),
        dif_pos (show (1 : Fin S32x1.rank) ∈ dot_S4096x32_S32x1_S4096x1_1_0_0_1_n_n.rhsNonContracting by decide)]
      rfl)
    a w r j

/-! ## The body's layers, as it spells them, and what each holds at an entry -/

/-- A hidden layer on 40 features: product, bias row, `max · 0`, and the change of format. -/
def hid40 (a : FVec Ideal S4096x40 .bf16) (w : FVec Ideal S40x40 .bf16) (b : Vec Ideal S40 .f32) : FVec Ideal S4096x40 .bf16 :=
  truncf .bf16 (maximumf (addf (matmul dot_S4096x40_S40x40_S4096x40_1_0_0_1_n_n none a w (constant S4096x40 .f32 0x00000000#32))
    (broadcastTo S4096x40 (shapeCast S1x40 b shapeCasts_S40_S1x40) broadcasts_S1x40_S4096x40))
    (broadcast S4096x40 (Scalar.ofBits .f32 0x00000000#32))) bitsLt_bf16_f32

theorem hid40_apply (a : FVec Ideal S4096x40 .bf16) (w : FVec Ideal S40x40 .bf16) (b : Vec Ideal S40 .f32) (r : Fin 4096) (j : Fin 40) :
    hid40 a w b (ix2 r j) = layer (fun l => a (ix2 r l)) (fun l i => w (ix2 l i)) (fun i => b (ix1 i)) j := by
  unfold hid40 layer
  rw [truncf_apply, maximumf_apply, addf_apply, mm40, broadcast_apply, broadcastTo_1b_ab_apply, shapeCast_a_1a_apply]
  show max _ (Ideal.ofBits .f32 0x00000000#32) = _
  rw [Ideal.ofBits_zero_f32]

/-- The read-out on 40 features: product with the read-out column, plus the bias. -/
def out40 (a : FVec Ideal S4096x40 .bf16) (w : FVec Ideal S40x1 .bf16) (b : FVec Ideal S1 .f32) : FVec Ideal S4096x1 .f32 :=
  addf (matmul dot_S4096x40_S40x1_S4096x1_1_0_0_1_n_n none a w (constant S4096x1 .f32 0x00000000#32))
    (broadcastTo S4096x1 (shapeCast S1x1 b shapeCasts_S1_S1x1) broadcasts_S1x1_S4096x1)

theorem out40_apply (a : FVec Ideal S4096x40 .bf16) (w : FVec Ideal S40x1 .bf16) (b : FVec Ideal S1 .f32) (r : Fin 4096) :
    out40 a w b (ix2 r (0 : Fin 1)) = (∑ j : Fin 40, a (ix2 r j) * w (ix2 j (0 : Fin 1))) + b (ix1 (0 : Fin 1)) := by
  unfold out40
  rw [addf_apply, mm40c, broadcastTo_1b_ab_apply, shapeCast_a_1a_apply]

/-- A hidden layer on 32 features. -/
def hid32 (a : FVec Ideal S4096x32 .bf16) (w : FVec Ideal S32x32 .bf16) (b : Vec Ideal S32 .f32) : FVec Ideal S4096x32 .bf16 :=
  truncf .bf16 (maximumf (addf (matmul dot_S4096x32_S32x32_S4096x32_1_0_0_1_n_n none a w (constant S4096x32 .f32 0x00000000#32))
    (broadcastTo S4096x32 (shapeCast S1x32 b shapeCasts_S32_S1x32) broadcasts_S1x32_S4096x32))
    (broadcast S4096x32 (Scalar.ofBits .f32 0x00000000#32))) bitsLt_bf16_f32

theorem hid32_apply (a : FVec Ideal S4096x32 .bf16) (w : FVec Ideal S32x32 .bf16) (b : Vec Ideal S32 .f32) (r : Fin 4096) (j : Fin 32) :
    hid32 a w b (ix2 r j) = layer (fun l => a (ix2 r l)) (fun l i => w (ix2 l i)) (fun i => b (ix1 i)) j := by
  unfold hid32 layer
  rw [truncf_apply, maximumf_apply, addf_apply, mm32, broadcast_apply, broadcastTo_1b_ab_apply, shapeCast_a_1a_apply]
  show max _ (Ideal.ofBits .f32 0x00000000#32) = _
  rw [Ideal.ofBits_zero_f32]

/-- The read-out on 32 features. -/
def out32 (a : FVec Ideal S4096x32 .bf16) (w : FVec Ideal S32x1 .bf16) (b : FVec Ideal S1 .f32) : FVec Ideal S4096x1 .f32 :=
  addf (matmul dot_S4096x32_S32x1_S4096x1_1_0_0_1_n_n none a w (constant S4096x1 .f32 0x00000000#32))
    (broadcastTo S4096x1 (shapeCast S1x1 b shapeCasts_S1_S1x1) broadcasts_S1x1_S4096x1)

theorem out32_apply (a : FVec Ideal S4096x32 .bf16) (w : FVec Ideal S32x1 .bf16) (b : FVec Ideal S1 .f32) (r : Fin 4096) :
    out32 a w b (ix2 r (0 : Fin 1)) = (∑ j : Fin 32, a (ix2 r j) * w (ix2 j (0 : Fin 1))) + b (ix1 (0 : Fin 1)) := by
  unfold out32
  rw [addf_apply, mm32c, broadcastTo_1b_ab_apply, shapeCast_a_1a_apply]

/-! ## The three perceptrons of the body at an entry -/

/-- A perceptron on 40 features over loaded blocks, as layers. -/
def chain40 (x : Vec Ideal S4096x40 .f32) (w1 : Vec Ideal S40x40 .bf16) (b1 : Vec Ideal S40 .f32) (w2 : Vec Ideal S40x40 .bf16)
    (b2 : Vec Ideal S40 .f32) (w3 : Vec Ideal S40x1 .bf16) (b3 : Vec Ideal S1 .f32) : FVec Ideal S4096x1 .f32 :=
  out40 (hid40 (hid40 (truncf .bf16 (shapeCast S4096x40 x shapeCasts_S4096x40_S4096x40) bitsLt_bf16_f32)
    (shapeCast S40x40 w1 shapeCasts_S40x40_S40x40) b1) (shapeCast S40x40 w2 shapeCasts_S40x40_S40x40) b2)
    (shapeCast S40x1 w3 shapeCasts_S40x1_S40x1) (shapeCast S1 b3 shapeCasts_S1_S1)

/-- Entry `(r, 0)` of a perceptron on 40 features is `mlp3` of row `r` and the loaded weights. -/
theorem chain40_apply (x : Vec Ideal S4096x40 .f32) (w1 : Vec Ideal S40x40 .bf16) (b1 : Vec Ideal S40 .f32) (w2 : Vec Ideal S40x40 .bf16)
    (b2 : Vec Ideal S40 .f32) (w3 : Vec Ideal S40x1 .bf16) (b3 : Vec Ideal S1 .f32) (r : Fin 4096) :
    chain40 x w1 b1 w2 b2 w3 b3 (ix2 r (0 : Fin 1))
      = mlp3 (fun l : Fin 40 => x (ix2 r l)) (fun l i => w1 (ix2 l i)) (fun i => b1 (ix1 i)) (fun i j => w2 (ix2 i j))
          (fun j => b2 (ix1 j)) (fun j => w3 (ix2 j (0 : Fin 1))) (b3 (ix1 (0 : Fin 1))) := by
  unfold chain40 mlp3
  rw [out40_apply]
  simp only [hid40_apply, shapeCast_self, truncf_apply]

/-- A perceptron on 32 features over loaded blocks, as layers. -/
def chain32 (x : Vec Ideal S4096x32 .f32) (w1 : Vec Ideal S32x32 .bf16) (b1 : Vec Ideal S32 .f32) (w2 : Vec Ideal S32x32 .bf16)
    (b2 : Vec Ideal S32 .f32) (w3 : Vec Ideal S32x1 .bf16) (b3 : Vec Ideal S1 .f32) : FVec Ideal S4096x1 .f32 :=
  out32 (hid32 (hid32 (truncf .bf16 (shapeCast S4096x32 x shapeCasts_S4096x32_S4096x32) bitsLt_bf16_f32)
    (shapeCast S32x32 w1 shapeCasts_S32x32_S32x32) b1) (shapeCast S32x32 w2 shapeCasts_S32x32_S32x32) b2)
    (shapeCast S32x1 w3 shapeCasts_S32x1_S32x1) (shapeCast S1 b3 shapeCasts_S1_S1)

theorem chain32_apply (x : Vec Ideal S4096x32 .f32) (w1 : Vec Ideal S32x32 .bf16) (b1 : Vec Ideal S32 .f32) (w2 : Vec Ideal S32x32 .bf16)
    (b2 : Vec Ideal S32 .f32) (w3 : Vec Ideal S32x1 .bf16) (b3 : Vec Ideal S1 .f32) (r : Fin 4096) :
    chain32 x w1 b1 w2 b2 w3 b3 (ix2 r (0 : Fin 1))
      = mlp3 (fun l : Fin 32 => x (ix2 r l)) (fun l i => w1 (ix2 l i)) (fun i => b1 (ix1 i)) (fun i j => w2 (ix2 i j))
          (fun j => b2 (ix1 j)) (fun j => w3 (ix2 j (0 : Fin 1))) (b3 (ix1 (0 : Fin 1))) := by
  unfold chain32 mlp3
  rw [out32_apply]
  simp only [hid32_apply, shapeCast_self, truncf_apply]

/-- The linear term on the scalar feature: `cn · nW + nb`, the weight and the bias spread over the rows. -/
def lin1 (x : Vec Ideal S4096x1 .f32) (w : Vec Ideal S1x1 .f32) (b : Vec Ideal S1 .f32) : FVec Ideal S4096x1 .f32 :=
  addf (mulf x (broadcastTo S4096x1 w broadcasts_S1x1_S4096x1))
    (broadcastTo S4096x1 (shapeCast S1x1 b shapeCasts_S1_S1x1) broadcasts_S1x1_S4096x1)

theorem lin1_apply (x : Vec Ideal S4096x1 .f32) (w : Vec Ideal S1x1 .f32) (b : Vec Ideal S1 .f32) (r : Fin 4096) :
    lin1 x w b (ix2 r (0 : Fin 1)) = x (ix2 r (0 : Fin 1)) * w (ix2 (0 : Fin 1) (0 : Fin 1)) + b (ix1 (0 : Fin 1)) := by
  unfold lin1
  rw [addf_apply, mulf_apply, broadcastTo_1b_ab_apply, broadcastTo_1b_ab_apply, shapeCast_a_1a_apply]

/-- THE BODY'S ONE STORE, as the three perceptrons and the linear term added in the body's order. -/
theorem body_eq (x0 : Vec Ideal S4096x40 .f32) (x1 : Vec Ideal S4096x32 .f32) (x2 : Vec Ideal S4096x40 .f32) (x3 : Vec Ideal S4096x1 .f32)
    (x4 : Vec Ideal S40x40 .bf16) (x5 : Vec Ideal S40 .f32) (x6 : Vec Ideal S40x40 .bf16) (x7 : Vec Ideal S40 .f32) (x8 : Vec Ideal S40x1 .bf16) (x9 : Vec Ideal S1 .f32)
    (x10 : Vec Ideal S32x32 .bf16) (x11 : Vec Ideal S32 .f32) (x12 : Vec Ideal S32x32 .bf16) (x13 : Vec Ideal S32 .f32) (x14 : Vec Ideal S32x1 .bf16) (x15 : Vec Ideal S1 .f32)
    (x16 : Vec Ideal S40x40 .bf16) (x17 : Vec Ideal S40 .f32) (x18 : Vec Ideal S40x40 .bf16) (x19 : Vec Ideal S40 .f32) (x20 : Vec Ideal S40x1 .bf16) (x21 : Vec Ideal S1 .f32)
    (x22 : Vec Ideal S1x1 .f32) (x23 : Vec Ideal S1 .f32) :
    k0_pay1 (F := Ideal) (k0_pay2 x0 x4 x5 x6 x7 x8 x9) (k0_pay5 (k0_pay3 x1) (k0_pay4 x10) x11 x12 x13 x14 x15) (k0_pay6 x16) x17 (k0_pay7 x18) x19
        (k0_pay8 x20) (k0_pay9 x21) (k0_pay10 x2) (constant S4096x40 .f32 0x00000000#32) x3 x22 x23
      = addf (addf (addf (chain40 x0 x4 x5 x6 x7 x8 x9) (chain32 x1 x10 x11 x12 x13 x14 x15)) (chain40 x2 x16 x17 x18 x19 x20 x21)) (lin1 x3 x22 x23) := rfl

/-- Entry `(r, 0)` of the body's store: the three `mlp3` values and the linear term, added in the body's order. -/
theorem body_apply (x0 : Vec Ideal S4096x40 .f32) (x1 : Vec Ideal S4096x32 .f32) (x2 : Vec Ideal S4096x40 .f32) (x3 : Vec Ideal S4096x1 .f32)
    (x4 : Vec Ideal S40x40 .bf16) (x5 : Vec Ideal S40 .f32) (x6 : Vec Ideal S40x40 .bf16) (x7 : Vec Ideal S40 .f32) (x8 : Vec Ideal S40x1 .bf16) (x9 : Vec Ideal S1 .f32)
    (x10 : Vec Ideal S32x32 .bf16) (x11 : Vec Ideal S32 .f32) (x12 : Vec Ideal S32x32 .bf16) (x13 : Vec Ideal S32 .f32) (x14 : Vec Ideal S32x1 .bf16) (x15 : Vec Ideal S1 .f32)
    (x16 : Vec Ideal S40x40 .bf16) (x17 : Vec Ideal S40 .f32) (x18 : Vec Ideal S40x40 .bf16) (x19 : Vec Ideal S40 .f32) (x20 : Vec Ideal S40x1 .bf16) (x21 : Vec Ideal S1 .f32)
    (x22 : Vec Ideal S1x1 .f32) (x23 : Vec Ideal S1 .f32) (r : Fin 4096) :
    k0_pay1 (F := Ideal) (k0_pay2 x0 x4 x5 x6 x7 x8 x9) (k0_pay5 (k0_pay3 x1) (k0_pay4 x10) x11 x12 x13 x14 x15) (k0_pay6 x16) x17 (k0_pay7 x18) x19
        (k0_pay8 x20) (k0_pay9 x21) (k0_pay10 x2) (constant S4096x40 .f32 0x00000000#32) x3 x22 x23 (ix2 r (0 : Fin 1))
      = mlp3 (fun l : Fin 40 => x0 (ix2 r l)) (fun l i => x4 (ix2 l i)) (fun i => x5 (ix1 i)) (fun i j => x6 (ix2 i j))
            (fun j => x7 (ix1 j)) (fun j => x8 (ix2 j (0 : Fin 1))) (x9 (ix1 (0 : Fin 1)))
        + mlp3 (fun l : Fin 32 => x1 (ix2 r l)) (fun l i => x10 (ix2 l i)) (fun i => x11 (ix1 i)) (fun i j => x12 (ix2 i j))
            (fun j => x13 (ix1 j)) (fun j => x14 (ix2 j (0 : Fin 1))) (x15 (ix1 (0 : Fin 1)))
        + mlp3 (fun l : Fin 40 => x2 (ix2 r l)) (fun l i => x16 (ix2 l i)) (fun i => x17 (ix1 i)) (fun i j => x18 (ix2 i j))
            (fun j => x19 (ix1 j)) (fun j => x20 (ix2 j (0 : Fin 1))) (x21 (ix1 (0 : Fin 1)))
        + (x3 (ix2 r (0 : Fin 1)) * x22 (ix2 (0 : Fin 1) (0 : Fin 1)) + x23 (ix1 (0 : Fin 1))) := by
  rw [body_eq, addf_apply, addf_apply, addf_apply, chain40_apply, chain32_apply, chain40_apply, lin1_apply]

end Cert.KernelIdeal.Pay

end
-- ==== Proof.HostOps.lean ====
/-
  The arrays the program makes on the host before the kernel runs, each as a function of its operands, and what
  each holds entry by entry.

  Writing `cat s k` for feature `k` of slice `s` among `4·d` features laid slice after slice:
  * the flattened input: entry `(b, cat s k)` of the `[B, 4·d]` reshape is entry `(b, s, k)` of the `[B, 4, d]` input;
  * the block-diagonal hidden weights `kron (I₄, Wᵀ)`: entry `(cat s k, cat s' o)` is `I₄ (s, s') · W (o, k)`, and
    `I₄ (s, s')`, made by comparing a row counter with a column counter, is exactly `1` or `0`;
  * a bias tiled four times: entry `cat s o` is `b (o)`;
  * the read-out row transposed and tiled four times down a column: entry `(cat s k, 0)` is `W3 (0, k)`;
  * four times the read-out bias: `4 · b3 (0)`, the literal `4.0` being the real number four.
  A reshape keeps the row-major position, so each index fact is one line of arithmetic on positions.
-/
import proofs.«428701_j17154099380717_3_alg».proof.KernelIdeal
import proofs.«428701_j17154099380717_3_alg».proof.Proof.Gen.KernelIdeal
import proofs.«428701_j17154099380717_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert.KernelIdeal Cert.KernelIdeal.Gen Idealize.ShloMosaic Idealize.ShloMosaic.ValueIdx Cert.DenseMlp

/-! ## The 4 × 4 identity and the literal four -/

/-- The 4 × 4 identity as the program makes it: a row counter compared with a column counter, the truth value read as 0 or 1. -/
def eye4 : FVec Ideal S4x4 .f32 :=
  uitofp .f32 (cmpi .eq (addi (iotaInDim S4x4 32 0) (broadcastInDim S4x4 ![] bcast_S_S4x4 (constantI S_ 32 0#32))) (iotaInDim S4x4 32 1))

theorem eye4_apply (s s' : Fin 4) : eye4 (ix2 s s') = if s = s' then 1 else 0 := by
  unfold eye4
  show FloatOps.uitofp (F := Ideal) .f32 (IntOp.cmpi .eq (BitVec.ofNat 32 s.val + 0#32) (BitVec.ofNat 32 s'.val)) = _
  have h : IntOp.cmpi .eq (BitVec.ofNat 32 s.val + 0#32) (BitVec.ofNat 32 s'.val) = if s = s' then 1#1 else 0#1 := by
    revert s s'; decide
  rw [h]
  by_cases hs : s = s'
  · rw [if_pos hs, if_pos hs]
    show (((1 : ℕ) : ℝ) : EReal) = 1
    norm_num
  · rw [if_neg hs, if_neg hs]
    show (((0 : ℕ) : ℝ) : EReal) = 0
    norm_num

/-- The float literal `4.0` denotes the real number four. -/
theorem ofBits_four : Ideal.ofBits .f32 0x40800000#32 = 4 := by
  have h : Ideal.ofBits .f32 0x40800000#32 = ((4 : ℝ) : EReal) := by
    simp [Ideal.ofBits, Ideal.ieee, -EReal.coe_mul]; norm_num
  rw [h]; norm_cast

/-- Four times a one-entry bias, as the program makes it. -/
def bias4 (b3 : FVec Ideal S1 .f32) : FVec Ideal S1 .f32 :=
  mulf (broadcastInDim S1 ![] bcast_S_S1 (constant S_ .f32 0x40800000#32)) b3

theorem bias4_apply (b3 : FVec Ideal S1 .f32) : bias4 b3 (ix1 (0 : Fin 1)) = 4 * b3 (ix1 (0 : Fin 1)) := by
  unfold bias4
  rw [mulf_apply, broadcastInDim_apply _ bcast_S_S1 _ (ix1 (0 : Fin 1)) ix0 (fun a => a.elim0), constant_apply, ofBits_four]

/-! ## Ten features per slice -/

/-- The `[B, 4, 10]` input flattened to `[B, 40]`. -/
def flat10 (x : FVec Ideal S1048576x4x10 .f32) : FVec Ideal S1048576x40 .f32 :=
  shapeCast S1048576x40 x shapeCasts_S1048576x4x10_S1048576x40

theorem flat10_apply (x : FVec Ideal S1048576x4x10 .f32) (b : Fin 1048576) (s : Fin 4) (k : Fin 10) :
    flat10 x (ix2 b (cat s k)) = x (ix3 b s k) := by
  unfold flat10
  exact shapeCast_apply _ _ _ (ix3 b s k) (by
    rw [Shape.rowMajor_val_three, Shape.rowMajor_val_two]
    show (b.val * 4 + s.val) * 10 + k.val = b.val * 40 + (cat s k).val
    rw [cat_val]; omega)

/-- The Kronecker product of a 4 × 4 matrix with the transpose of a 10 × 10 matrix, as the program makes it. -/
def kron10 (E : FVec Ideal S4x4 .f32) (W : FVec Ideal S10x10 .f32) : FVec Ideal S40x40 .bf16 :=
  truncf .bf16 (shapeCast S40x40 (mulf (broadcastInDim S4x10x4x10 ![0, 1, 2, 3] bcast_S4x1x4x1_S4x10x4x10_0_1_2_3 (broadcastInDim S4x1x4x1 ![0, 2] bcast_S4x4_S4x1x4x1_0_2 E))
    (broadcastInDim S4x10x4x10 ![0, 1, 2, 3] bcast_S1x10x1x10_S4x10x4x10_0_1_2_3 (broadcastInDim S1x10x1x10 ![1, 3] bcast_S10x10_S1x10x1x10_1_3 (transpose S10x10 [1, 0] W transposes_S10x10_S10x10_1_0))))
    shapeCasts_S4x10x4x10_S40x40) bitsLt_bf16_f32

theorem kron10_apply (E : FVec Ideal S4x4 .f32) (W : FVec Ideal S10x10 .f32) (s s' : Fin 4) (k o : Fin 10) :
    kron10 E W (ix2 (cat s k) (cat s' o)) = E (ix2 s s') * W (ix2 o k) := by
  unfold kron10
  rw [truncf_apply, shapeCast_apply _ _ _ (ix4 s k s' o) (by
    rw [Shape.rowMajor_val_four, Shape.rowMajor_val_two]
    show ((s.val * 10 + k.val) * 4 + s'.val) * 10 + o.val = (cat s k).val * 40 + (cat s' o).val
    rw [cat_val, cat_val]; omega), mulf_apply]
  congr 1
  · rw [broadcastInDim_apply _ bcast_S4x1x4x1_S4x10x4x10_0_1_2_3 _ (ix4 s k s' o) (ix4 s (0 : Fin 1) s' (0 : Fin 1)) (fun a => match a with
      | ⟨0, _⟩ => rfl
      | ⟨1, _⟩ => rfl
      | ⟨2, _⟩ => rfl
      | ⟨3, _⟩ => rfl)]
    exact broadcastInDim_apply _ bcast_S4x4_S4x1x4x1_0_2 E (ix4 s (0 : Fin 1) s' (0 : Fin 1)) (ix2 s s') (fun a => match a with
      | ⟨0, _⟩ => rfl
      | ⟨1, _⟩ => rfl)
  · rw [broadcastInDim_apply _ bcast_S1x10x1x10_S4x10x4x10_0_1_2_3 _ (ix4 s k s' o) (ix4 (0 : Fin 1) k (0 : Fin 1) o) (fun a => match a with
      | ⟨0, _⟩ => rfl
      | ⟨1, _⟩ => rfl
      | ⟨2, _⟩ => rfl
      | ⟨3, _⟩ => rfl)]
    rw [broadcastInDim_apply _ bcast_S10x10_S1x10x1x10_1_3 _ (ix4 (0 : Fin 1) k (0 : Fin 1) o) (ix2 k o) (fun a => match a with
      | ⟨0, _⟩ => rfl
      | ⟨1, _⟩ => rfl)]
    exact transpose_apply [1, 0] W transposes_S10x10_S10x10_1_0 (ix2 k o) (ix2 o k) (fun b => match b with
      | ⟨0, _⟩ => rfl
      | ⟨1, _⟩ => rfl)

/-- A 10-entry bias tiled four times. -/
def tile10 (b : FVec Ideal S10 .f32) : FVec Ideal S40 .f32 :=
  shapeCast S40 (broadcastInDim S4x10 ![0, 1] bcast_S1x10_S4x10_0_1 (shapeCast S1x10 b shapeCasts_S10_S1x10)) shapeCasts_S4x10_S40

theorem tile10_apply (b : FVec Ideal S10 .f32) (s : Fin 4) (o : Fin 10) : tile10 b (ix1 (cat s o)) = b (ix1 o) := by
  unfold tile10
  rw [shapeCast_apply _ _ _ (ix2 s o) (by
    rw [Shape.rowMajor_val_two, Shape.rowMajor_val_one]
    show s.val * 10 + o.val = (cat s o).val
    rw [cat_val]; omega)]
  rw [broadcastInDim_apply _ bcast_S1x10_S4x10_0_1 _ (ix2 s o) (ix2 (0 : Fin 1) o) (fun a => match a with
      | ⟨0, _⟩ => rfl
      | ⟨1, _⟩ => rfl)]
  exact shapeCast_a_1a_apply b shapeCasts_S10_S1x10 (0 : Fin 1) o

/-- The 1 × 10 read-out row transposed and tiled four times down a 40 × 1 column. -/
def col10 (W3 : FVec Ideal S1x10 .f32) : FVec Ideal S40x1 .bf16 :=
  truncf .bf16 (shapeCast S40x1 (broadcastInDim S4x10x1x1 ![0, 1, 2, 3] bcast_S1x10x1x1_S4x10x1x1_0_1_2_3
    (shapeCast S1x10x1x1 (transpose S10x1 [1, 0] W3 transposes_S1x10_S10x1_1_0) shapeCasts_S10x1_S1x10x1x1)) shapeCasts_S4x10x1x1_S40x1) bitsLt_bf16_f32

theorem col10_apply (W3 : FVec Ideal S1x10 .f32) (s : Fin 4) (k : Fin 10) :
    col10 W3 (ix2 (cat s k) (0 : Fin 1)) = W3 (ix2 (0 : Fin 1) k) := by
  unfold col10
  rw [truncf_apply, shapeCast_apply _ _ _ (ix4 s k (0 : Fin 1) (0 : Fin 1)) (by
    rw [Shape.rowMajor_val_four, Shape.rowMajor_val_two]
    show ((s.val * 10 + k.val) * 1 + 0) * 1 + 0 = (cat s k).val * 1 + 0
    rw [cat_val]; omega)]
  rw [broadcastInDim_apply _ bcast_S1x10x1x1_S4x10x1x1_0_1_2_3 _ (ix4 s k (0 : Fin 1) (0 : Fin 1)) (ix4 (0 : Fin 1) k (0 : Fin 1) (0 : Fin 1)) (fun a => match a with
      | ⟨0, _⟩ => rfl
      | ⟨1, _⟩ => rfl
      | ⟨2, _⟩ => rfl
      | ⟨3, _⟩ => rfl)]
  rw [shapeCast_apply _ _ _ (ix2 k (0 : Fin 1)) (by
    rw [Shape.rowMajor_val_four, Shape.rowMajor_val_two]
    show k.val * 1 + 0 = ((0 * 10 + k.val) * 1 + 0) * 1 + 0
    omega)]
  exact transpose_apply [1, 0] W3 transposes_S1x10_S10x1_1_0 (ix2 k (0 : Fin 1)) (ix2 (0 : Fin 1) k) (fun b => match b with
      | ⟨0, _⟩ => rfl
      | ⟨1, _⟩ => rfl)

/-! ## Eight features per slice -/

/-- The `[B, 4, 8]` input flattened to `[B, 32]`. -/
def flat8 (x : FVec Ideal S1048576x4x8 .f32) : FVec Ideal S1048576x32 .f32 :=
  shapeCast S1048576x32 x shapeCasts_S1048576x4x8_S1048576x32

theorem flat8_apply (x : FVec Ideal S1048576x4x8 .f32) (b : Fin 1048576) (s : Fin 4) (k : Fin 8) :
    flat8 x (ix2 b (cat s k)) = x (ix3 b s k) := by
  unfold flat8
  exact shapeCast_apply _ _ _ (ix3 b s k) (by
    rw [Shape.rowMajor_val_three, Shape.rowMajor_val_two]
    show (b.val * 4 + s.val) * 8 + k.val = b.val * 32 + (cat s k).val
    rw [cat_val]; omega)

/-- The Kronecker product of a 4 × 4 matrix with the transpose of an 8 × 8 matrix, as the program makes it. -/
def kron8 (E : FVec Ideal S4x4 .f32) (W : FVec Ideal S8x8 .f32) : FVec Ideal S32x32 .bf16 :=
  truncf .bf16 (shapeCast S32x32 (mulf (broadcastInDim S4x8x4x8 ![0, 1, 2, 3] bcast_S4x1x4x1_S4x8x4x8_0_1_2_3 (broadcastInDim S4x1x4x1 ![0, 2] bcast_S4x4_S4x1x4x1_0_2 E))
    (broadcastInDim S4x8x4x8 ![0, 1, 2, 3] bcast_S1x8x1x8_S4x8x4x8_0_1_2_3 (broadcastInDim S1x8x1x8 ![1, 3] bcast_S8x8_S1x8x1x8_1_3 (transpose S8x8 [1, 0] W transposes_S8x8_S8x8_1_0))))
    shapeCasts_S4x8x4x8_S32x32) bitsLt_bf16_f32

theorem kron8_apply (E : FVec Ideal S4x4 .f32) (W : FVec Ideal S8x8 .f32) (s s' : Fin 4) (k o : Fin 8) :
    kron8 E W (ix2 (cat s k) (cat s' o)) = E (ix2 s s') * W (ix2 o k) := by
  unfold kron8
  rw [truncf_apply, shapeCast_apply _ _ _ (ix4 s k s' o) (by
    rw [Shape.rowMajor_val_four, Shape.rowMajor_val_two]
    show ((s.val * 8 + k.val) * 4 + s'.val) * 8 + o.val = (cat s k).val * 32 + (cat s' o).val
    rw [cat_val, cat_val]; omega), mulf_apply]
  congr 1
  · rw [broadcastInDim_apply _ bcast_S4x1x4x1_S4x8x4x8_0_1_2_3 _ (ix4 s k s' o) (ix4 s (0 : Fin 1) s' (0 : Fin 1)) (fun a => match a with
      | ⟨0, _⟩ => rfl
      | ⟨1, _⟩ => rfl
      | ⟨2, _⟩ => rfl
      | ⟨3, _⟩ => rfl)]
    exact broadcastInDim_apply _ bcast_S4x4_S4x1x4x1_0_2 E (ix4 s (0 : Fin 1) s' (0 : Fin 1)) (ix2 s s') (fun a => match a with
      | ⟨0, _⟩ => rfl
      | ⟨1, _⟩ => rfl)
  · rw [broadcastInDim_apply _ bcast_S1x8x1x8_S4x8x4x8_0_1_2_3 _ (ix4 s k s' o) (ix4 (0 : Fin 1) k (0 : Fin 1) o) (fun a => match a with
      | ⟨0, _⟩ => rfl
      | ⟨1, _⟩ => rfl
      | ⟨2, _⟩ => rfl
      | ⟨3, _⟩ => rfl)]
    rw [broadcastInDim_apply _ bcast_S8x8_S1x8x1x8_1_3 _ (ix4 (0 : Fin 1) k (0 : Fin 1) o) (ix2 k o) (fun a => match a with
      | ⟨0, _⟩ => rfl
      | ⟨1, _⟩ => rfl)]
    exact transpose_apply [1, 0] W transposes_S8x8_S8x8_1_0 (ix2 k o) (ix2 o k) (fun b => match b with
      | ⟨0, _⟩ => rfl
      | ⟨1, _⟩ => rfl)

/-- An 8-entry bias tiled four times. -/
def tile8 (b : FVec Ideal S8 .f32) : FVec Ideal S32 .f32 :=
  shapeCast S32 (broadcastInDim S4x8 ![0, 1] bcast_S1x8_S4x8_0_1 (shapeCast S1x8 b shapeCasts_S8_S1x8)) shapeCasts_S4x8_S32

theorem tile8_apply (b : FVec Ideal S8 .f32) (s : Fin 4) (o : Fin 8) : tile8 b (ix1 (cat s o)) = b (ix1 o) := by
  unfold tile8
  rw [shapeCast_apply _ _ _ (ix2 s o) (by
    rw [Shape.rowMajor_val_two, Shape.rowMajor_val_one]
    show s.val * 8 + o.val = (cat s o).val
    rw [cat_val]; omega)]
  rw [broadcastInDim_apply _ bcast_S1x8_S4x8_0_1 _ (ix2 s o) (ix2 (0 : Fin 1) o) (fun a => match a with
      | ⟨0, _⟩ => rfl
      | ⟨1, _⟩ => rfl)]
  exact shapeCast_a_1a_apply b shapeCasts_S8_S1x8 (0 : Fin 1) o

/-- The 1 × 8 read-out row transposed and tiled four times down a 32 × 1 column. -/
def col8 (W3 : FVec Ideal S1x8 .f32) : FVec Ideal S32x1 .bf16 :=
  truncf .bf16 (shapeCast S32x1 (broadcastInDim S4x8x1x1 ![0, 1, 2, 3] bcast_S1x8x1x1_S4x8x1x1_0_1_2_3
    (shapeCast S1x8x1x1 (transpose S8x1 [1, 0] W3 transposes_S1x8_S8x1_1_0) shapeCasts_S8x1_S1x8x1x1)) shapeCasts_S4x8x1x1_S32x1) bitsLt_bf16_f32

theorem col8_apply (W3 : FVec Ideal S1x8 .f32) (s : Fin 4) (k : Fin 8) :
    col8 W3 (ix2 (cat s k) (0 : Fin 1)) = W3 (ix2 (0 : Fin 1) k) := by
  unfold col8
  rw [truncf_apply, shapeCast_apply _ _ _ (ix4 s k (0 : Fin 1) (0 : Fin 1)) (by
    rw [Shape.rowMajor_val_four, Shape.rowMajor_val_two]
    show ((s.val * 8 + k.val) * 1 + 0) * 1 + 0 = (cat s k).val * 1 + 0
    rw [cat_val]; omega)]
  rw [broadcastInDim_apply _ bcast_S1x8x1x1_S4x8x1x1_0_1_2_3 _ (ix4 s k (0 : Fin 1) (0 : Fin 1)) (ix4 (0 : Fin 1) k (0 : Fin 1) (0 : Fin 1)) (fun a => match a with
      | ⟨0, _⟩ => rfl
      | ⟨1, _⟩ => rfl
      | ⟨2, _⟩ => rfl
      | ⟨3, _⟩ => rfl)]
  rw [shapeCast_apply _ _ _ (ix2 k (0 : Fin 1)) (by
    rw [Shape.rowMajor_val_four, Shape.rowMajor_val_two]
    show k.val * 1 + 0 = ((0 * 8 + k.val) * 1 + 0) * 1 + 0
    omega)]
  exact transpose_apply [1, 0] W3 transposes_S1x8_S8x1_1_0 (ix2 k (0 : Fin 1)) (ix2 (0 : Fin 1) k) (fun b => match b with
      | ⟨0, _⟩ => rfl
      | ⟨1, _⟩ => rfl)

end Cert.KernelIdeal.Host

end
-- ==== Proof.Args.lean ====
/-
  The twenty-four argument arrays of the kernel's program as launched, each named with its literal array type, so that
  arithmetic on their entries is arithmetic on extended reals.
-/
import proofs.«428701_j17154099380717_3_alg».proof.KernelIdeal
import proofs.«428701_j17154099380717_3_alg».proof.Proof.Gen.KernelIdeal
import Idealize.ShloMosaic.PureOps.Ideal

noncomputable section

namespace Cert.KernelIdeal.Host

open Cert.KernelIdeal Idealize.ShloMosaic Idealize.ShloMosaic.TcCoe

variable (m : (ℓ : Loc nD τ sig) → Buf (Elt Ideal) ℓ)

abbrev a0 (c : Dev nD) : FVec Ideal S1048576x4x10 .f32 := m ((c : Thread nD τ).loc main_arg0)
abbrev a1 (c : Dev nD) : FVec Ideal S1048576x4x8 .f32 := m ((c : Thread nD τ).loc main_arg1)
abbrev a2 (c : Dev nD) : FVec Ideal S1048576x4x10 .f32 := m ((c : Thread nD τ).loc main_arg2)
abbrev a3 (c : Dev nD) : FVec Ideal S1048576x1 .f32 := m ((c : Thread nD τ).loc main_arg3)
abbrev a4 (c : Dev nD) : FVec Ideal S10x10 .f32 := m ((c : Thread nD τ).loc main_arg4)
abbrev a5 (c : Dev nD) : FVec Ideal S10 .f32 := m ((c : Thread nD τ).loc main_arg5)
abbrev a6 (c : Dev nD) : FVec Ideal S10x10 .f32 := m ((c : Thread nD τ).loc main_arg6)
abbrev a7 (c : Dev nD) : FVec Ideal S10 .f32 := m ((c : Thread nD τ).loc main_arg7)
abbrev a8 (c : Dev nD) : FVec Ideal S1x10 .f32 := m ((c : Thread nD τ).loc main_arg8)
abbrev a9 (c : Dev nD) : FVec Ideal S1 .f32 := m ((c : Thread nD τ).loc main_arg9)
abbrev a10 (c : Dev nD) : FVec Ideal S8x8 .f32 := m ((c : Thread nD τ).loc main_arg10)
abbrev a11 (c : Dev nD) : FVec Ideal S8 .f32 := m ((c : Thread nD τ).loc main_arg11)
abbrev a12 (c : Dev nD) : FVec Ideal S8x8 .f32 := m ((c : Thread nD τ).loc main_arg12)
abbrev a13 (c : Dev nD) : FVec Ideal S8 .f32 := m ((c : Thread nD τ).loc main_arg13)
abbrev a14 (c : Dev nD) : FVec Ideal S1x8 .f32 := m ((c : Thread nD τ).loc main_arg14)
abbrev a15 (c : Dev nD) : FVec Ideal S1 .f32 := m ((c : Thread nD τ).loc main_arg15)
abbrev a16 (c : Dev nD) : FVec Ideal S10x10 .f32 := m ((c : Thread nD τ).loc main_arg16)
abbrev a17 (c : Dev nD) : FVec Ideal S10 .f32 := m ((c : Thread nD τ).loc main_arg17)
abbrev a18 (c : Dev nD) : FVec Ideal S10x10 .f32 := m ((c : Thread nD τ).loc main_arg18)
abbrev a19 (c : Dev nD) : FVec Ideal S10 .f32 := m ((c : Thread nD τ).loc main_arg19)
abbrev a20 (c : Dev nD) : FVec Ideal S1x10 .f32 := m ((c : Thread nD τ).loc main_arg20)
abbrev a21 (c : Dev nD) : FVec Ideal S1 .f32 := m ((c : Thread nD τ).loc main_arg21)
abbrev a22 (c : Dev nD) : FVec Ideal S1x1 .f32 := m ((c : Thread nD τ).loc main_arg22)
abbrev a23 (c : Dev nD) : FVec Ideal S1 .f32 := m ((c : Thread nD τ).loc main_arg23)

end Cert.KernelIdeal.Host

end
-- ==== Proof.HostE.lean ====
/-
  The seven arrays the kernel's edge perceptron reads, as the region finds them: each is the host's function of
  one argument array (the flattened input, the two block-diagonal hidden weights, the two tiled biases, the tiled
  read-out column, four times the read-out bias), and so holds, entry by entry, what Proof/HostOps.lean says.
-/
import proofs.«428701_j17154099380717_3_alg».proof.Proof.Gen.KernelIdeal.Frame
import proofs.«428701_j17154099380717_3_alg».proof.Proof.HostOps
import proofs.«428701_j17154099380717_3_alg».proof.Proof.Args
import Idealize.ShloMosaic.Lib.StableHlo.Run

noncomputable section

namespace Cert.KernelIdeal.Host

open Cert.KernelIdeal Cert.KernelIdeal.Gen Idealize.ShloMosaic Idealize.ShloMosaic.ValueIdx Idealize.ShloMosaic.TcCoe Idealize.ShloMosaic.StableHlo Cert.DenseMlp

variable (m : (ℓ : Loc nD τ sig) → Buf (Elt Ideal) ℓ)

set_option maxHeartbeats 2000000 in
theorem v0_eq (c : Dev nD) : (V m c main_v0 : FVec Ideal S1048576x40 .f32) = flat10 (a0 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v11_eq (c : Dev nD) : (V m c main_v11 : FVec Ideal S40x40 .bf16) = kron10 eye4 (a4 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v28_eq (c : Dev nD) : (V m c main_v28 : FVec Ideal S40 .f32) = tile10 (a5 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v20_eq (c : Dev nD) : (V m c main_v20 : FVec Ideal S40x40 .bf16) = kron10 eye4 (a6 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v31_eq (c : Dev nD) : (V m c main_v31 : FVec Ideal S40 .f32) = tile10 (a7 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v25_eq (c : Dev nD) : (V m c main_v25 : FVec Ideal S40x1 .bf16) = col10 (a8 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v33_eq (c : Dev nD) : (V m c main_v33 : FVec Ideal S1 .f32) = bias4 (a9 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-! ## The same, entry by entry -/

theorem v0_apply (c : Dev nD) (b : Fin 1048576) (s : Fin 4) (k : Fin 10) :
    (V m c main_v0 : FVec Ideal S1048576x40 .f32) (ix2 b (cat s k)) = a0 m c (ix3 b s k) := by
  rw [v0_eq]; exact flat10_apply _ b s k

theorem v11_apply (c : Dev nD) (s s' : Fin 4) (k o : Fin 10) :
    ((V m c main_v11 : FVec Ideal S40x40 .bf16) (ix2 (cat s k) (cat s' o)) : EReal)
      = (if s = s' then (1 : EReal) else 0) * (a4 m c (ix2 o k) : EReal) := by
  rw [v11_eq, kron10_apply, eye4_apply]

theorem v28_apply (c : Dev nD) (s : Fin 4) (o : Fin 10) :
    (V m c main_v28 : FVec Ideal S40 .f32) (ix1 (cat s o)) = a5 m c (ix1 o) := by
  rw [v28_eq]; exact tile10_apply _ s o

theorem v20_apply (c : Dev nD) (s s' : Fin 4) (k o : Fin 10) :
    ((V m c main_v20 : FVec Ideal S40x40 .bf16) (ix2 (cat s k) (cat s' o)) : EReal)
      = (if s = s' then (1 : EReal) else 0) * (a6 m c (ix2 o k) : EReal) := by
  rw [v20_eq, kron10_apply, eye4_apply]

theorem v31_apply (c : Dev nD) (s : Fin 4) (o : Fin 10) :
    (V m c main_v31 : FVec Ideal S40 .f32) (ix1 (cat s o)) = a7 m c (ix1 o) := by
  rw [v31_eq]; exact tile10_apply _ s o

theorem v25_apply (c : Dev nD) (s : Fin 4) (k : Fin 10) :
    ((V m c main_v25 : FVec Ideal S40x1 .bf16) (ix2 (cat s k) (0 : Fin 1)) : EReal) = (a8 m c (ix2 (0 : Fin 1) k) : EReal) := by
  rw [v25_eq]; exact col10_apply _ s k

theorem v33_apply (c : Dev nD) :
    ((V m c main_v33 : FVec Ideal S1 .f32) (ix1 (0 : Fin 1)) : EReal) = (4 : EReal) * (a9 m c (ix1 (0 : Fin 1)) : EReal) := by
  rw [v33_eq]; exact bias4_apply _

end Cert.KernelIdeal.Host

end
-- ==== Proof.HostX.lean ====
/-
  The seven arrays the kernel's cross perceptron reads, as the region finds them: each is the host's function of
  one argument array (the input flattened to thirty-two features a row, the two block-diagonal hidden weights,
  the two biases tiled four times, the read-out row tiled four times down a column, four times the read-out bias),
  and so holds, entry by entry, what Proof/HostOps.lean says for eight features a slice.
-/
import proofs.«428701_j17154099380717_3_alg».proof.Proof.Gen.KernelIdeal.Frame
import proofs.«428701_j17154099380717_3_alg».proof.Proof.HostOps
import proofs.«428701_j17154099380717_3_alg».proof.Proof.Args
import Idealize.ShloMosaic.Lib.StableHlo.Run

noncomputable section

namespace Cert.KernelIdeal.Host

open Cert.KernelIdeal Cert.KernelIdeal.Gen Idealize.ShloMosaic Idealize.ShloMosaic.ValueIdx Idealize.ShloMosaic.TcCoe Idealize.ShloMosaic.StableHlo Cert.DenseMlp

variable (m : (ℓ : Loc nD τ sig) → Buf (Elt Ideal) ℓ)

set_option maxHeartbeats 2000000 in
theorem v1_eq (c : Dev nD) : (V m c main_v1 : FVec Ideal S1048576x32 .f32) = flat8 (a1 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v42_eq (c : Dev nD) : (V m c main_v42 : FVec Ideal S32x32 .bf16) = kron8 eye4 (a10 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v59_eq (c : Dev nD) : (V m c main_v59 : FVec Ideal S32 .f32) = tile8 (a11 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v51_eq (c : Dev nD) : (V m c main_v51 : FVec Ideal S32x32 .bf16) = kron8 eye4 (a12 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v62_eq (c : Dev nD) : (V m c main_v62 : FVec Ideal S32 .f32) = tile8 (a13 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v56_eq (c : Dev nD) : (V m c main_v56 : FVec Ideal S32x1 .bf16) = col8 (a14 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v64_eq (c : Dev nD) : (V m c main_v64 : FVec Ideal S1 .f32) = bias4 (a15 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-! ## The same, entry by entry -/

theorem v1_apply (c : Dev nD) (b : Fin 1048576) (s : Fin 4) (k : Fin 8) :
    (V m c main_v1 : FVec Ideal S1048576x32 .f32) (ix2 b (cat s k)) = a1 m c (ix3 b s k) := by
  rw [v1_eq]; exact flat8_apply _ b s k

theorem v42_apply (c : Dev nD) (s s' : Fin 4) (k o : Fin 8) :
    ((V m c main_v42 : FVec Ideal S32x32 .bf16) (ix2 (cat s k) (cat s' o)) : EReal)
      = (if s = s' then (1 : EReal) else 0) * (a10 m c (ix2 o k) : EReal) := by
  rw [v42_eq, kron8_apply, eye4_apply]

theorem v59_apply (c : Dev nD) (s : Fin 4) (o : Fin 8) :
    (V m c main_v59 : FVec Ideal S32 .f32) (ix1 (cat s o)) = a11 m c (ix1 o) := by
  rw [v59_eq]; exact tile8_apply _ s o

theorem v51_apply (c : Dev nD) (s s' : Fin 4) (k o : Fin 8) :
    ((V m c main_v51 : FVec Ideal S32x32 .bf16) (ix2 (cat s k) (cat s' o)) : EReal)
      = (if s = s' then (1 : EReal) else 0) * (a12 m c (ix2 o k) : EReal) := by
  rw [v51_eq, kron8_apply, eye4_apply]

theorem v62_apply (c : Dev nD) (s : Fin 4) (o : Fin 8) :
    (V m c main_v62 : FVec Ideal S32 .f32) (ix1 (cat s o)) = a13 m c (ix1 o) := by
  rw [v62_eq]; exact tile8_apply _ s o

theorem v56_apply (c : Dev nD) (s : Fin 4) (k : Fin 8) :
    ((V m c main_v56 : FVec Ideal S32x1 .bf16) (ix2 (cat s k) (0 : Fin 1)) : EReal) = (a14 m c (ix2 (0 : Fin 1) k) : EReal) := by
  rw [v56_eq]; exact col8_apply _ s k

theorem v64_apply (c : Dev nD) :
    ((V m c main_v64 : FVec Ideal S1 .f32) (ix1 (0 : Fin 1)) : EReal) = (4 : EReal) * (a15 m c (ix1 (0 : Fin 1)) : EReal) := by
  rw [v64_eq]; exact bias4_apply _

end Cert.KernelIdeal.Host

end
-- ==== Proof.HostC.lean ====
/-
  The seven arrays the kernel's corner perceptron reads, as the region finds them: each is the host's function of
  one argument array (the input flattened to forty features a row, the two block-diagonal hidden weights, the two
  biases tiled four times, the read-out row tiled four times down a column, four times the read-out bias), and so
  holds, entry by entry, what Proof/HostOps.lean says for ten features a slice.
-/
import proofs.«428701_j17154099380717_3_alg».proof.Proof.Gen.KernelIdeal.Frame
import proofs.«428701_j17154099380717_3_alg».proof.Proof.HostOps
import proofs.«428701_j17154099380717_3_alg».proof.Proof.Args
import Idealize.ShloMosaic.Lib.StableHlo.Run

noncomputable section

namespace Cert.KernelIdeal.Host

open Cert.KernelIdeal Cert.KernelIdeal.Gen Idealize.ShloMosaic Idealize.ShloMosaic.ValueIdx Idealize.ShloMosaic.TcCoe Idealize.ShloMosaic.StableHlo Cert.DenseMlp

variable (m : (ℓ : Loc nD τ sig) → Buf (Elt Ideal) ℓ)

set_option maxHeartbeats 2000000 in
theorem v2_eq (c : Dev nD) : (V m c main_v2 : FVec Ideal S1048576x40 .f32) = flat10 (a2 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v73_eq (c : Dev nD) : (V m c main_v73 : FVec Ideal S40x40 .bf16) = kron10 eye4 (a16 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v90_eq (c : Dev nD) : (V m c main_v90 : FVec Ideal S40 .f32) = tile10 (a17 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v82_eq (c : Dev nD) : (V m c main_v82 : FVec Ideal S40x40 .bf16) = kron10 eye4 (a18 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v93_eq (c : Dev nD) : (V m c main_v93 : FVec Ideal S40 .f32) = tile10 (a19 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v87_eq (c : Dev nD) : (V m c main_v87 : FVec Ideal S40x1 .bf16) = col10 (a20 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 2000000 in
theorem v95_eq (c : Dev nD) : (V m c main_v95 : FVec Ideal S1 .f32) = bias4 (a21 m c) := by
  dsimp only [Gen.V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-! ## The same, entry by entry -/

theorem v2_apply (c : Dev nD) (b : Fin 1048576) (s : Fin 4) (k : Fin 10) :
    (V m c main_v2 : FVec Ideal S1048576x40 .f32) (ix2 b (cat s k)) = a2 m c (ix3 b s k) := by
  rw [v2_eq]; exact flat10_apply _ b s k

theorem v73_apply (c : Dev nD) (s s' : Fin 4) (k o : Fin 10) :
    ((V m c main_v73 : FVec Ideal S40x40 .bf16) (ix2 (cat s k) (cat s' o)) : EReal)
      = (if s = s' then (1 : EReal) else 0) * (a16 m c (ix2 o k) : EReal) := by
  rw [v73_eq, kron10_apply, eye4_apply]

theorem v90_apply (c : Dev nD) (s : Fin 4) (o : Fin 10) :
    (V m c main_v90 : FVec Ideal S40 .f32) (ix1 (cat s o)) = a17 m c (ix1 o) := by
  rw [v90_eq]; exact tile10_apply _ s o

theorem v82_apply (c : Dev nD) (s s' : Fin 4) (k o : Fin 10) :
    ((V m c main_v82 : FVec Ideal S40x40 .bf16) (ix2 (cat s k) (cat s' o)) : EReal)
      = (if s = s' then (1 : EReal) else 0) * (a18 m c (ix2 o k) : EReal) := by
  rw [v82_eq, kron10_apply, eye4_apply]

theorem v93_apply (c : Dev nD) (s : Fin 4) (o : Fin 10) :
    (V m c main_v93 : FVec Ideal S40 .f32) (ix1 (cat s o)) = a19 m c (ix1 o) := by
  rw [v93_eq]; exact tile10_apply _ s o

theorem v87_apply (c : Dev nD) (s : Fin 4) (k : Fin 10) :
    ((V m c main_v87 : FVec Ideal S40x1 .bf16) (ix2 (cat s k) (0 : Fin 1)) : EReal) = (a20 m c (ix2 (0 : Fin 1) k) : EReal) := by
  rw [v87_eq]; exact col10_apply _ s k

theorem v95_apply (c : Dev nD) :
    ((V m c main_v95 : FVec Ideal S1 .f32) (ix1 (0 : Fin 1)) : EReal) = (4 : EReal) * (a21 m c (ix1 (0 : Fin 1)) : EReal) := by
  rw [v95_eq]; exact bias4_apply _

end Cert.KernelIdeal.Host

end
-- ==== Proof.Result.lean ====
/-
  The result array of the computation, as ONE function of the twenty-four argument arrays, entry by entry.

  Row `b` of the result is the sum of three families — edge, cross, corner — plus a linear term on the scalar
  feature. A family applies one perceptron (`Cert.DenseMlp.mlp3`) to each of the four slices of row `b` of its
  input, with the weight matrices read transposed (`W (o, k)` is the weight from feature `k` to unit `o`), and
  adds the four values starting from zero. The linear term is `cn (b, 0) · nW (0, 0) + nb (0)`.
-/
import proofs.«428701_j17154099380717_3_alg».proof.Proof.Spec
import Idealize.ShloMosaic.Lib.ValueIdx

noncomputable section

namespace Cert.DenseMlp

open Idealize.ShloMosaic Idealize.ShloMosaic.ValueIdx

/-- The perceptron of slice `s` of row `b`: features `x (b, s, ·)`, hidden weights `W1`, `W2` (rows are units),
    read-out row `W3 (0, ·)`, biases `b1`, `b2`, `b3 (0)`. -/
def slice3 {d : ℕ} (x : (⟨3, ![1048576, 4, d]⟩ : Shape).Idx → EReal) (W1 : (⟨2, ![d, d]⟩ : Shape).Idx → EReal)
    (b1 : (⟨1, ![d]⟩ : Shape).Idx → EReal) (W2 : (⟨2, ![d, d]⟩ : Shape).Idx → EReal) (b2 : (⟨1, ![d]⟩ : Shape).Idx → EReal)
    (W3 : (⟨2, ![1, d]⟩ : Shape).Idx → EReal) (b3 : (⟨1, ![1]⟩ : Shape).Idx → EReal) (b : Fin 1048576) (s : Fin 4) : EReal :=
  mlp3 (fun k : Fin d => x (ix3 b s k)) (fun k o => W1 (ix2 o k)) (fun o => b1 (ix1 o)) (fun k o => W2 (ix2 o k))
    (fun o => b2 (ix1 o)) (fun k => W3 (ix2 (0 : Fin 1) k)) (b3 (ix1 (0 : Fin 1)))

/-- A family's value on row `b`: the four slices' perceptrons added, from zero. -/
def family {d : ℕ} (x : (⟨3, ![1048576, 4, d]⟩ : Shape).Idx → EReal) (W1 : (⟨2, ![d, d]⟩ : Shape).Idx → EReal)
    (b1 : (⟨1, ![d]⟩ : Shape).Idx → EReal) (W2 : (⟨2, ![d, d]⟩ : Shape).Idx → EReal) (b2 : (⟨1, ![d]⟩ : Shape).Idx → EReal)
    (W3 : (⟨2, ![1, d]⟩ : Shape).Idx → EReal) (b3 : (⟨1, ![1]⟩ : Shape).Idx → EReal) (b : Fin 1048576) : EReal :=
  0 + ∑ s : Fin 4, slice3 x W1 b1 W2 b2 W3 b3 b s

/-- Row `b` of the result. -/
def resultRow (a0 : (⟨3, ![1048576, 4, 10]⟩ : Shape).Idx → EReal) (a1 : (⟨3, ![1048576, 4, 8]⟩ : Shape).Idx → EReal)
    (a2 : (⟨3, ![1048576, 4, 10]⟩ : Shape).Idx → EReal) (a3 : (⟨2, ![1048576, 1]⟩ : Shape).Idx → EReal)
    (a4 : (⟨2, ![10, 10]⟩ : Shape).Idx → EReal) (a5 : (⟨1, ![10]⟩ : Shape).Idx → EReal) (a6 : (⟨2, ![10, 10]⟩ : Shape).Idx → EReal)
    (a7 : (⟨1, ![10]⟩ : Shape).Idx → EReal) (a8 : (⟨2, ![1, 10]⟩ : Shape).Idx → EReal) (a9 : (⟨1, ![1]⟩ : Shape).Idx → EReal)
    (a10 : (⟨2, ![8, 8]⟩ : Shape).Idx → EReal) (a11 : (⟨1, ![8]⟩ : Shape).Idx → EReal) (a12 : (⟨2, ![8, 8]⟩ : Shape).Idx → EReal)
    (a13 : (⟨1, ![8]⟩ : Shape).Idx → EReal) (a14 : (⟨2, ![1, 8]⟩ : Shape).Idx → EReal) (a15 : (⟨1, ![1]⟩ : Shape).Idx → EReal)
    (a16 : (⟨2, ![10, 10]⟩ : Shape).Idx → EReal) (a17 : (⟨1, ![10]⟩ : Shape).Idx → EReal) (a18 : (⟨2, ![10, 10]⟩ : Shape).Idx → EReal)
    (a19 : (⟨1, ![10]⟩ : Shape).Idx → EReal) (a20 : (⟨2, ![1, 10]⟩ : Shape).Idx → EReal) (a21 : (⟨1, ![1]⟩ : Shape).Idx → EReal)
    (a22 : (⟨2, ![1, 1]⟩ : Shape).Idx → EReal) (a23 : (⟨1, ![1]⟩ : Shape).Idx → EReal) (b : Fin 1048576) : EReal :=
  family a0 a4 a5 a6 a7 a8 a9 b + family a1 a10 a11 a12 a13 a14 a15 b + family a2 a16 a17 a18 a19 a20 a21 b
    + (a3 (ix2 b (0 : Fin 1)) * a22 (ix2 (0 : Fin 1) (0 : Fin 1)) + a23 (ix1 (0 : Fin 1)))

/-- The result array `[1048576, 1]`: entry `(b, 0)` is row `b`'s value. -/
def result (a0 : (⟨3, ![1048576, 4, 10]⟩ : Shape).Idx → EReal) (a1 : (⟨3, ![1048576, 4, 8]⟩ : Shape).Idx → EReal)
    (a2 : (⟨3, ![1048576, 4, 10]⟩ : Shape).Idx → EReal) (a3 : (⟨2, ![1048576, 1]⟩ : Shape).Idx → EReal)
    (a4 : (⟨2, ![10, 10]⟩ : Shape).Idx → EReal) (a5 : (⟨1, ![10]⟩ : Shape).Idx → EReal) (a6 : (⟨2, ![10, 10]⟩ : Shape).Idx → EReal)
    (a7 : (⟨1, ![10]⟩ : Shape).Idx → EReal) (a8 : (⟨2, ![1, 10]⟩ : Shape).Idx → EReal) (a9 : (⟨1, ![1]⟩ : Shape).Idx → EReal)
    (a10 : (⟨2, ![8, 8]⟩ : Shape).Idx → EReal) (a11 : (⟨1, ![8]⟩ : Shape).Idx → EReal) (a12 : (⟨2, ![8, 8]⟩ : Shape).Idx → EReal)
    (a13 : (⟨1, ![8]⟩ : Shape).Idx → EReal) (a14 : (⟨2, ![1, 8]⟩ : Shape).Idx → EReal) (a15 : (⟨1, ![1]⟩ : Shape).Idx → EReal)
    (a16 : (⟨2, ![10, 10]⟩ : Shape).Idx → EReal) (a17 : (⟨1, ![10]⟩ : Shape).Idx → EReal) (a18 : (⟨2, ![10, 10]⟩ : Shape).Idx → EReal)
    (a19 : (⟨1, ![10]⟩ : Shape).Idx → EReal) (a20 : (⟨2, ![1, 10]⟩ : Shape).Idx → EReal) (a21 : (⟨1, ![1]⟩ : Shape).Idx → EReal)
    (a22 : (⟨2, ![1, 1]⟩ : Shape).Idx → EReal) (a23 : (⟨1, ![1]⟩ : Shape).Idx → EReal) : (⟨2, ![1048576, 1]⟩ : Shape).Idx → EReal :=
  fun i => resultRow a0 a1 a2 a3 a4 a5 a6 a7 a8 a9 a10 a11 a12 a13 a14 a15 a16 a17 a18 a19 a20 a21 a22 a23 (i 0)

theorem result_apply (a0 : (⟨3, ![1048576, 4, 10]⟩ : Shape).Idx → EReal) (a1 : (⟨3, ![1048576, 4, 8]⟩ : Shape).Idx → EReal)
    (a2 : (⟨3, ![1048576, 4, 10]⟩ : Shape).Idx → EReal) (a3 : (⟨2, ![1048576, 1]⟩ : Shape).Idx → EReal)
    (a4 : (⟨2, ![10, 10]⟩ : Shape).Idx → EReal) (a5 : (⟨1, ![10]⟩ : Shape).Idx → EReal) (a6 : (⟨2, ![10, 10]⟩ : Shape).Idx → EReal)
    (a7 : (⟨1, ![10]⟩ : Shape).Idx → EReal) (a8 : (⟨2, ![1, 10]⟩ : Shape).Idx → EReal) (a9 : (⟨1, ![1]⟩ : Shape).Idx → EReal)
    (a10 : (⟨2, ![8, 8]⟩ : Shape).Idx → EReal) (a11 : (⟨1, ![8]⟩ : Shape).Idx → EReal) (a12 : (⟨2, ![8, 8]⟩ : Shape).Idx → EReal)
    (a13 : (⟨1, ![8]⟩ : Shape).Idx → EReal) (a14 : (⟨2, ![1, 8]⟩ : Shape).Idx → EReal) (a15 : (⟨1, ![1]⟩ : Shape).Idx → EReal)
    (a16 : (⟨2, ![10, 10]⟩ : Shape).Idx → EReal) (a17 : (⟨1, ![10]⟩ : Shape).Idx → EReal) (a18 : (⟨2, ![10, 10]⟩ : Shape).Idx → EReal)
    (a19 : (⟨1, ![10]⟩ : Shape).Idx → EReal) (a20 : (⟨2, ![1, 10]⟩ : Shape).Idx → EReal) (a21 : (⟨1, ![1]⟩ : Shape).Idx → EReal)
    (a22 : (⟨2, ![1, 1]⟩ : Shape).Idx → EReal) (a23 : (⟨1, ![1]⟩ : Shape).Idx → EReal) (b : Fin 1048576) (u : Fin 1) :
    result a0 a1 a2 a3 a4 a5 a6 a7 a8 a9 a10 a11 a12 a13 a14 a15 a16 a17 a18 a19 a20 a21 a22 a23 (ix2 b u)
      = resultRow a0 a1 a2 a3 a4 a5 a6 a7 a8 a9 a10 a11 a12 a13 a14 a15 a16 a17 a18 a19 a20 a21 a22 a23 b := rfl

end Cert.DenseMlp

end
-- ==== Proof.KernelValue.lean ====
/-
  What the kernel's run leaves in its result array.

  Grid point `t` works on rows `t·4096 … t·4096 + 4095`. Its three row-blocked input windows and the scalar-feature
  window hold those rows of their arrays; every weight and bias window holds its whole array, the same at every
  point. So what point `t` writes back at row `r` of its block is the body's arithmetic (Proof/KernelPayload.lean) on
  row `t·4096 + r` of the flattened inputs and on the host-made weights (Proof/HostE.lean, HostX.lean, HostC.lean),
  which the block-diagonal law (Proof/Spec.lean) turns into row `t·4096 + r` of `Cert.DenseMlp.result`. The 256 blocks
  tile the `[1048576, 1]` result, so the array after the run is `Cert.DenseMlp.result` of the argument arrays.
-/
import proofs.«428701_j17154099380717_3_alg».proof.Proof.Gen.KernelIdeal.Value
import proofs.«428701_j17154099380717_3_alg».proof.Proof.KernelPayload
import proofs.«428701_j17154099380717_3_alg».proof.Proof.HostE
import proofs.«428701_j17154099380717_3_alg».proof.Proof.HostX
import proofs.«428701_j17154099380717_3_alg».proof.Proof.HostC
import proofs.«428701_j17154099380717_3_alg».proof.Proof.Result
import Idealize.ShloMosaic.Lib.ValueIdx
import Idealize.ShloMosaic.Lib.Pipeline.Value

noncomputable section

namespace Cert.KernelIdeal.KV

open Cert.KernelIdeal Cert.KernelIdeal.Gen Cert.KernelIdeal.Value Idealize.ShloMosaic Idealize.ShloMosaic.ValueIdx Idealize.ShloMosaic.TcCoe Idealize.SL.Sem Cert.DenseMlp
open Idealize.ShloMosaic.Pipeline (Dat)
open Cert.KernelIdeal.Pay Cert.KernelIdeal.Host

variable (m : (ℓ : Loc nD τ sig) → Buf (Elt Ideal) ℓ) (ρ : Dev nD → PrngReg)

/-! ## The windows' index maps, decided over the 256 grid points -/

/-- The row-blocked windows (0, 1, 2, 3 and the output 24) sit at block `t` of their rows and block 0 of their columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_24.index t (0 : Fin 2) = t.val ∧ win0_24.index t (1 : Fin 2) = 0 :=
  (by decide +kernel : ∀ t : Fin grid0.N, _)

/-- The matrix-shaped weight windows sit at block (0, 0) at every point. -/
theorem idx_mats : ∀ t : Fin cfg0.N,
    win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0
    ∧ win0_10.index t (0 : Fin 2) = 0 ∧ win0_10.index t (1 : Fin 2) = 0
    ∧ win0_12.index t (0 : Fin 2) = 0 ∧ win0_12.index t (1 : Fin 2) = 0
    ∧ win0_14.index t (0 : Fin 2) = 0 ∧ win0_14.index t (1 : Fin 2) = 0
    ∧ win0_16.index t (0 : Fin 2) = 0 ∧ win0_16.index t (1 : Fin 2) = 0
    ∧ win0_18.index t (0 : Fin 2) = 0 ∧ win0_18.index t (1 : Fin 2) = 0
    ∧ win0_20.index t (0 : Fin 2) = 0 ∧ win0_20.index t (1 : Fin 2) = 0
    ∧ win0_22.index t (0 : Fin 2) = 0 ∧ win0_22.index t (1 : Fin 2) = 0 :=
  (by decide +kernel : ∀ t : Fin grid0.N, _)

/-- The vector-shaped bias windows sit at block 0 at every point. -/
theorem idx_vecs : ∀ t : Fin cfg0.N,
    win0_5.index t (0 : Fin 1) = 0 ∧ win0_7.index t (0 : Fin 1) = 0 ∧ win0_9.index t (0 : Fin 1) = 0
    ∧ win0_11.index t (0 : Fin 1) = 0 ∧ win0_13.index t (0 : Fin 1) = 0 ∧ win0_15.index t (0 : Fin 1) = 0
    ∧ win0_17.index t (0 : Fin 1) = 0 ∧ win0_19.index t (0 : Fin 1) = 0 ∧ win0_21.index t (0 : Fin 1) = 0
    ∧ win0_23.index t (0 : Fin 1) = 0 :=
  (by decide +kernel : ∀ t : Fin grid0.N, _)

/-- Row `t·4096 + r` of the whole arrays: row `r` of point `t`'s block. -/
abbrev row (t : Fin cfg0.N) (r : Fin 4096) : Fin 1048576 :=
  ⟨t.val * 4096 + r.val, by have ht : t.val < 256 := t.isLt; omega⟩

/-! ## Each input window's block, read where the array is -/

theorem blk0 (c : Dev nD) (t : Fin cfg0.N) (r : Fin 4096) (l : Fin 40) :
    iblk m c 0 t (ix2 r l) = V m c main_v0 (ix2 (row t r) l) := by
  have h : ((cfg0.win 0).blk t).view.emb (ix2 r l) = ix2 (row t r) l := by
    funext a; apply Fin.ext
    match a with
    | ⟨0, _⟩ => show win0_0.index t (0 : Fin 2) * 4096 + 1 * r.val = t.val * 4096 + r.val; rw [(idx_rows t).1]; omega
    | ⟨1, _⟩ => show win0_0.index t (1 : Fin 2) * 40 + 1 * l.val = l.val; rw [(idx_rows t).2.1]; omega
  show V m c main_v0 (((cfg0.win 0).blk t).view.emb (ix2 r l)) = _
  rw [h]

theorem blk1 (c : Dev nD) (t : Fin cfg0.N) (r : Fin 4096) (l : Fin 32) :
    iblk m c 1 t (ix2 r l) = V m c main_v1 (ix2 (row t r) l) := by
  have h : ((cfg0.win 1).blk t).view.emb (ix2 r l) = ix2 (row t r) l := by
    funext a; apply Fin.ext
    match a with
    | ⟨0, _⟩ => show win0_1.index t (0 : Fin 2) * 4096 + 1 * r.val = t.val * 4096 + r.val; rw [(idx_rows t).2.2.1]; omega
    | ⟨1, _⟩ => show win0_1.index t (1 : Fin 2) * 32 + 1 * l.val = l.val; rw [(idx_rows t).2.2.2.1]; omega
  show V m c main_v1 (((cfg0.win 1).blk t).view.emb (ix2 r l)) = _
  rw [h]

theorem blk2 (c : Dev nD) (t : Fin cfg0.N) (r : Fin 4096) (l : Fin 40) :
    iblk m c 2 t (ix2 r l) = V m c main_v2 (ix2 (row t r) l) := by
  have h : ((cfg0.win 2).blk t).view.emb (ix2 r l) = ix2 (row t r) l := by
    funext a; apply Fin.ext
    match a with
    | ⟨0, _⟩ => show win0_2.index t (0 : Fin 2) * 4096 + 1 * r.val = t.val * 4096 + r.val; rw [(idx_rows t).2.2.2.2.1]; omega
    | ⟨1, _⟩ => show win0_2.index t (1 : Fin 2) * 40 + 1 * l.val = l.val; rw [(idx_rows t).2.2.2.2.2.1]; omega
  show V m c main_v2 (((cfg0.win 2).blk t).view.emb (ix2 r l)) = _
  rw [h]

theorem blk3 (c : Dev nD) (t : Fin cfg0.N) (r : Fin 4096) (u : Fin 1) :
    iblk m c 3 t (ix2 r u) = V m c main_arg3 (ix2 (row t r) u) := by
  have h : ((cfg0.win 3).blk t).view.emb (ix2 r u) = ix2 (row t r) u := by
    funext a; apply Fin.ext
    match a with
    | ⟨0, _⟩ => show win0_3.index t (0 : Fin 2) * 4096 + 1 * r.val = t.val * 4096 + r.val; rw [(idx_rows t).2.2.2.2.2.2.1]; omega
    | ⟨1, _⟩ => show win0_3.index t (1 : Fin 2) * 1 + 1 * u.val = u.val; rw [(idx_rows t).2.2.2.2.2.2.2.1]; omega
  show V m c main_arg3 (((cfg0.win 3).blk t).view.emb (ix2 r u)) = _
  rw [h]

theorem blk4 (c : Dev nD) (t : Fin cfg0.N) (l i : Fin 40) :
    iblk m c 4 t (ix2 l i) = V m c main_v11 (ix2 l i) := by
  have h : ((cfg0.win 4).blk t).view.emb (ix2 l i) = ix2 l i := by
    funext a; apply Fin.ext
    match a with
    | ⟨0, _⟩ => show win0_4.index t (0 : Fin 2) * 40 + 1 * l.val = l.val; rw [(idx_mats t).1]; omega
    | ⟨1, _⟩ => show win0_4.index t (1 : Fin 2) * 40 + 1 * i.val = i.val; rw [(idx_mats t).2.1]; omega
  show V m c main_v11 (((cfg0.win 4).blk t).view.emb (ix2 l i)) = _
  rw [h]

theorem blk5 (c : Dev nD) (t : Fin cfg0.N) (i : Fin 40) :
    iblk m c 5 t (ix1 i) = V m c main_v28 (ix1 i) := by
  have h : ((cfg0.win 5).blk t).view.emb (ix1 i) = ix1 i := by
    funext a; apply Fin.ext
    match a with
    | ⟨0, _⟩ => show win0_5.index t (0 : Fin 1) * 40 + 1 * i.val = i.val; rw [(idx_vecs t).1]; omega
  show V m c main_v28 (((cfg0.win 5).blk t).view.emb (ix1 i)) = _
  rw [h]

theorem blk6 (c : Dev nD) (t : Fin cfg0.N) (l i : Fin 40) :
    iblk m c 6 t (ix2 l i) = V m c main_v20 (ix2 l i) := by
  have h : ((cfg0.win 6).blk t).view.emb (ix2 l i) = ix2 l i := by
    funext a; apply Fin.ext
    match a with
    | ⟨0, _⟩ => show win0_6.index t (0 : Fin 2) * 40 + 1 * l.val = l.val; rw [(idx_mats t).2.2.1]; omega
    | ⟨1, _⟩ => show win0_6.index t (1 : Fin 2) * 40 + 1 * i.val = i.val; rw [(idx_mats t).2.2.2.1]; omega
  show V m c main_v20 (((cfg0.win 6).blk t).view.emb (ix2 l i)) = _
  rw [h]

theorem blk7 (c : Dev nD) (t : Fin cfg0.N) (i : Fin 40) :
    iblk m c 7 t (ix1 i) = V m c main_v31 (ix1 i) := by
  have h : ((cfg0.win 7).blk t).view.emb (ix1 i) = ix1 i := by
    funext a; apply Fin.ext
    match a with
    | ⟨0, _⟩ => show win0_7.index t (0 : Fin 1) * 40 + 1 * i.val = i.val; rw [(idx_vecs t).2.1]; omega
  show V m c main_v31 (((cfg0.win 7).blk t).view.emb (ix1 i)) = _
  rw [h]

theorem blk8 (c : Dev nD) (t : Fin cfg0.N) (l : Fin 40) (u : Fin 1) :
    iblk m c 8 t (ix2 l u) = V m c main_v25 (ix2 l u) := by
  have h : ((cfg0.win 8).blk t).view.emb (ix2 l u) = ix2 l u := by
    funext a; apply Fin.ext
    match a with
    | ⟨0, _⟩ => show win0_8.index t (0 : Fin 2) * 40 + 1 * l.val = l.val; rw [(idx_mats t).2.2.2.2.1]; omega
    | ⟨1, _⟩ => show win0_8.index t (1 : Fin 2) * 1 + 1 * u.val = u.val; rw [(idx_mats t).2.2.2.2.2.1]; omega
  show V m c main_v25 (((cfg0.win 8).blk t).view.emb (ix2 l u)) = _
  rw [h]

theorem blk9 (c : Dev nD) (t : Fin cfg0.N) (u : Fin 1) :
    iblk m c 9 t (ix1 u) = V m c main_v33 (ix1 u) := by
  have h : ((cfg0.win 9).blk t).view.emb (ix1 u) = ix1 u := by
    funext a; apply Fin.ext
    match a with
    | ⟨0, _⟩ => show win0_9.index t (0 : Fin 1) * 1 + 1 * u.val = u.val; rw [(idx_vecs t).2.2.1]; omega
  show V m c main_v33 (((cfg0.win 9).blk t).view.emb (ix1 u)) = _
  rw [h]

theorem blk10 (c : Dev nD) (t : Fin cfg0.N) (l i : Fin 32) :
    iblk m c 10 t (ix2 l i) = V m c main_v42 (ix2 l i) := by
  have h : ((cfg0.win 10).blk t).view.emb (ix2 l i) = ix2 l i := by
    funext a; apply Fin.ext
    match a with
    | ⟨0, _⟩ => show win0_10.index t (0 : Fin 2) * 32 + 1 * l.val = l.val; rw [(idx_mats t).2.2.2.2.2.2.1]; omega
    | ⟨1, _⟩ => show win0_10.index t (1 : Fin 2) * 32 + 1 * i.val = i.val; rw [(idx_mats t).2.2.2.2.2.2.2.1]; omega
  show V m c main_v42 (((cfg0.win 10).blk t).view.emb (ix2 l i)) = _
  rw [h]

theorem blk11 (c : Dev nD) (t : Fin cfg0.N) (i : Fin 32) :
    iblk m c 11 t (ix1 i) = V m c main_v59 (ix1 i) := by
  have h : ((cfg0.win 11).blk t).view.emb (ix1 i) = ix1 i := by
    funext a; apply Fin.ext
    match a with
    | ⟨0, _⟩ => show win0_11.index t (0 : Fin 1) * 32 + 1 * i.val = i.val; rw [(idx_vecs t).2.2.2.1]; omega
  show V m c main_v59 (((cfg0.win 11).blk t).view.emb (ix1 i)) = _
  rw [h]

theorem blk12 (c : Dev nD) (t : Fin cfg0.N) (l i : Fin 32) :
    iblk m c 12 t (ix2 l i) = V m c main_v51 (ix2 l i) := by
  have h : ((cfg0.win 12).blk t).view.emb (ix2 l i) = ix2 l i := by
    funext a; apply Fin.ext
    match a with
    | ⟨0, _⟩ => show win0_12.index t (0 : Fin 2) * 32 + 1 * l.val = l.val; rw [(idx_mats t).2.2.2.2.2.2.2.2.1]; omega
    | ⟨1, _⟩ => show win0_12.index t (1 : Fin 2) * 32 + 1 * i.val = i.val; rw [(idx_mats t).2.2.2.2.2.2.2.2.2.1]; omega
  show V m c main_v51 (((cfg0.win 12).blk t).view.emb (ix2 l i)) = _
  rw [h]

theorem blk13 (c : Dev nD) (t : Fin cfg0.N) (i : Fin 32) :
    iblk m c 13 t (ix1 i) = V m c main_v62 (ix1 i) := by
  have h : ((cfg0.win 13).blk t).view.emb (ix1 i) = ix1 i := by
    funext a; apply Fin.ext
    match a with
    | ⟨0, _⟩ => show win0_13.index t (0 : Fin 1) * 32 + 1 * i.val = i.val; rw [(idx_vecs t).2.2.2.2.1]; omega
  show V m c main_v62 (((cfg0.win 13).blk t).view.emb (ix1 i)) = _
  rw [h]

theorem blk14 (c : Dev nD) (t : Fin cfg0.N) (l : Fin 32) (u : Fin 1) :
    iblk m c 14 t (ix2 l u) = V m c main_v56 (ix2 l u) := by
  have h : ((cfg0.win 14).blk t).view.emb (ix2 l u) = ix2 l u := by
    funext a; apply Fin.ext
    match a with
    | ⟨0, _⟩ => show win0_14.index t (0 : Fin 2) * 32 + 1 * l.val = l.val; rw [(idx_mats t).2.2.2.2.2.2.2.2.2.2.1]; omega
    | ⟨1, _⟩ => show win0_14.index t (1 : Fin 2) * 1 + 1 * u.val = u.val; rw [(idx_mats t).2.2.2.2.2.2.2.2.2.2.2.1]; omega
  show V m c main_v56 (((cfg0.win 14).blk t).view.emb (ix2 l u)) = _
  rw [h]

theorem blk15 (c : Dev nD) (t : Fin cfg0.N) (u : Fin 1) :
    iblk m c 15 t (ix1 u) = V m c main_v64 (ix1 u) := by
  have h : ((cfg0.win 15).blk t).view.emb (ix1 u) = ix1 u := by
    funext a; apply Fin.ext
    match a with
    | ⟨0, _⟩ => show win0_15.index t (0 : Fin 1) * 1 + 1 * u.val = u.val; rw [(idx_vecs t).2.2.2.2.2.1]; omega
  show V m c main_v64 (((cfg0.win 15).blk t).view.emb (ix1 u)) = _
  rw [h]

theorem blk16 (c : Dev nD) (t : Fin cfg0.N) (l i : Fin 40) :
    iblk m c 16 t (ix2 l i) = V m c main_v73 (ix2 l i) := by
  have h : ((cfg0.win 16).blk t).view.emb (ix2 l i) = ix2 l i := by
    funext a; apply Fin.ext
    match a with
    | ⟨0, _⟩ => show win0_16.index t (0 : Fin 2) * 40 + 1 * l.val = l.val; rw [(idx_mats t).2.2.2.2.2.2.2.2.2.2.2.2.1]; omega
    | ⟨1, _⟩ => show win0_16.index t (1 : Fin 2) * 40 + 1 * i.val = i.val; rw [(idx_mats t).2.2.2.2.2.2.2.2.2.2.2.2.2.1]; omega
  show V m c main_v73 (((cfg0.win 16).blk t).view.emb (ix2 l i)) = _
  rw [h]

theorem blk17 (c : Dev nD) (t : Fin cfg0.N) (i : Fin 40) :
    iblk m c 17 t (ix1 i) = V m c main_v90 (ix1 i) := by
  have h : ((cfg0.win 17).blk t).view.emb (ix1 i) = ix1 i := by
    funext a; apply Fin.ext
    match a with
    | ⟨0, _⟩ => show win0_17.index t (0 : Fin 1) * 40 + 1 * i.val = i.val; rw [(idx_vecs t).2.2.2.2.2.2.1]; omega
  show V m c main_v90 (((cfg0.win 17).blk t).view.emb (ix1 i)) = _
  rw [h]

theorem blk18 (c : Dev nD) (t : Fin cfg0.N) (l i : Fin 40) :
    iblk m c 18 t (ix2 l i) = V m c main_v82 (ix2 l i) := by
  have h : ((cfg0.win 18).blk t).view.emb (ix2 l i) = ix2 l i := by
    funext a; apply Fin.ext
    match a with
    | ⟨0, _⟩ => show win0_18.index t (0 : Fin 2) * 40 + 1 * l.val = l.val; rw [(idx_mats t).2.2.2.2.2.2.2.2.2.2.2.2.2.2.1]; omega
    | ⟨1, _⟩ => show win0_18.index t (1 : Fin 2) * 40 + 1 * i.val = i.val; rw [(idx_mats t).2.2.2.2.2.2.2.2.2.2.2.2.2.2.2.1]; omega
  show V m c main_v82 (((cfg0.win 18).blk t).view.emb (ix2 l i)) = _
  rw [h]

theorem blk19 (c : Dev nD) (t : Fin cfg0.N) (i : Fin 40) :
    iblk m c 19 t (ix1 i) = V m c main_v93 (ix1 i) := by
  have h : ((cfg0.win 19).blk t).view.emb (ix1 i) = ix1 i := by
    funext a; apply Fin.ext
    match a with
    | ⟨0, _⟩ => show win0_19.index t (0 : Fin 1) * 40 + 1 * i.val = i.val; rw [(idx_vecs t).2.2.2.2.2.2.2.1]; omega
  show V m c main_v93 (((cfg0.win 19).blk t).view.emb (ix1 i)) = _
  rw [h]

theorem blk20 (c : Dev nD) (t : Fin cfg0.N) (l : Fin 40) (u : Fin 1) :
    iblk m c 20 t (ix2 l u) = V m c main_v87 (ix2 l u) := by
  have h : ((cfg0.win 20).blk t).view.emb (ix2 l u) = ix2 l u := by
    funext a; apply Fin.ext
    match a with
    | ⟨0, _⟩ => show win0_20.index t (0 : Fin 2) * 40 + 1 * l.val = l.val; rw [(idx_mats t).2.2.2.2.2.2.2.2.2.2.2.2.2.2.2.2.1]; omega
    | ⟨1, _⟩ => show win0_20.index t (1 : Fin 2) * 1 + 1 * u.val = u.val; rw [(idx_mats t).2.2.2.2.2.2.2.2.2.2.2.2.2.2.2.2.2.1]; omega
  show V m c main_v87 (((cfg0.win 20).blk t).view.emb (ix2 l u)) = _
  rw [h]

theorem blk21 (c : Dev nD) (t : Fin cfg0.N) (u : Fin 1) :
    iblk m c 21 t (ix1 u) = V m c main_v95 (ix1 u) := by
  have h : ((cfg0.win 21).blk t).view.emb (ix1 u) = ix1 u := by
    funext a; apply Fin.ext
    match a with
    | ⟨0, _⟩ => show win0_21.index t (0 : Fin 1) * 1 + 1 * u.val = u.val; rw [(idx_vecs t).2.2.2.2.2.2.2.2.1]; omega
  show V m c main_v95 (((cfg0.win 21).blk t).view.emb (ix1 u)) = _
  rw [h]

theorem blk22 (c : Dev nD) (t : Fin cfg0.N) (u v : Fin 1) :
    iblk m c 22 t (ix2 u v) = V m c main_arg22 (ix2 u v) := by
  have h : ((cfg0.win 22).blk t).view.emb (ix2 u v) = ix2 u v := by
    funext a; apply Fin.ext
    match a with
    | ⟨0, _⟩ => show win0_22.index t (0 : Fin 2) * 1 + 1 * u.val = u.val; rw [(idx_mats t).2.2.2.2.2.2.2.2.2.2.2.2.2.2.2.2.2.2.1]; omega
    | ⟨1, _⟩ => show win0_22.index t (1 : Fin 2) * 1 + 1 * v.val = v.val; rw [(idx_mats t).2.2.2.2.2.2.2.2.2.2.2.2.2.2.2.2.2.2.2]; omega
  show V m c main_arg22 (((cfg0.win 22).blk t).view.emb (ix2 u v)) = _
  rw [h]

theorem blk23 (c : Dev nD) (t : Fin cfg0.N) (u : Fin 1) :
    iblk m c 23 t (ix1 u) = V m c main_arg23 (ix1 u) := by
  have h : ((cfg0.win 23).blk t).view.emb (ix1 u) = ix1 u := by
    funext a; apply Fin.ext
    match a with
    | ⟨0, _⟩ => show win0_23.index t (0 : Fin 1) * 1 + 1 * u.val = u.val; rw [(idx_vecs t).2.2.2.2.2.2.2.2.2]; omega
  show V m c main_arg23 (((cfg0.win 23).blk t).view.emb (ix1 u)) = _
  rw [h]

/-! ## The body's result for the output window -/

theorem hz2 : (![0, 0] : Fin 2 → Nat) = fun _ => 0 := funext fun a => by fin_cases a <;> rfl
theorem hz1 : (![0] : Fin 1 → Nat) = fun _ => 0 := funext fun a => by fin_cases a <;> rfl

theorem out_eq (x0 : Vec Ideal S4096x40 .f32) (x1 : Vec Ideal S4096x32 .f32) (x2 : Vec Ideal S4096x40 .f32) (x3 : Vec Ideal S4096x1 .f32)
    (x4 : Vec Ideal S40x40 .bf16) (x5 : Vec Ideal S40 .f32) (x6 : Vec Ideal S40x40 .bf16) (x7 : Vec Ideal S40 .f32) (x8 : Vec Ideal S40x1 .bf16) (x9 : Vec Ideal S1 .f32)
    (x10 : Vec Ideal S32x32 .bf16) (x11 : Vec Ideal S32 .f32) (x12 : Vec Ideal S32x32 .bf16) (x13 : Vec Ideal S32 .f32) (x14 : Vec Ideal S32x1 .bf16) (x15 : Vec Ideal S1 .f32)
    (x16 : Vec Ideal S40x40 .bf16) (x17 : Vec Ideal S40 .f32) (x18 : Vec Ideal S40x40 .bf16) (x19 : Vec Ideal S40 .f32) (x20 : Vec Ideal S40x1 .bf16) (x21 : Vec Ideal S1 .f32)
    (x22 : Vec Ideal S1x1 .f32) (x23 : Vec Ideal S1 .f32) :
    out0_24 (F := Ideal) x0 x1 x2 x3 x4 x5 x6 x7 x8 x9 x10 x11 x12 x13 x14 x15 x16 x17 x18 x19 x20 x21 x22 x23
      = k0_pay1 (F := Ideal) (k0_pay2 x0 x4 x5 x6 x7 x8 x9) (k0_pay5 (k0_pay3 x1) (k0_pay4 x10) x11 x12 x13 x14 x15) (k0_pay6 x16) x17 (k0_pay7 x18) x19
          (k0_pay8 x20) (k0_pay9 x21) (k0_pay10 x2) (constant S4096x40 .f32 0x00000000#32) x3 x22 x23 := by
  unfold out0_24
  rw [View.canon_unit_zero hz2]
  simp only [View.ld_unit_zero (S := S4096x40) hz2, View.ld_unit_zero (S := S40x40) hz2, View.ld_unit_zero (S := S40) hz1,
    View.ld_unit_zero (S := S40x1) hz2, View.ld_unit_zero (S := S1) hz1, View.ld_unit_zero (S := S4096x32) hz2,
    View.ld_unit_zero (S := S32x32) hz2, View.ld_unit_zero (S := S32) hz1, View.ld_unit_zero (S := S32x1) hz2,
    View.ld_unit_zero (S := S4096x1) hz2, View.ld_unit_zero (S := S1x1) hz2]

theorem emb24 (t : Fin cfg0.N) (r : Fin 4096) (u : Fin 1) : ((cfg0.win 24).blk t).view.emb (ix2 r u) = ix2 (row t r) u := by
  funext a; apply Fin.ext
  match a with
  | ⟨0, _⟩ => show win0_24.index t (0 : Fin 2) * 4096 + 1 * r.val = t.val * 4096 + r.val; rw [(idx_rows t).2.2.2.2.2.2.2.2.1]; omega
  | ⟨1, _⟩ => show win0_24.index t (1 : Fin 2) * 1 + 1 * u.val = u.val; rw [(idx_rows t).2.2.2.2.2.2.2.2.2]; omega

/-- Four sums are equal when their terms are. -/
theorem add4 {p p' q q' x x' y y' : EReal} (hp : p = p') (hq : q = q') (hx : x = x') (hy : y = y') :
    p + q + x + y = p' + q' + x' + y' := by rw [hp, hq, hx, hy]

/-- The result function of the argument arrays as launched. -/
abbrev G (c : Dev nD) : FVec Ideal S1048576x1 .f32 :=
  result (a0 m c) (a1 m c) (a2 m c) (a3 m c) (a4 m c) (a5 m c) (a6 m c) (a7 m c) (a8 m c) (a9 m c) (a10 m c) (a11 m c) (a12 m c)
    (a13 m c) (a14 m c) (a15 m c) (a16 m c) (a17 m c) (a18 m c) (a19 m c) (a20 m c) (a21 m c) (a22 m c) (a23 m c)

/-- WHAT POINT `t` WRITES BACK is block `t` of the result function: at row `r` of the block the three perceptrons on
    `4·d` laid-out features collapse, by the block-diagonal law, to the three families of row `t·4096 + r`. -/
theorem flushed_eq (c : Dev nD) (t : Fin cfg0.N) :
    (dats m 0 c).flushed 24 t = ((cfg0.win 24).blk t).view.read (Elt Ideal) (G m c) := by
  rw [flushed24, out_eq]
  funext y
  obtain ⟨r, u, rfl⟩ : ∃ (r : Fin 4096) (u : Fin 1), y = ix2 r u := ⟨y 0, y 1, eq_ix2 y⟩
  have hu : u = 0 := Subsingleton.elim u 0
  subst hu
  refine (body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) r).trans ?_
  show _ = G m c (((cfg0.win 24).blk t).view.emb (ix2 r 0))
  rw [emb24]
  unfold G
  rw [result_apply]
  unfold resultRow
  refine add4 ?_ ?_ ?_ ?_
  · unfold family slice3
    exact mlp3_blockdiag (d := 10) _ _ _ _ _ _ _ (fun s k => a0 m c (ix3 (row t r) s k)) (fun k o => a4 m c (ix2 o k)) (fun k o => a6 m c (ix2 o k))
      (fun o => a5 m c (ix1 o)) (fun o => a7 m c (ix1 o)) (fun k => a8 m c (ix2 (0 : Fin 1) k)) (a9 m c (ix1 (0 : Fin 1)))
      (fun s k => (blk0 m c t r (cat s k)).trans (v0_apply m c (row t r) s k))
      (fun s k s' o => (blk4 m c t (cat s k) (cat s' o)).trans (v11_apply m c s s' k o))
      (fun s o => (blk5 m c t (cat s o)).trans (v28_apply m c s o))
      (fun s k s' o => (blk6 m c t (cat s k) (cat s' o)).trans (v20_apply m c s s' k o))
      (fun s o => (blk7 m c t (cat s o)).trans (v31_apply m c s o))
      (fun s k => (blk8 m c t (cat s k) 0).trans (v25_apply m c s k))
      ((blk9 m c t 0).trans (v33_apply m c))
  · unfold family slice3
    exact mlp3_blockdiag (d := 8) _ _ _ _ _ _ _ (fun s k => a1 m c (ix3 (row t r) s k)) (fun k o => a10 m c (ix2 o k)) (fun k o => a12 m c (ix2 o k))
      (fun o => a11 m c (ix1 o)) (fun o => a13 m c (ix1 o)) (fun k => a14 m c (ix2 (0 : Fin 1) k)) (a15 m c (ix1 (0 : Fin 1)))
      (fun s k => (blk1 m c t r (cat s k)).trans (v1_apply m c (row t r) s k))
      (fun s k s' o => (blk10 m c t (cat s k) (cat s' o)).trans (v42_apply m c s s' k o))
      (fun s o => (blk11 m c t (cat s o)).trans (v59_apply m c s o))
      (fun s k s' o => (blk12 m c t (cat s k) (cat s' o)).trans (v51_apply m c s s' k o))
      (fun s o => (blk13 m c t (cat s o)).trans (v62_apply m c s o))
      (fun s k => (blk14 m c t (cat s k) 0).trans (v56_apply m c s k))
      ((blk15 m c t 0).trans (v64_apply m c))
  · unfold family slice3
    exact mlp3_blockdiag (d := 10) _ _ _ _ _ _ _ (fun s k => a2 m c (ix3 (row t r) s k)) (fun k o => a16 m c (ix2 o k)) (fun k o => a18 m c (ix2 o k))
      (fun o => a17 m c (ix1 o)) (fun o => a19 m c (ix1 o)) (fun k => a20 m c (ix2 (0 : Fin 1) k)) (a21 m c (ix1 (0 : Fin 1)))
      (fun s k => (blk2 m c t r (cat s k)).trans (v2_apply m c (row t r) s k))
      (fun s k s' o => (blk16 m c t (cat s k) (cat s' o)).trans (v73_apply m c s s' k o))
      (fun s o => (blk17 m c t (cat s o)).trans (v90_apply m c s o))
      (fun s k s' o => (blk18 m c t (cat s k) (cat s' o)).trans (v82_apply m c s s' k o))
      (fun s o => (blk19 m c t (cat s o)).trans (v93_apply m c s o))
      (fun s k => (blk20 m c t (cat s k) 0).trans (v87_apply m c s k))
      ((blk21 m c t 0).trans (v95_apply m c))
  · exact congrArg₂ (· + ·)
      (congrArg₂ (· * ·) ((blk3 m c t r 0).trans (congrFun (V_main_arg3 m c) _)) ((blk22 m c t 0 0).trans (congrFun (V_main_arg22 m c) _)))
      ((blk23 m c t 0).trans (congrFun (V_main_arg23 m c) _))

/-! ## The 256 blocks tile the result -/

/-- An index of the result is in point `t`'s block iff each coordinate is in the block's range on its axis. -/
theorem mem_blk (t : Fin cfg0.N) (i : S1048576x1.Idx) :
    i ∈ ((cfg0.win 24).blk t).view.set ↔ ∀ a : Fin 2, win0_24.index t a * S4096x1.size a ≤ (i a).val ∧ (i a).val < win0_24.index t a * S4096x1.size a + S4096x1.size a := by
  show i ∈ ((View.whole main_v96).slice (win0_24.rect t)).set ↔ _
  rw [View.set_slice_whole, Rect.mem_set_unit]
  exact Iff.rfl

/-- Row `b` lies in the block of point `b / 4096`. -/
theorem cover (i : S1048576x1.Idx) : ∃ t : Fin cfg0.N, (cfg0.win 24).flush t = true ∧ i ∈ ((cfg0.win 24).blk t).view.set := by
  have hi0 : (i 0).val < 1048576 := (i 0).isLt
  have hi1 : (i 1).val < 1 := (i 1).isLt
  refine ⟨⟨(i 0).val / 4096, by show (i 0).val / 4096 < 256; omega⟩, flush0_24 _, ?_⟩
  rw [mem_blk]
  intro a
  match a with
  | ⟨0, _⟩ =>
    show win0_24.index ⟨(i 0).val / 4096, _⟩ (0 : Fin 2) * 4096 ≤ (i 0).val ∧ (i 0).val < win0_24.index ⟨(i 0).val / 4096, _⟩ (0 : Fin 2) * 4096 + 4096
    rw [(idx_rows _).2.2.2.2.2.2.2.2.1]
    show (i 0).val / 4096 * 4096 ≤ (i 0).val ∧ (i 0).val < (i 0).val / 4096 * 4096 + 4096
    omega
  | ⟨1, _⟩ =>
    show win0_24.index ⟨(i 0).val / 4096, _⟩ (1 : Fin 2) * 1 ≤ (i 1).val ∧ (i 1).val < win0_24.index ⟨(i 0).val / 4096, _⟩ (1 : Fin 2) * 1 + 1
    rw [(idx_rows _).2.2.2.2.2.2.2.2.2]
    omega

/-- THE ARRAY after the run is the result function of the argument arrays. -/
theorem final (c : Dev nD) : (dats m 0 c).arrAt 24 cfg0.N = G m c :=
  (dats m 0 c).arrAt_eq_of_cover 24 (G m c) (fun t _ => flushed_eq m c t) cover

/-! ## The run, read -/

/-- Every weakly fair execution of the kernel's program terminates with the result array at the result function of
    the argument arrays, the arguments unchanged. -/
theorem run : θ_run defs (onTc (τ := τ) (main (F := Ideal))) ⟨m, fun _ => 0, ρ⟩ fun r => ∀ c : Dev nD,
      r.2.mem ((c : Thread nD τ).loc main_v96) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23) :=
  (θ_run defs _ _).mono (fun r h c => ⟨(h c).1.trans (final m c), (h c).2⟩) (run_blocks m ρ)

end Cert.KernelIdeal.KV

end
-- ==== Proof.RefValue.lean ====
/-
  The reference computation is the result array of `Cert.DenseMlp.result`, entry by entry.

  The reference builds each of the three families the same way: a contraction of the last axis of the input with the
  second axis of a weight matrix (so the matrix is read transposed), the bias added along the last axis, and the
  maximum with zero — twice —, then a contraction with the single read-out row and the read-out bias, and at the end
  the sum over the slice axis starting from the constant zero. Read at the entry `(b, s, o)` every one of these steps is
  the corresponding step of `Cert.DenseMlp.layer` / `mlp3` on the features `x (b, s, ·)`; the sum over the slice axis
  is `family`. The linear term is a contraction of extent one, which is a single product. The three families and the
  linear term are added left to right, as `resultRow` adds them.
-/
import proofs.«428701_j17154099380717_3_alg».proof.Proof.Gen.ReferenceIdeal.Read
import proofs.«428701_j17154099380717_3_alg».proof.Proof.Result

noncomputable section

namespace Cert.ReferenceIdeal.RefValue

open Cert.ReferenceIdeal Cert.ReferenceIdeal.Gen Cert.ReferenceIdeal.Read Cert.DenseMlp
open Idealize.ShloMosaic Idealize.ShloMosaic.ValueIdx

/-! ### The edge family: arguments 0 and 4 to 9 -/

/-- First hidden layer of the edge family at entry `(b, s, o)`. -/
theorem edge_hidden1 (x0 : (⟨S1048576x4x10, .f32⟩ : BufTy).Contents (Elt Ideal)) (x4 : (⟨S10x10, .f32⟩ : BufTy).Contents (Elt Ideal))
    (x5 : (⟨S10, .f32⟩ : BufTy).Contents (Elt Ideal)) (b : Fin 1048576) (s : Fin 4) (o : Fin 10) :
    val_main_v4 (F := Ideal) x0 x4 x5 (ix3 b s o)
      = layer (fun k : Fin 10 => x0 (ix3 b s k)) (fun k o => x4 (ix2 o k)) (fun o => x5 (ix1 o)) o := by
  rw [val_main_v4_apply, val_main_v3_apply, val_main_v0_apply, val_main_v2_apply, val_main_v1_apply,
    val_main_call0_v0_apply, val_main_call0_cst_apply]
  have e1 : ∀ k : Fin 10, lidx_main_v0 (ix3 b s o) k = ix3 b s k := fun k => funext fun a => Fin.ext (by
    match a with | ⟨0, _⟩ => rfl | ⟨1, _⟩ => rfl | ⟨2, _⟩ => rfl)
  have e2 : ∀ k : Fin 10, ridx_main_v0 (ix3 b s o) k = ix2 o k := fun k => funext fun a => Fin.ext (by
    match a with | ⟨0, _⟩ => rfl | ⟨1, _⟩ => rfl)
  have e3 : idx_main_v1 (idx_main_v2 (ix3 b s o)) = ix1 o := funext fun a => Fin.ext (by
    match a with | ⟨0, _⟩ => rfl)
  rw [e3, Ideal.maximumf_def, Ideal.addf_def, Ideal.ofBits_def, Ideal.ofBits_zero_f32]
  unfold layer
  refine congrArg (fun t => max (t + x5 (ix1 o)) 0) (Finset.sum_congr rfl fun k _ => ?_)
  rw [e1, e2]

/-- Second hidden layer of the edge family at entry `(b, s, o)`. -/
theorem edge_hidden2 (x0 : (⟨S1048576x4x10, .f32⟩ : BufTy).Contents (Elt Ideal)) (x4 : (⟨S10x10, .f32⟩ : BufTy).Contents (Elt Ideal))
    (x5 : (⟨S10, .f32⟩ : BufTy).Contents (Elt Ideal)) (x6 : (⟨S10x10, .f32⟩ : BufTy).Contents (Elt Ideal))
    (x7 : (⟨S10, .f32⟩ : BufTy).Contents (Elt Ideal)) (b : Fin 1048576) (s : Fin 4) (o : Fin 10) :
    val_main_v9 (F := Ideal) x0 x4 x5 x6 x7 (ix3 b s o)
      = layer (layer (fun k : Fin 10 => x0 (ix3 b s k)) (fun k o => x4 (ix2 o k)) (fun o => x5 (ix1 o)))
          (fun k o => x6 (ix2 o k)) (fun o => x7 (ix1 o)) o := by
  rw [val_main_v9_apply, val_main_v8_apply, val_main_v5_apply, val_main_v7_apply, val_main_v6_apply,
    val_main_call1_v0_apply, val_main_call1_cst_apply]
  have e1 : ∀ k : Fin 10, lidx_main_v5 (ix3 b s o) k = ix3 b s k := fun k => funext fun a => Fin.ext (by
    match a with | ⟨0, _⟩ => rfl | ⟨1, _⟩ => rfl | ⟨2, _⟩ => rfl)
  have e2 : ∀ k : Fin 10, ridx_main_v5 (ix3 b s o) k = ix2 o k := fun k => funext fun a => Fin.ext (by
    match a with | ⟨0, _⟩ => rfl | ⟨1, _⟩ => rfl)
  have e3 : idx_main_v6 (idx_main_v7 (ix3 b s o)) = ix1 o := funext fun a => Fin.ext (by
    match a with | ⟨0, _⟩ => rfl)
  rw [e3, Ideal.maximumf_def, Ideal.addf_def, Ideal.ofBits_def, Ideal.ofBits_zero_f32, layer]
  refine congrArg (fun t => max (t + x7 (ix1 o)) 0) (Finset.sum_congr rfl fun k _ => ?_)
  rw [e1, e2, edge_hidden1]

/-- The read-out of the edge family at entry `(b, s, 0)`: the perceptron of slice `s` of row `b`. -/
theorem edge_slice (x0 : (⟨S1048576x4x10, .f32⟩ : BufTy).Contents (Elt Ideal)) (x4 : (⟨S10x10, .f32⟩ : BufTy).Contents (Elt Ideal))
    (x5 : (⟨S10, .f32⟩ : BufTy).Contents (Elt Ideal)) (x6 : (⟨S10x10, .f32⟩ : BufTy).Contents (Elt Ideal))
    (x7 : (⟨S10, .f32⟩ : BufTy).Contents (Elt Ideal)) (x8 : (⟨S1x10, .f32⟩ : BufTy).Contents (Elt Ideal))
    (x9 : (⟨S1, .f32⟩ : BufTy).Contents (Elt Ideal)) (b : Fin 1048576) (s : Fin 4) (u : Fin 1) :
    val_main_v13 (F := Ideal) x0 x4 x5 x6 x7 x8 x9 (ix3 b s u) = slice3 x0 x4 x5 x6 x7 x8 x9 b s := by
  obtain rfl : u = 0 := Subsingleton.elim u 0
  rw [val_main_v13_apply, val_main_v10_apply, val_main_v12_apply, val_main_v11_apply]
  have e1 : ∀ k : Fin 10, lidx_main_v10 (ix3 b s (0 : Fin 1)) k = ix3 b s k := fun k => funext fun a => Fin.ext (by
    match a with | ⟨0, _⟩ => rfl | ⟨1, _⟩ => rfl | ⟨2, _⟩ => rfl)
  have e2 : ∀ k : Fin 10, ridx_main_v10 (ix3 b s (0 : Fin 1)) k = ix2 (0 : Fin 1) k := fun k => funext fun a => Fin.ext (by
    match a with | ⟨0, _⟩ => rfl | ⟨1, _⟩ => rfl)
  have e3 : idx_main_v11 (idx_main_v12 (ix3 b s (0 : Fin 1))) = ix1 (0 : Fin 1) := funext fun a => Fin.ext (by
    match a with | ⟨0, _⟩ => rfl)
  rw [e3, Ideal.addf_def]
  unfold slice3 mlp3
  refine congrArg (fun t => t + x9 (ix1 (0 : Fin 1))) (Finset.sum_congr rfl fun k _ => ?_)
  rw [e1, e2, edge_hidden2]

/-- The edge family at entry `(b, 0)`: the four slices' perceptrons added from zero. -/
theorem edge_family (x0 : (⟨S1048576x4x10, .f32⟩ : BufTy).Contents (Elt Ideal)) (x4 : (⟨S10x10, .f32⟩ : BufTy).Contents (Elt Ideal))
    (x5 : (⟨S10, .f32⟩ : BufTy).Contents (Elt Ideal)) (x6 : (⟨S10x10, .f32⟩ : BufTy).Contents (Elt Ideal))
    (x7 : (⟨S10, .f32⟩ : BufTy).Contents (Elt Ideal)) (x8 : (⟨S1x10, .f32⟩ : BufTy).Contents (Elt Ideal))
    (x9 : (⟨S1, .f32⟩ : BufTy).Contents (Elt Ideal)) (b : Fin 1048576) (u : Fin 1) :
    val_main_v14 (F := Ideal) x0 x4 x5 x6 x7 x8 x9 (ix2 b u) = family x0 x4 x5 x6 x7 x8 x9 b := by
  rw [val_main_v14_apply, val_main_cst_apply, Ideal.ofBits_def, Ideal.ofBits_zero_f32]
  unfold family
  refine congrArg (fun t => 0 + t) (Finset.sum_congr rfl fun s _ => ?_)
  have e1 : idx_main_v14 (ix2 b u) s = ix3 b s u := funext fun a => Fin.ext (by
    match a with | ⟨0, _⟩ => rfl | ⟨1, _⟩ => rfl | ⟨2, _⟩ => rfl)
  rw [e1, edge_slice]

/-! ### The cross family: arguments 1 and 10 to 15, on eight features -/

/-- First hidden layer of the cross family at entry `(b, s, o)`. -/
theorem cross_hidden1 (x1 : (⟨S1048576x4x8, .f32⟩ : BufTy).Contents (Elt Ideal)) (x10 : (⟨S8x8, .f32⟩ : BufTy).Contents (Elt Ideal))
    (x11 : (⟨S8, .f32⟩ : BufTy).Contents (Elt Ideal)) (b : Fin 1048576) (s : Fin 4) (o : Fin 8) :
    val_main_v19 (F := Ideal) x1 x10 x11 (ix3 b s o)
      = layer (fun k : Fin 8 => x1 (ix3 b s k)) (fun k o => x10 (ix2 o k)) (fun o => x11 (ix1 o)) o := by
  rw [val_main_v19_apply, val_main_v18_apply, val_main_v15_apply, val_main_v17_apply, val_main_v16_apply,
    val_main_call2_v0_apply, val_main_call2_cst_apply]
  have e1 : ∀ k : Fin 8, lidx_main_v15 (ix3 b s o) k = ix3 b s k := fun k => funext fun a => Fin.ext (by
    match a with | ⟨0, _⟩ => rfl | ⟨1, _⟩ => rfl | ⟨2, _⟩ => rfl)
  have e2 : ∀ k : Fin 8, ridx_main_v15 (ix3 b s o) k = ix2 o k := fun k => funext fun a => Fin.ext (by
    match a with | ⟨0, _⟩ => rfl | ⟨1, _⟩ => rfl)
  have e3 : idx_main_v16 (idx_main_v17 (ix3 b s o)) = ix1 o := funext fun a => Fin.ext (by
    match a with | ⟨0, _⟩ => rfl)
  rw [e3, Ideal.maximumf_def, Ideal.addf_def, Ideal.ofBits_def, Ideal.ofBits_zero_f32]
  unfold layer
  refine congrArg (fun t => max (t + x11 (ix1 o)) 0) (Finset.sum_congr rfl fun k _ => ?_)
  rw [e1, e2]

/-- Second hidden layer of the cross family at entry `(b, s, o)`. -/
theorem cross_hidden2 (x1 : (⟨S1048576x4x8, .f32⟩ : BufTy).Contents (Elt Ideal)) (x10 : (⟨S8x8, .f32⟩ : BufTy).Contents (Elt Ideal))
    (x11 : (⟨S8, .f32⟩ : BufTy).Contents (Elt Ideal)) (x12 : (⟨S8x8, .f32⟩ : BufTy).Contents (Elt Ideal))
    (x13 : (⟨S8, .f32⟩ : BufTy).Contents (Elt Ideal)) (b : Fin 1048576) (s : Fin 4) (o : Fin 8) :
    val_main_v24 (F := Ideal) x1 x10 x11 x12 x13 (ix3 b s o)
      = layer (layer (fun k : Fin 8 => x1 (ix3 b s k)) (fun k o => x10 (ix2 o k)) (fun o => x11 (ix1 o)))
          (fun k o => x12 (ix2 o k)) (fun o => x13 (ix1 o)) o := by
  rw [val_main_v24_apply, val_main_v23_apply, val_main_v20_apply, val_main_v22_apply, val_main_v21_apply,
    val_main_call3_v0_apply, val_main_call3_cst_apply]
  have e1 : ∀ k : Fin 8, lidx_main_v20 (ix3 b s o) k = ix3 b s k := fun k => funext fun a => Fin.ext (by
    match a with | ⟨0, _⟩ => rfl | ⟨1, _⟩ => rfl | ⟨2, _⟩ => rfl)
  have e2 : ∀ k : Fin 8, ridx_main_v20 (ix3 b s o) k = ix2 o k := fun k => funext fun a => Fin.ext (by
    match a with | ⟨0, _⟩ => rfl | ⟨1, _⟩ => rfl)
  have e3 : idx_main_v21 (idx_main_v22 (ix3 b s o)) = ix1 o := funext fun a => Fin.ext (by
    match a with | ⟨0, _⟩ => rfl)
  rw [e3, Ideal.maximumf_def, Ideal.addf_def, Ideal.ofBits_def, Ideal.ofBits_zero_f32, layer]
  refine congrArg (fun t => max (t + x13 (ix1 o)) 0) (Finset.sum_congr rfl fun k _ => ?_)
  rw [e1, e2, cross_hidden1]

/-- The read-out of the cross family at entry `(b, s, 0)`: the perceptron of slice `s` of row `b`. -/
theorem cross_slice (x1 : (⟨S1048576x4x8, .f32⟩ : BufTy).Contents (Elt Ideal)) (x10 : (⟨S8x8, .f32⟩ : BufTy).Contents (Elt Ideal))
    (x11 : (⟨S8, .f32⟩ : BufTy).Contents (Elt Ideal)) (x12 : (⟨S8x8, .f32⟩ : BufTy).Contents (Elt Ideal))
    (x13 : (⟨S8, .f32⟩ : BufTy).Contents (Elt Ideal)) (x14 : (⟨S1x8, .f32⟩ : BufTy).Contents (Elt Ideal))
    (x15 : (⟨S1, .f32⟩ : BufTy).Contents (Elt Ideal)) (b : Fin 1048576) (s : Fin 4) (u : Fin 1) :
    val_main_v28 (F := Ideal) x1 x10 x11 x12 x13 x14 x15 (ix3 b s u) = slice3 x1 x10 x11 x12 x13 x14 x15 b s := by
  obtain rfl : u = 0 := Subsingleton.elim u 0
  rw [val_main_v28_apply, val_main_v25_apply, val_main_v27_apply, val_main_v26_apply]
  have e1 : ∀ k : Fin 8, lidx_main_v25 (ix3 b s (0 : Fin 1)) k = ix3 b s k := fun k => funext fun a => Fin.ext (by
    match a with | ⟨0, _⟩ => rfl | ⟨1, _⟩ => rfl | ⟨2, _⟩ => rfl)
  have e2 : ∀ k : Fin 8, ridx_main_v25 (ix3 b s (0 : Fin 1)) k = ix2 (0 : Fin 1) k := fun k => funext fun a => Fin.ext (by
    match a with | ⟨0, _⟩ => rfl | ⟨1, _⟩ => rfl)
  have e3 : idx_main_v26 (idx_main_v27 (ix3 b s (0 : Fin 1))) = ix1 (0 : Fin 1) := funext fun a => Fin.ext (by
    match a with | ⟨0, _⟩ => rfl)
  rw [e3, Ideal.addf_def]
  unfold slice3 mlp3
  refine congrArg (fun t => t + x15 (ix1 (0 : Fin 1))) (Finset.sum_congr rfl fun k _ => ?_)
  rw [e1, e2, cross_hidden2]

/-- The cross family at entry `(b, 0)`: the four slices' perceptrons added from zero. -/
theorem cross_family (x1 : (⟨S1048576x4x8, .f32⟩ : BufTy).Contents (Elt Ideal)) (x10 : (⟨S8x8, .f32⟩ : BufTy).Contents (Elt Ideal))
    (x11 : (⟨S8, .f32⟩ : BufTy).Contents (Elt Ideal)) (x12 : (⟨S8x8, .f32⟩ : BufTy).Contents (Elt Ideal))
    (x13 : (⟨S8, .f32⟩ : BufTy).Contents (Elt Ideal)) (x14 : (⟨S1x8, .f32⟩ : BufTy).Contents (Elt Ideal))
    (x15 : (⟨S1, .f32⟩ : BufTy).Contents (Elt Ideal)) (b : Fin 1048576) (u : Fin 1) :
    val_main_v29 (F := Ideal) x1 x10 x11 x12 x13 x14 x15 (ix2 b u) = family x1 x10 x11 x12 x13 x14 x15 b := by
  rw [val_main_v29_apply, val_main_cst_0_apply, Ideal.ofBits_def, Ideal.ofBits_zero_f32]
  unfold family
  refine congrArg (fun t => 0 + t) (Finset.sum_congr rfl fun s _ => ?_)
  have e1 : idx_main_v29 (ix2 b u) s = ix3 b s u := funext fun a => Fin.ext (by
    match a with | ⟨0, _⟩ => rfl | ⟨1, _⟩ => rfl | ⟨2, _⟩ => rfl)
  rw [e1, cross_slice]

/-! ### The corner family: arguments 2 and 16 to 21 -/

/-- First hidden layer of the corner family at entry `(b, s, o)`. -/
theorem corner_hidden1 (x2 : (⟨S1048576x4x10, .f32⟩ : BufTy).Contents (Elt Ideal)) (x16 : (⟨S10x10, .f32⟩ : BufTy).Contents (Elt Ideal))
    (x17 : (⟨S10, .f32⟩ : BufTy).Contents (Elt Ideal)) (b : Fin 1048576) (s : Fin 4) (o : Fin 10) :
    val_main_v34 (F := Ideal) x2 x16 x17 (ix3 b s o)
      = layer (fun k : Fin 10 => x2 (ix3 b s k)) (fun k o => x16 (ix2 o k)) (fun o => x17 (ix1 o)) o := by
  rw [val_main_v34_apply, val_main_v33_apply, val_main_v30_apply, val_main_v32_apply, val_main_v31_apply,
    val_main_call4_v0_apply, val_main_call4_cst_apply]
  have e1 : ∀ k : Fin 10, lidx_main_v30 (ix3 b s o) k = ix3 b s k := fun k => funext fun a => Fin.ext (by
    match a with | ⟨0, _⟩ => rfl | ⟨1, _⟩ => rfl | ⟨2, _⟩ => rfl)
  have e2 : ∀ k : Fin 10, ridx_main_v30 (ix3 b s o) k = ix2 o k := fun k => funext fun a => Fin.ext (by
    match a with | ⟨0, _⟩ => rfl | ⟨1, _⟩ => rfl)
  have e3 : idx_main_v31 (idx_main_v32 (ix3 b s o)) = ix1 o := funext fun a => Fin.ext (by
    match a with | ⟨0, _⟩ => rfl)
  rw [e3, Ideal.maximumf_def, Ideal.addf_def, Ideal.ofBits_def, Ideal.ofBits_zero_f32]
  unfold layer
  refine congrArg (fun t => max (t + x17 (ix1 o)) 0) (Finset.sum_congr rfl fun k _ => ?_)
  rw [e1, e2]

/-- Second hidden layer of the corner family at entry `(b, s, o)`. -/
theorem corner_hidden2 (x2 : (⟨S1048576x4x10, .f32⟩ : BufTy).Contents (Elt Ideal)) (x16 : (⟨S10x10, .f32⟩ : BufTy).Contents (Elt Ideal))
    (x17 : (⟨S10, .f32⟩ : BufTy).Contents (Elt Ideal)) (x18 : (⟨S10x10, .f32⟩ : BufTy).Contents (Elt Ideal))
    (x19 : (⟨S10, .f32⟩ : BufTy).Contents (Elt Ideal)) (b : Fin 1048576) (s : Fin 4) (o : Fin 10) :
    val_main_v39 (F := Ideal) x2 x16 x17 x18 x19 (ix3 b s o)
      = layer (layer (fun k : Fin 10 => x2 (ix3 b s k)) (fun k o => x16 (ix2 o k)) (fun o => x17 (ix1 o)))
          (fun k o => x18 (ix2 o k)) (fun o => x19 (ix1 o)) o := by
  rw [val_main_v39_apply, val_main_v38_apply, val_main_v35_apply, val_main_v37_apply, val_main_v36_apply,
    val_main_call5_v0_apply, val_main_call5_cst_apply]
  have e1 : ∀ k : Fin 10, lidx_main_v35 (ix3 b s o) k = ix3 b s k := fun k => funext fun a => Fin.ext (by
    match a with | ⟨0, _⟩ => rfl | ⟨1, _⟩ => rfl | ⟨2, _⟩ => rfl)
  have e2 : ∀ k : Fin 10, ridx_main_v35 (ix3 b s o) k = ix2 o k := fun k => funext fun a => Fin.ext (by
    match a with | ⟨0, _⟩ => rfl | ⟨1, _⟩ => rfl)
  have e3 : idx_main_v36 (idx_main_v37 (ix3 b s o)) = ix1 o := funext fun a => Fin.ext (by
    match a with | ⟨0, _⟩ => rfl)
  rw [e3, Ideal.maximumf_def, Ideal.addf_def, Ideal.ofBits_def, Ideal.ofBits_zero_f32, layer]
  refine congrArg (fun t => max (t + x19 (ix1 o)) 0) (Finset.sum_congr rfl fun k _ => ?_)
  rw [e1, e2, corner_hidden1]

/-- The read-out of the corner family at entry `(b, s, 0)`: the perceptron of slice `s` of row `b`. -/
theorem corner_slice (x2 : (⟨S1048576x4x10, .f32⟩ : BufTy).Contents (Elt Ideal)) (x16 : (⟨S10x10, .f32⟩ : BufTy).Contents (Elt Ideal))
    (x17 : (⟨S10, .f32⟩ : BufTy).Contents (Elt Ideal)) (x18 : (⟨S10x10, .f32⟩ : BufTy).Contents (Elt Ideal))
    (x19 : (⟨S10, .f32⟩ : BufTy).Contents (Elt Ideal)) (x20 : (⟨S1x10, .f32⟩ : BufTy).Contents (Elt Ideal))
    (x21 : (⟨S1, .f32⟩ : BufTy).Contents (Elt Ideal)) (b : Fin 1048576) (s : Fin 4) (u : Fin 1) :
    val_main_v43 (F := Ideal) x2 x16 x17 x18 x19 x20 x21 (ix3 b s u) = slice3 x2 x16 x17 x18 x19 x20 x21 b s := by
  obtain rfl : u = 0 := Subsingleton.elim u 0
  rw [val_main_v43_apply, val_main_v40_apply, val_main_v42_apply, val_main_v41_apply]
  have e1 : ∀ k : Fin 10, lidx_main_v40 (ix3 b s (0 : Fin 1)) k = ix3 b s k := fun k => funext fun a => Fin.ext (by
    match a with | ⟨0, _⟩ => rfl | ⟨1, _⟩ => rfl | ⟨2, _⟩ => rfl)
  have e2 : ∀ k : Fin 10, ridx_main_v40 (ix3 b s (0 : Fin 1)) k = ix2 (0 : Fin 1) k := fun k => funext fun a => Fin.ext (by
    match a with | ⟨0, _⟩ => rfl | ⟨1, _⟩ => rfl)
  have e3 : idx_main_v41 (idx_main_v42 (ix3 b s (0 : Fin 1))) = ix1 (0 : Fin 1) := funext fun a => Fin.ext (by
    match a with | ⟨0, _⟩ => rfl)
  rw [e3, Ideal.addf_def]
  unfold slice3 mlp3
  refine congrArg (fun t => t + x21 (ix1 (0 : Fin 1))) (Finset.sum_congr rfl fun k _ => ?_)
  rw [e1, e2, corner_hidden2]

/-- The corner family at entry `(b, 0)`: the four slices' perceptrons added from zero. -/
theorem corner_family (x2 : (⟨S1048576x4x10, .f32⟩ : BufTy).Contents (Elt Ideal)) (x16 : (⟨S10x10, .f32⟩ : BufTy).Contents (Elt Ideal))
    (x17 : (⟨S10, .f32⟩ : BufTy).Contents (Elt Ideal)) (x18 : (⟨S10x10, .f32⟩ : BufTy).Contents (Elt Ideal))
    (x19 : (⟨S10, .f32⟩ : BufTy).Contents (Elt Ideal)) (x20 : (⟨S1x10, .f32⟩ : BufTy).Contents (Elt Ideal))
    (x21 : (⟨S1, .f32⟩ : BufTy).Contents (Elt Ideal)) (b : Fin 1048576) (u : Fin 1) :
    val_main_v44 (F := Ideal) x2 x16 x17 x18 x19 x20 x21 (ix2 b u) = family x2 x16 x17 x18 x19 x20 x21 b := by
  rw [val_main_v44_apply, val_main_cst_1_apply, Ideal.ofBits_def, Ideal.ofBits_zero_f32]
  unfold family
  refine congrArg (fun t => 0 + t) (Finset.sum_congr rfl fun s _ => ?_)
  have e1 : idx_main_v44 (ix2 b u) s = ix3 b s u := funext fun a => Fin.ext (by
    match a with | ⟨0, _⟩ => rfl | ⟨1, _⟩ => rfl | ⟨2, _⟩ => rfl)
  rw [e1, corner_slice]

/-! ### The linear term and the whole result -/

/-- The linear term at entry `(b, 0)`: a contraction of extent one is a single product. -/
theorem linear_term (x3 : (⟨S1048576x1, .f32⟩ : BufTy).Contents (Elt Ideal)) (x22 : (⟨S1x1, .f32⟩ : BufTy).Contents (Elt Ideal))
    (x23 : (⟨S1, .f32⟩ : BufTy).Contents (Elt Ideal)) (b : Fin 1048576) (u : Fin 1) :
    val_main_v48 (F := Ideal) x3 x22 x23 (ix2 b u)
      = x3 (ix2 b (0 : Fin 1)) * x22 (ix2 (0 : Fin 1) (0 : Fin 1)) + x23 (ix1 (0 : Fin 1)) := by
  obtain rfl : u = 0 := Subsingleton.elim u 0
  rw [val_main_v48_apply, val_main_v45_apply, val_main_v47_apply, val_main_v46_apply, Ideal.addf_def, Fin.sum_univ_one]
  have e1 : lidx_main_v45 (ix2 b (0 : Fin 1)) (0 : Fin 1) = ix2 b (0 : Fin 1) := funext fun a => Fin.ext (by
    match a with | ⟨0, _⟩ => rfl | ⟨1, _⟩ => rfl)
  have e2 : ridx_main_v45 (ix2 b (0 : Fin 1)) (0 : Fin 1) = ix2 (0 : Fin 1) (0 : Fin 1) := funext fun a => Fin.ext (by
    match a with | ⟨0, _⟩ => rfl | ⟨1, _⟩ => rfl)
  have e3 : idx_main_v46 (idx_main_v47 (ix2 b (0 : Fin 1))) = ix1 (0 : Fin 1) := funext fun a => Fin.ext (by
    match a with | ⟨0, _⟩ => rfl)
  rw [e1, e2, e3]

/-- The reference's result array is `Cert.DenseMlp.result` of the twenty-four argument arrays. -/
theorem ref_eq (x0 : (⟨S1048576x4x10, .f32⟩ : BufTy).Contents (Elt Ideal)) (x1 : (⟨S1048576x4x8, .f32⟩ : BufTy).Contents (Elt Ideal))
    (x2 : (⟨S1048576x4x10, .f32⟩ : BufTy).Contents (Elt Ideal)) (x3 : (⟨S1048576x1, .f32⟩ : BufTy).Contents (Elt Ideal))
    (x4 : (⟨S10x10, .f32⟩ : BufTy).Contents (Elt Ideal)) (x5 : (⟨S10, .f32⟩ : BufTy).Contents (Elt Ideal))
    (x6 : (⟨S10x10, .f32⟩ : BufTy).Contents (Elt Ideal)) (x7 : (⟨S10, .f32⟩ : BufTy).Contents (Elt Ideal))
    (x8 : (⟨S1x10, .f32⟩ : BufTy).Contents (Elt Ideal)) (x9 : (⟨S1, .f32⟩ : BufTy).Contents (Elt Ideal))
    (x10 : (⟨S8x8, .f32⟩ : BufTy).Contents (Elt Ideal)) (x11 : (⟨S8, .f32⟩ : BufTy).Contents (Elt Ideal))
    (x12 : (⟨S8x8, .f32⟩ : BufTy).Contents (Elt Ideal)) (x13 : (⟨S8, .f32⟩ : BufTy).Contents (Elt Ideal))
    (x14 : (⟨S1x8, .f32⟩ : BufTy).Contents (Elt Ideal)) (x15 : (⟨S1, .f32⟩ : BufTy).Contents (Elt Ideal))
    (x16 : (⟨S10x10, .f32⟩ : BufTy).Contents (Elt Ideal)) (x17 : (⟨S10, .f32⟩ : BufTy).Contents (Elt Ideal))
    (x18 : (⟨S10x10, .f32⟩ : BufTy).Contents (Elt Ideal)) (x19 : (⟨S10, .f32⟩ : BufTy).Contents (Elt Ideal))
    (x20 : (⟨S1x10, .f32⟩ : BufTy).Contents (Elt Ideal)) (x21 : (⟨S1, .f32⟩ : BufTy).Contents (Elt Ideal))
    (x22 : (⟨S1x1, .f32⟩ : BufTy).Contents (Elt Ideal)) (x23 : (⟨S1, .f32⟩ : BufTy).Contents (Elt Ideal)) :
    Cert.ReferenceIdeal.Read.val_main_v51 (F := Ideal) x0 x1 x2 x3 x4 x5 x6 x7 x8 x9 x10 x11 x12 x13 x14 x15 x16 x17 x18 x19 x20 x21 x22 x23
      = Cert.DenseMlp.result x0 x1 x2 x3 x4 x5 x6 x7 x8 x9 x10 x11 x12 x13 x14 x15 x16 x17 x18 x19 x20 x21 x22 x23 := by
  funext i
  obtain ⟨b, u, rfl⟩ : ∃ (b : Fin 1048576) (u : Fin 1), i = ix2 b u := ⟨i 0, i 1, eq_ix2 i⟩
  rw [result_apply, val_main_v51_apply, val_main_v50_apply, val_main_v49_apply, edge_family, cross_family, corner_family,
    linear_term, Ideal.addf_def, Ideal.addf_def, Ideal.addf_def]
  rfl

end Cert.ReferenceIdeal.RefValue

end
-- ==== Proof.lean ====
/-
  The certificate of a dense three-family perceptron kernel against its reference, over the extended reals.

  THE TWO PROGRAMS. The reference applies, to each of the four slices `x (b, s, ·)` of a row of each of three inputs
  (edge and corner with ten features, cross with eight), a perceptron with two hidden layers `max (W·x + b) 0` and a
  linear read-out, adds the four slices' values, adds the three families, and adds `cn·nW + nb`. The kernel lays a row's
  four slices side by side (`4·d` features), and runs ONE perceptron per family on them whose hidden weights are the
  block-diagonal `kron (I₄, Wᵀ)`, whose biases and read-out column are the reference's tiled four times, and whose
  read-out bias is `4·b3`; it works on blocks of 4096 rows over a grid of 256 points.

  WHY THEY AGREE. On the extended reals a product with an exact `0` is `0`, so the off-diagonal blocks drop out of
  every sum; sums are commutative and associative; `4·b = b + b + b + b`; changes of float format are the identity.
  So the kernel's perceptron on `4·d` features IS the sum of the reference's four (Proof/Spec.lean,
  `mlp3_blockdiag`) — no finiteness of the inputs is used. Proof/Result.lean names the common result function;
  Proof/KernelPayload.lean reads the body's arithmetic at an entry; Proof/HostOps.lean and HostE / HostX / HostC read the
  host-made weights at an entry; Proof/KernelValue.lean puts the blocks together; Proof/RefValue.lean reads the reference.
  The three frames are the generated ones (the reference's is its generated run with the result dropped), and
  `preserves` is trivial: the idealization rewrote nothing.
-/
import proofs.«428701_j17154099380717_3_alg».proof.Defs
import proofs.«428701_j17154099380717_3_alg».proof.Proof.Gen.Kernel
import proofs.«428701_j17154099380717_3_alg».proof.Proof.Gen.Kernel.Skeleton
import proofs.«428701_j17154099380717_3_alg».proof.Proof.Gen.Kernel.Launch
import proofs.«428701_j17154099380717_3_alg».proof.Proof.Gen.Kernel.Points
import proofs.«428701_j17154099380717_3_alg».proof.Proof.Gen.Kernel.Frame
import proofs.«428701_j17154099380717_3_alg».proof.Proof.Gen.KernelIdeal
import proofs.«428701_j17154099380717_3_alg».proof.Proof.Gen.KernelIdeal.Skeleton
import proofs.«428701_j17154099380717_3_alg».proof.Proof.Gen.KernelIdeal.Launch
import proofs.«428701_j17154099380717_3_alg».proof.Proof.Gen.KernelIdeal.Points
import proofs.«428701_j17154099380717_3_alg».proof.Proof.Gen.KernelIdeal.Frame
import proofs.«428701_j17154099380717_3_alg».proof.Proof.Gen.ReferenceIdeal
import proofs.«428701_j17154099380717_3_alg».proof.Proof.Gen.Pre_finite_inputs
import proofs.«428701_j17154099380717_3_alg».proof.Proof.Gen.KernelIdeal.Value
import proofs.«428701_j17154099380717_3_alg».proof.Proof.Gen.ReferenceIdeal.Run
import proofs.«428701_j17154099380717_3_alg».proof.Proof.Gen.ReferenceIdeal.Read
import proofs.«428701_j17154099380717_3_alg».proof.Proof.KernelValue
import proofs.«428701_j17154099380717_3_alg».proof.Proof.RefValue
import Idealize.ShloMosaic.Adequacy
import Idealize.ShloMosaic.Init

noncomputable section

namespace Cert.Proof

open Idealize.ShloMosaic Idealize.ShloMosaic.TcCoe Idealize.SL.Sem

/-- Every execution of the word-level kernel terminates, faults nowhere and leaves its arguments as they were. -/
theorem frame_k : Cert.frame_Kernel := fun m ρ _ => Cert.Kernel.Gen.frame m ρ

/-- The same for the idealized kernel. -/
theorem frame_ki : Cert.frame_KernelIdeal := fun m ρ _ => Cert.KernelIdeal.Gen.frame m ρ

/-- The same for the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the twenty-four arguments, the idealized kernel ends with its result array at
    `Cert.DenseMlp.result` of the arguments (Proof/KernelValue.lean) and the reference ends with its result at the same
    function of the same arguments (Proof/RefValue.lean). -/
theorem algebraic : Cert.algebraic_KernelIdeal_ReferenceIdeal := by
  intro m ρ m' ρ' _ hagree
  refine ⟨fun c => Cert.KernelIdeal.KV.G m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.ref_eq]
  obtain ⟨h0, h1, h2, h3, h4, h5, h6, h7, h8, h9, h10, h11, h12, h13, h14, h15, h16, h17, h18, h19, h20, h21, h22, h23⟩ := hagree c
  rw [h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
